-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S100000 : Shape := ⟨1, ![100000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part5 {F : FTy → Type} [FloatOps F] (main_arg20 : FVec F S64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg16 : FVec F S4x64 .f32) (main_arg17 : FVec F S4x64 .f32) (main_arg18 : FVec F S4x64 .f32) (main_arg19 : FVec F S64x64 .f32) (main_arg20 : FVec F S64 .f32) (main_v63 : IVec S_ 1) (main_v67 : IVec S_ 1) : IVec S_ 1 :=
  let main_v68 : IVec S_ 1 := andi main_v63 main_v67
  let main_v69 : FVec F S4x64 .f32 := Host.absf main_arg16
  let main_cst_26 : FVec F S_ .f32 := constant S_ .f32 0x7F800000#32
  let main_v70 : FVec F S4x64 .f32 := broadcastInDim S4x64 ![] bcast_S_S4x64 main_cst_26
  let main_v71 : IVec S4x64 1 := cmpf .olt main_v69 main_v70
  let main_c_27 : IVec S_ 1 := constantI S_ 1 1#1
  let main_v72 : IVec S_ 1 := (fun x v => Host.reduce IntOp.andi x v reducesTo_S4x64_S_d0_1 h_S_) main_v71 main_c_27
  let main_v73 : IVec S_ 1 := andi main_v68 main_v72
  let main_v74 : FVec F S4x64 .f32 := Host.absf main_arg17
  let main_cst_28 : FVec F S_ .f32 := constant S_ .f32 0x7F800000#32
  let main_v75 : FVec F S4x64 .f32 := broadcastInDim S4x64 ![] bcast_S_S4x64 main_cst_28
  let main_v76 : IVec S4x64 1 := cmpf .olt main_v74 main_v75
  let main_c_29 : IVec S_ 1 := constantI S_ 1 1#1
  let main_v77 : IVec S_ 1 := (fun x v => Host.reduce IntOp.andi x v reducesTo_S4x64_S_d0_1 h_S_) main_v76 main_c_29
  let main_v78 : IVec S_ 1 := andi main_v73 main_v77
  let main_v79 : FVec F S4x64 .f32 := Host.absf main_arg18
  let main_cst_30 : FVec F S_ .f32 := constant S_ .f32 0x7F800000#32
  let main_v80 : FVec F S4x64 .f32 := broadcastInDim S4x64 ![] bcast_S_S4x64 main_cst_30
  let main_v81 : IVec S4x64 1 := cmpf .olt main_v79 main_v80
  let main_c_31 : IVec S_ 1 := constantI S_ 1 1#1
  let main_v82 : IVec S_ 1 := (fun x v => Host.reduce IntOp.andi x v reducesTo_S4x64_S_d0_1 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S4x64x64 .f32) (main_arg14 : FVec F S4x64 .f32) (main_arg15 : FVec F S4x64 .f32) (main_arg16 : FVec F S4x64 .f32) (main_arg17 : FVec F S4x64 .f32) (main_arg18 : FVec F S4x64 .f32) (main_arg19 : FVec F S64x64 .f32) (main_arg20 : FVec F S64 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64x64 .f32 := Host.absf main_arg13
  let main_cst_20 : FVec F S_ .f32 := constant S_ .f32 0x7F800000#32
  let main_v55 : FVec F S4x64x64 .f32 := broadcastInDim S4x64x64 ![] bcast_S_S4x64x64 main_cst_20
  let main_v56 : IVec S4x64x64 1 := cmpf .olt main_v54 main_v55
  let main_c_21 : IVec S_ 1 := constantI S_ 1 1#1
  let main_v57 : IVec S_ 1 := (fun x v => Host.reduce IntOp.andi x v reducesTo_S4x64x64_S_d0_1_2 h_S_) main_v56 main_c_21
  let main_v58 : IVec S_ 1 := andi main_v53 main_v57
  let main_v59 : FVec F S4x64 .f32 := Host.absf main_arg14
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  let main_v64 : FVec F S4x64 .f32 := Host.absf main_arg15
  let main_cst_24 : FVec F S_ .f32 := constant S_ .f32 0x7F800000#32
  let main_v65 : FVec F S4x64 .f32 := broadcastInDim S4x64 ![] bcast_S_S4x64 main_cst_24
  let main_v66 : IVec S4x64 1 := cmpf .olt main_v64 main_v65
  let main_c_25 : IVec S_ 1 := constantI S_ 1 1#1
  let main_v67 : IVec S_ 1 := (fun x v => Host.reduce IntOp.andi x v reducesTo_S4x64_S_d0_1 h_S_) main_v66 main_c_25
  fn_part4 (F := F) main_arg16 main_arg17 main_arg18 main_arg19 main_arg20 main_v63 main_v67

def fn_part2 {F : FTy → Type} [FloatOps F] (main_arg9 : FVec F S64 .f32) (main_arg10 : FVec F S64 .f32) (main_arg11 : FVec F S4x64x64 .f32) (main_arg12 : FVec F S4x64 .f32) (main_arg13 : FVec F S4x64x64 .f32) (main_arg14 : FVec F S4x64 .f32) (main_arg15 : FVec F S4x64 .f32) (main_arg16 : FVec F S4x64 .f32) (main_arg17 : FVec F S4x64 .f32) (main_arg18 : FVec F S4x64 .f32) (main_arg19 : FVec F S64x64 .f32) (main_arg20 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S4x64x64 .f32 := Host.absf main_arg11
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  let main_v49 : FVec F S4x64 .f32 := Host.absf main_arg12
  let main_cst_18 : FVec F S_ .f32 := constant S_ .f32 0x7F800000#32
  let main_v50 : FVec F S4x64 .f32 := broadcastInDim S4x64 ![] bcast_S_S4x64 main_cst_18
  fn_part3 (F := F) main_arg13 main_arg14 main_arg15 main_arg16 main_arg17 main_arg18 main_arg19 main_arg20 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64 .f32) (main_arg11 : FVec F S4x64x64 .f32) (main_arg12 : FVec F S4x64 .f32) (main_arg13 : FVec F S4x64x64 .f32) (main_arg14 : FVec F S4x64 .f32) (main_arg15 : FVec F S4x64 .f32) (main_arg16 : FVec F S4x64 .f32) (main_arg17 : FVec F S4x64 .f32) (main_arg18 : FVec F S4x64 .f32) (main_arg19 : FVec F S64x64 .f32) (main_arg20 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x64 .f32) (main_arg1 : IVec S2x1280000 32) (main_arg2 : IVec S100000 32) (main_arg3 : FVec F S64x64 .f32) (main_arg4 : FVec F S64 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S4x64x64 .f32) (main_arg12 : FVec F S4x64 .f32) (main_arg13 : FVec F S4x64x64 .f32) (main_arg14 : FVec F S4x64 .f32) (main_arg15 : FVec F S4x64 .f32) (main_arg16 : FVec F S4x64 .f32) (main_arg17 : FVec F S4x64 .f32) (main_arg18 : FVec F S4x64 .f32) (main_arg19 : FVec F S64x64 .f32) (main_arg20 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x64 : Shape := ⟨2, ![100000, 64]⟩
abbrev S2x1280000 : Shape := ⟨2, ![2, 1280000]⟩
abbrev S100000 : Shape := ⟨1, ![100000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S5000x64 : Shape := ⟨2, ![5000, 64]⟩
abbrev S1x64 : Shape := ⟨2, ![1, 64]⟩
abbrev S1x64x64 : Shape := ⟨3, ![1, 64, 64]⟩
abbrev S100000x1 : Shape := ⟨2, ![100000, 1]⟩
abbrev S128x64 : Shape := ⟨2, ![128, 64]⟩
abbrev S128x1 : Shape := ⟨2, ![128, 1]⟩
abbrev S5000x1 : Shape := ⟨2, ![5000, 1]⟩
abbrev S5000x128 : Shape := ⟨2, ![5000, 128]⟩

abbrev nBuf : Space → Nat
  | .hbm => 167
  | .vmem => 78
  | .smem => 0
  | _ => 0

abbrev hbmTy0_0 (i : Nat) : BufTy := match i % 128 with
  | 0 => ⟨S100000x64, .f32⟩
  | 1 => ⟨S2x1280000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S4x64x64, .f32⟩
  | 12 => ⟨S4x64, .f32⟩
  | 13 => ⟨S4x64x64, .f32⟩
  | 14 => ⟨S4x64, .f32⟩
  | 15 => ⟨S4x64, .f32⟩
  | 16 => ⟨S4x64, .f32⟩
  | 17 => ⟨S4x64, .f32⟩
  | 18 => ⟨S4x64, .f32⟩
  | 19 => ⟨S64x64, .f32⟩
  | 20 => ⟨S64, .f32⟩
  | 21 => ⟨S1x1280000, .i32⟩
  | 22 => ⟨S1280000, .i32⟩
  | 23 => ⟨S1x1280000, .i32⟩
  | 24 => ⟨S1280000, .i32⟩
  | 25 => ⟨S_, .i32⟩
  | 26 => ⟨S1280000, .i32⟩
  | 27 => ⟨S1280000, .i1⟩
  | 28 => ⟨S_, .i32⟩
  | 29 => ⟨S1280000, .i32⟩
  | 30 => ⟨S1280000, .i32⟩
  | 31 => ⟨S1280000, .i32⟩
  | 32 => ⟨S1280000x1, .i32⟩
  | 33 => ⟨S1280000x64, .f32⟩
  | 34 => ⟨S_, .f32⟩
  | 35 => ⟨S100000x64, .f32⟩
  | 36 => ⟨S1280000x1, .i32⟩
  | 37 => ⟨S100000x64, .f32⟩
  | 38 => ⟨S100000x64, .f32⟩
  | 39 => ⟨S_, .i32⟩
  | 40 => ⟨S1280000, .i32⟩
  | 41 => ⟨S1280000, .i1⟩
  | 42 => ⟨S_, .i32⟩
  | 43 => ⟨S1280000, .i32⟩
  | 44 => ⟨S1280000, .i32⟩
  | 45 => ⟨S1280000, .i32⟩
  | 46 => ⟨S1280000x1, .i32⟩
  | 47 => ⟨S1280000x64, .f32⟩
  | 48 => ⟨S_, .f32⟩
  | 49 => ⟨S100000x64, .f32⟩
  | 50 => ⟨S1280000x1, .i32⟩
  | 51 => ⟨S100000x64, .f32⟩
  | 52 => ⟨S1x64x64, .f32⟩
  | 53 => ⟨S64x64, .f32⟩
  | 54 => ⟨S1x64, .f32⟩
  | 55 => ⟨S64, .f32⟩
  | 56 => ⟨S1x64x64, .f32⟩
  | 57 => ⟨S64x64, .f32⟩
  | 58 => ⟨S1x64, .f32⟩
  | 59 => ⟨S64, .f32⟩
  | 60 => ⟨S1x64, .f32⟩
  | 61 => ⟨S64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S64, .f32⟩
  | 68 => ⟨S100000x64, .f32⟩
  | 69 => ⟨S_, .i32⟩
  | 70 => ⟨S1280000, .i32⟩
  | 71 => ⟨S1280000, .i1⟩
  | 72 => ⟨S_, .i32⟩
  | 73 => ⟨S1280000, .i32⟩
  | 74 => ⟨S1280000, .i32⟩
  | 75 => ⟨S1280000, .i32⟩
  | 76 => ⟨S1280000x1, .i32⟩
  | 77 => ⟨S1280000x64, .f32⟩
  | 78 => ⟨S_, .f32⟩
  | 79 => ⟨S100000x64, .f32⟩
  | 80 => ⟨S1280000x1, .i32⟩
  | 81 => ⟨S100000x64, .f32⟩
  | 82 => ⟨S1x64x64, .f32⟩
  | 83 => ⟨S64x64, .f32⟩
  | 84 => ⟨S1x64, .f32⟩
  | 85 => ⟨S64, .f32⟩
  | 86 => ⟨S1x64x64, .f32⟩
  | 87 => ⟨S64x64, .f32⟩
  | 88 => ⟨S1x64, .f32⟩
  | 89 => ⟨S64, .f32⟩
  | 90 => ⟨S1x64, .f32⟩
  | 91 => ⟨S64, .f32⟩
  | 92 => ⟨S1x64, .f32⟩
  | 93 => ⟨S64, .f32⟩
  | 94 => ⟨S1x64, .f32⟩
  | 95 => ⟨S64, .f32⟩
  | 96 => ⟨S1x64, .f32⟩
  | 97 => ⟨S64, .f32⟩
  | 98 => ⟨S100000x64, .f32⟩
  | 99 => ⟨S_, .i32⟩
  | 100 => ⟨S1280000, .i32⟩
  | 101 => ⟨S1280000, .i1⟩
  | 102 => ⟨S_, .i32⟩
  | 103 => ⟨S1280000, .i32⟩
  | 104 => ⟨S1280000, .i32⟩
  | 105 => ⟨S1280000, .i32⟩
  | 106 => ⟨S1280000x1, .i32⟩
  | 107 => ⟨S1280000x64, .f32⟩
  | 108 => ⟨S_, .f32⟩
  | 109 => ⟨S100000x64, .f32⟩
  | 110 => ⟨S1280000x1, .i32⟩
  | 111 => ⟨S100000x64, .f32⟩
  | 112 => ⟨S1x64x64, .f32⟩
  | 113 => ⟨S64x64, .f32⟩
  | 114 => ⟨S1x64, .f32⟩
  | 115 => ⟨S64, .f32⟩
  | 116 => ⟨S1x64x64, .f32⟩
  | 117 => ⟨S64x64, .f32⟩
  | 118 => ⟨S1x64, .f32⟩
  | 119 => ⟨S64, .f32⟩
  | 120 => ⟨S1x64, .f32⟩
  | 121 => ⟨S64, .f32⟩
  | 122 => ⟨S1x64, .f32⟩
  | 123 => ⟨S64, .f32⟩
  | 124 => ⟨S1x64, .f32⟩
  | 125 => ⟨S64, .f32⟩
  | 126 => ⟨S1x64, .f32⟩
  | 127 => ⟨S64, .f32⟩
  | _ => ⟨S100000x64, .f32⟩

abbrev hbmTy0_1 (i : Nat) : BufTy := match i % 128 with
  | 0 => ⟨S100000x64, .f32⟩
  | 1 => ⟨S_, .i32⟩
  | 2 => ⟨S1280000, .i32⟩
  | 3 => ⟨S1280000, .i1⟩
  | 4 => ⟨S_, .i32⟩
  | 5 => ⟨S1280000, .i32⟩
  | 6 => ⟨S1280000, .i32⟩
  | 7 => ⟨S1280000, .i32⟩
  | 8 => ⟨S1280000x1, .i32⟩
  | 9 => ⟨S1280000x64, .f32⟩
  | 10 => ⟨S_, .f32⟩
  | 11 => ⟨S100000x64, .f32⟩
  | 12 => ⟨S1280000x1, .i32⟩
  | 13 => ⟨S100000x64, .f32⟩
  | 14 => ⟨S1x64x64, .f32⟩
  | 15 => ⟨S64x64, .f32⟩
  | 16 => ⟨S1x64, .f32⟩
  | 17 => ⟨S64, .f32⟩
  | 18 => ⟨S1x64x64, .f32⟩
  | 19 => ⟨S64x64, .f32⟩
  | 20 => ⟨S1x64, .f32⟩
  | 21 => ⟨S64, .f32⟩
  | 22 => ⟨S1x64, .f32⟩
  | 23 => ⟨S64, .f32⟩
  | 24 => ⟨S1x64, .f32⟩
  | 25 => ⟨S64, .f32⟩
  | 26 => ⟨S1x64, .f32⟩
  | 27 => ⟨S64, .f32⟩
  | 28 => ⟨S1x64, .f32⟩
  | 29 => ⟨S64, .f32⟩
  | 30 => ⟨S100000x64, .f32⟩
  | 31 => ⟨S100000x1, .i32⟩
  | 32 => ⟨S128x64, .f32⟩
  | 33 => ⟨S128x1, .f32⟩
  | 34 => ⟨S_, .f32⟩
  | 35 => ⟨S128x1, .f32⟩
  | 36 => ⟨S128x1, .f32⟩
  | 37 => ⟨S128x64, .f32⟩
  | 38 => ⟨S128x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64, .f32⟩
  | .local _ .vmem, ⟨34, _⟩ => ⟨S64x64, .f32⟩
  | .local _ .vmem, ⟨35, _⟩ => ⟨S64, .f32⟩
  | .local _ .vmem, ⟨36, _⟩ => ⟨S64, .f32⟩
  | .local _ .vmem, ⟨37, _⟩ => ⟨S64, .f32⟩
  | .local _ .vmem, ⟨38, _⟩ => ⟨S64, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S64, .f32⟩
  | .local _ .vmem, ⟨48, _⟩ => ⟨S64x64, .f32⟩
  | .local _ .vmem, ⟨49, _⟩ => ⟨S64, .f32⟩
  | .local _ .vmem, ⟨50, _⟩ => ⟨S64, .f32⟩
  | .local _ .vmem, ⟨51, _⟩ => ⟨S64, .f32⟩
  | .local _ .vmem, ⟨52, _⟩ => ⟨S64, .f32⟩
  | .local _ .vmem, ⟨53, _⟩ => ⟨S64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S64x64, .f32⟩
  | .local _ .vmem, ⟨61, _⟩ => ⟨S64, .f32⟩
  | .local _ .vmem, ⟨62, _⟩ => ⟨S64x64, .f32⟩
  | .local _ .vmem, ⟨63, _⟩ => ⟨S64, .f32⟩
  | .local _ .vmem, ⟨64, _⟩ => ⟨S64, .f32⟩
  | .local _ .vmem, ⟨65, _⟩ => ⟨S64, .f32⟩
  | .local _ .vmem, ⟨66, _⟩ => ⟨S64, .f32⟩
  | .local _ .vmem, ⟨67, _⟩ => ⟨S64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S64x64, .f32⟩
  | .local _ .vmem, ⟨73, _⟩ => ⟨S64, .f32⟩
  | .local _ .vmem, ⟨74, _⟩ => ⟨S5000x1, .i32⟩
  | .local _ .vmem, ⟨75, _⟩ => ⟨S5000x1, .i32⟩
  | .local _ .vmem, ⟨76, _⟩ => ⟨S128x64, .f32⟩
  | .local _ .vmem, ⟨77, _⟩ => ⟨S128x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_4 : Ref sig .tc := ⟨.hbm, 69, rfl⟩
abbrev main_v42 : Ref sig .tc := ⟨.hbm, 70, rfl⟩
abbrev main_v43 : Ref sig .tc := ⟨.hbm, 71, rfl⟩
abbrev main_c_5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_7 : Ref sig .tc := ⟨.hbm, 99, rfl⟩
abbrev main_v69 : Ref sig .tc := ⟨.hbm, 100, rfl⟩
abbrev main_v70 : Ref sig .tc := ⟨.hbm, 101, rfl⟩
abbrev main_c_8 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_9 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_10 : Ref sig .tc := ⟨.hbm, 129, rfl⟩
abbrev main_v96 : Ref sig .tc := ⟨.hbm, 130, rfl⟩
abbrev main_v97 : Ref sig .tc := ⟨.hbm, 131, rfl⟩
abbrev main_c_11 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_12 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124_0 : Ref sig .tc := ⟨.hbm, 160, rfl⟩
abbrev main_v124_1 : Ref sig .tc := ⟨.hbm, 161, rfl⟩
abbrev main_cst_13 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg9_0 : Ref sig .tc := ⟨.vmem, 53, rfl⟩
abbrev cc3_stg10_0 : Ref sig .tc := ⟨.vmem, 54, rfl⟩
abbrev cc3_stg10_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg3_0 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg6_0 : Ref sig .tc := ⟨.vmem, 64, rfl⟩
abbrev cc4_stg7_0 : Ref sig .tc := ⟨.vmem, 65, rfl⟩
abbrev cc4_stg8_0 : Ref sig .tc := ⟨.vmem, 66, rfl⟩
abbrev cc4_stg9_0 : Ref sig .tc := ⟨.vmem, 67, rfl⟩
abbrev cc4_stg10_0 : Ref sig .tc := ⟨.vmem, 68, rfl⟩
abbrev cc4_stg10_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg2_0 : Ref sig .tc := ⟨.vmem, 73, rfl⟩
abbrev cc5_stg3_0 : Ref sig .tc := ⟨.vmem, 74, rfl⟩
abbrev cc5_stg3_1 : Ref sig .tc := ⟨.vmem, 75, rfl⟩
abbrev cc5_stg4_0 : Ref sig .tc := ⟨.vmem, 76, rfl⟩
abbrev cc5_stg5_0 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem10_0 : DmaSem sig := 54
abbrev cc3_sem10_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem3_0 : DmaSem sig := 61
abbrev cc4_sem4_0 : DmaSem sig := 62
abbrev cc4_sem5_0 : DmaSem sig := 63
abbrev cc4_sem6_0 : DmaSem sig := 64
abbrev cc4_sem7_0 : DmaSem sig := 65
abbrev cc4_sem8_0 : DmaSem sig := 66
abbrev cc4_sem9_0 : DmaSem sig := 67
abbrev cc4_sem10_0 : DmaSem sig := 68
abbrev cc4_sem10_1 : DmaSem sig := 69
abbrev cc5_sem0_0 : DmaSem sig := 70
abbrev cc5_sem0_1 : DmaSem sig := 71
abbrev cc5_sem1_0 : DmaSem sig := 72
abbrev cc5_sem2_0 : DmaSem sig := 73
abbrev cc5_sem3_0 : DmaSem sig := 74
abbrev cc5_sem3_1 : DmaSem sig := 75
abbrev cc5_sem4_0 : DmaSem sig := 76
abbrev cc5_sem5_0 : DmaSem sig := 77

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S5000x64 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .i32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S64x64_S64x64 : S64x64.ShapeCasts S64x64
  shapeCasts_S64_S64 : S64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  shapeCasts_S100000_S100000x1 : S100000.ShapeCasts S100000x1
  inb_S128x64_S128x64_0_0 : ∀ a, (![0, 0] : Fin 2 → Nat) a + S128x64.size a ≤ S128x64.size a
  h_S128x64 : 0 < S128x64.numel
  inb_S128x1_S128x1_0_0 : ∀ a, (![0, 0] : Fin 2 → Nat) a + S128x1.size a ≤ S128x1.size a
  h_S128x1 : 0 < S128x1.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  shapeCasts_S128x64_S128x64 : S128x64.ShapeCasts S128x64
  shapeCasts_S128x1_S128x1 : S128x1.ShapeCasts S128x1
  bcast_S_S128x1 : S_.BroadcastsInDim S128x1 (![] : Fin 0 → Fin S128x1.rank)
  bcast_S128x1_S128x64_0_1 : S128x1.BroadcastsInDim S128x64 (![0, 1] : Fin 2 → Fin S128x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S5000x128_S5000x1_S128x1_0_0_1_1_n_n_wf : DotDims.WF S5000x128 S5000x1 S128x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S100000x64.size a
  hwx2_10 : ∀ i : grid2.Coords, EltTy.bits .f32 = 32 ∨ (Rect.block (s := S100000x64) S5000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64.size a ≤ S64.size a
  hwx3_9 : ∀ i : grid3.Coords, EltTy.bits .f32 = 32 ∨ (Rect.block (s := S64) S64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x64.size a ≤ S100000x64.size a
  hwx3_10 : ∀ i : grid3.Coords, EltTy.bits .f32 = 32 ∨ (Rect.block (s := S100000x64) S5000x64.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64.size a ≤ S64.size a
  hwx4_7 : ∀ i : grid4.Coords, EltTy.bits .f32 = 32 ∨ (Rect.block (s := S64) S64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64.size a ≤ S64.size a
  hwx4_8 : ∀ i : grid4.Coords, EltTy.bits .f32 = 32 ∨ (Rect.block (s := S64) S64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64.size a ≤ S64.size a
  hwx4_9 : ∀ i : grid4.Coords, EltTy.bits .f32 = 32 ∨ (Rect.block (s := S64) S64.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S5000x64.size a ≤ S100000x64.size a
  hwx4_10 : ∀ i : grid4.Coords, EltTy.bits .f32 = 32 ∨ (Rect.block (s := S100000x64) S5000x64.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .i32 = 32 ∨ (Rect.block (s := S100000x1) S5000x1.size (cc5_transform_3 i) (hinb5_3 i)).WholeWords (EltTy.packing .i32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x64.size a ≤ S128x64.size a
  hwx5_4 : ∀ i : grid5.Coords, EltTy.bits .f32 = 32 ∨ (Rect.block (s := S128x64) S128x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x1.size a ≤ S128x1.size a
  hwx5_5 : ∀ i : grid5.Coords, EltTy.bits .f32 = 32 ∨ (Rect.block (s := S128x1) S128x1.size (cc5_transform_5 i) (hinb5_5 i)).WholeWords (EltTy.packing .f32)

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v41) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v65) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v67) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v68) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v68) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v88) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v90) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v92) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v94) S64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v95) S5000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v95) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v107) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v109) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v113) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v115) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v117) S64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v119) S64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v121) S64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v122) S5000x64.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v122) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg19) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg20) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v124_0) S128x64.size cc5_transform_4 reads5_4 true true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124_1) S128x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S100000 : Shape := ⟨1, ![100000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S1x64 : Shape := ⟨2, ![1, 64]⟩
abbrev S1x64x64 : Shape := ⟨3, ![1, 64, 64]⟩
abbrev S128x64 : Shape := ⟨2, ![128, 64]⟩
abbrev S100000x1 : Shape := ⟨2, ![100000, 1]⟩
abbrev S128x1 : Shape := ⟨2, ![128, 1]⟩

abbrev nBuf : Space → Nat
  | .hbm => 333
  | .vmem => 0
  | .smem => 0
  | _ => 0

abbrev hbmTy0_0 (i : Nat) : BufTy := match i % 128 with
  | 0 => ⟨S100000x64, .f32⟩
  | 1 => ⟨S2x1280000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S4x64x64, .f32⟩
  | 12 => ⟨S4x64, .f32⟩
  | 13 => ⟨S4x64x64, .f32⟩
  | 14 => ⟨S4x64, .f32⟩
  | 15 => ⟨S4x64, .f32⟩
  | 16 => ⟨S4x64, .f32⟩
  | 17 => ⟨S4x64, .f32⟩
  | 18 => ⟨S4x64, .f32⟩
  | 19 => ⟨S64x64, .f32⟩
  | 20 => ⟨S64, .f32⟩
  | 21 => ⟨S1x1280000, .i32⟩
  | 22 => ⟨S1280000, .i32⟩
  | 23 => ⟨S1x1280000, .i32⟩
  | 24 => ⟨S1280000, .i32⟩
  | 25 => ⟨S_, .i32⟩
  | 26 => ⟨S1280000, .i32⟩
  | 27 => ⟨S1280000, .i1⟩
  | 28 => ⟨S_, .i32⟩
  | 29 => ⟨S1280000, .i32⟩
  | 30 => ⟨S1280000, .i32⟩
  | 31 => ⟨S1280000, .i32⟩
  | 32 => ⟨S1280000x1, .i32⟩
  | 33 => ⟨S1280000x64, .f32⟩
  | 34 => ⟨S_, .f32⟩
  | 35 => ⟨S100000x64, .f32⟩
  | 36 => ⟨S1280000x1, .i32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S64, .f32⟩
  | 58 => ⟨S64, .f32⟩
  | 59 => ⟨S64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S1x64x64, .f32⟩
  | 70 => ⟨S64x64, .f32⟩
  | 71 => ⟨S1x64, .f32⟩
  | 72 => ⟨S64, .f32⟩
  | 73 => ⟨S1x64x64, .f32⟩
  | 74 => ⟨S64x64, .f32⟩
  | 75 => ⟨S1x64, .f32⟩
  | 76 => ⟨S64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S64, .f32⟩
  | 83 => ⟨S1x64, .f32⟩
  | 84 => ⟨S64, .f32⟩
  | 85 => ⟨S_, .i32⟩
  | 86 => ⟨S1280000, .i32⟩
  | 87 => ⟨S1280000, .i1⟩
  | 88 => ⟨S_, .i32⟩
  | 89 => ⟨S1280000, .i32⟩
  | 90 => ⟨S1280000, .i32⟩
  | 91 => ⟨S1280000, .i32⟩
  | 92 => ⟨S1280000x1, .i32⟩
  | 93 => ⟨S1280000x64, .f32⟩
  | 94 => ⟨S_, .f32⟩
  | 95 => ⟨S100000x64, .f32⟩
  | 96 => ⟨S1280000x1, .i32⟩
  | 97 => ⟨S100000x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S64, .f32⟩
  | 118 => ⟨S64, .f32⟩
  | 119 => ⟨S64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S1x64x64, .f32⟩
  | 3 => ⟨S64x64, .f32⟩
  | 4 => ⟨S1x64, .f32⟩
  | 5 => ⟨S64, .f32⟩
  | 6 => ⟨S1x64x64, .f32⟩
  | 7 => ⟨S64x64, .f32⟩
  | 8 => ⟨S1x64, .f32⟩
  | 9 => ⟨S64, .f32⟩
  | 10 => ⟨S1x64, .f32⟩
  | 11 => ⟨S64, .f32⟩
  | 12 => ⟨S1x64, .f32⟩
  | 13 => ⟨S64, .f32⟩
  | 14 => ⟨S1x64, .f32⟩
  | 15 => ⟨S64, .f32⟩
  | 16 => ⟨S1x64, .f32⟩
  | 17 => ⟨S64, .f32⟩
  | 18 => ⟨S_, .i32⟩
  | 19 => ⟨S1280000, .i32⟩
  | 20 => ⟨S1280000, .i1⟩
  | 21 => ⟨S_, .i32⟩
  | 22 => ⟨S1280000, .i32⟩
  | 23 => ⟨S1280000, .i32⟩
  | 24 => ⟨S1280000, .i32⟩
  | 25 => ⟨S1280000x1, .i32⟩
  | 26 => ⟨S1280000x64, .f32⟩
  | 27 => ⟨S_, .f32⟩
  | 28 => ⟨S100000x64, .f32⟩
  | 29 => ⟨S1280000x1, .i32⟩
  | 30 => ⟨S100000x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S100000x64, .f32⟩
  | 63 => ⟨S1x64x64, .f32⟩
  | 64 => ⟨S64x64, .f32⟩
  | 65 => ⟨S1x64, .f32⟩
  | 66 => ⟨S64, .f32⟩
  | 67 => ⟨S1x64x64, .f32⟩
  | 68 => ⟨S64x64, .f32⟩
  | 69 => ⟨S1x64, .f32⟩
  | 70 => ⟨S64, .f32⟩
  | 71 => ⟨S1x64, .f32⟩
  | 72 => ⟨S64, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S64, .f32⟩
  | 79 => ⟨S_, .i32⟩
  | 80 => ⟨S1280000, .i32⟩
  | 81 => ⟨S1280000, .i1⟩
  | 82 => ⟨S_, .i32⟩
  | 83 => ⟨S1280000, .i32⟩
  | 84 => ⟨S1280000, .i32⟩
  | 85 => ⟨S1280000, .i32⟩
  | 86 => ⟨S1280000x1, .i32⟩
  | 87 => ⟨S1280000x64, .f32⟩
  | 88 => ⟨S_, .f32⟩
  | 89 => ⟨S100000x64, .f32⟩
  | 90 => ⟨S1280000x1, .i32⟩
  | 91 => ⟨S100000x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S64, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S1x64x64, .f32⟩
  | 125 => ⟨S64x64, .f32⟩
  | 126 => ⟨S1x64, .f32⟩
  | 127 => ⟨S64, .f32⟩
  | _ => ⟨S100000x64, .f32⟩

abbrev hbmTy0_2 (i : Nat) : BufTy := match i % 128 with
  | 0 => ⟨S1x64x64, .f32⟩
  | 1 => ⟨S64x64, .f32⟩
  | 2 => ⟨S1x64, .f32⟩
  | 3 => ⟨S64, .f32⟩
  | 4 => ⟨S1x64, .f32⟩
  | 5 => ⟨S64, .f32⟩
  | 6 => ⟨S1x64, .f32⟩
  | 7 => ⟨S64, .f32⟩
  | 8 => ⟨S1x64, .f32⟩
  | 9 => ⟨S64, .f32⟩
  | 10 => ⟨S1x64, .f32⟩
  | 11 => ⟨S64, .f32⟩
  | 12 => ⟨S_, .i32⟩
  | 13 => ⟨S1280000, .i32⟩
  | 14 => ⟨S1280000, .i1⟩
  | 15 => ⟨S_, .i32⟩
  | 16 => ⟨S1280000, .i32⟩
  | 17 => ⟨S1280000, .i32⟩
  | 18 => ⟨S1280000, .i32⟩
  | 19 => ⟨S1280000x1, .i32⟩
  | 20 => ⟨S1280000x64, .f32⟩
  | 21 => ⟨S_, .f32⟩
  | 22 => ⟨S100000x64, .f32⟩
  | 23 => ⟨S1280000x1, .i32⟩
  | 24 => ⟨S100000x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S64, .f32⟩
  | 45 => ⟨S64, .f32⟩
  | 46 => ⟨S64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S128x64, .f32⟩
  | 64 => ⟨S100000x1, .i32⟩
  | 65 => ⟨S128x64, .f32⟩
  | 66 => ⟨S_, .f32⟩
  | 67 => ⟨S100000x1, .f32⟩
  | 68 => ⟨S_, .f32⟩
  | 69 => ⟨S128x1, .f32⟩
  | 70 => ⟨S100000x1, .i32⟩
  | 71 => ⟨S128x1, .f32⟩
  | 72 => ⟨S_, .f32⟩
  | 73 => ⟨S128x1, .f32⟩
  | 74 => ⟨S128x1, .f32⟩
  | 75 => ⟨S128x64, .f32⟩
  | 76 => ⟨S128x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call0_cst : Ref sig .tc := ⟨.hbm, 43, rfl⟩
abbrev main_call0_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call1_cst : Ref sig .tc := ⟨.hbm, 50, rfl⟩
abbrev main_call1_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_1 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_2 : Ref sig .tc := ⟨.hbm, 85, rfl⟩
abbrev main_v56 : Ref sig .tc := ⟨.hbm, 86, rfl⟩
abbrev main_v57 : Ref sig .tc := ⟨.hbm, 87, rfl⟩
abbrev main_c_3 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_4 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call2_cst : Ref sig .tc := ⟨.hbm, 103, rfl⟩
abbrev main_call2_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call3_cst : Ref sig .tc := ⟨.hbm, 110, rfl⟩
abbrev main_call3_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_5 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_6 : Ref sig .tc := ⟨.hbm, 146, rfl⟩
abbrev main_v109 : Ref sig .tc := ⟨.hbm, 147, rfl⟩
abbrev main_v110 : Ref sig .tc := ⟨.hbm, 148, rfl⟩
abbrev main_c_7 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_8 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_call4_cst : Ref sig .tc := ⟨.hbm, 164, rfl⟩
abbrev main_call4_v0 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_call5_cst : Ref sig .tc := ⟨.hbm, 171, rfl⟩
abbrev main_call5_v0 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_9 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_c_10 : Ref sig .tc := ⟨.hbm, 207, rfl⟩
abbrev main_v162 : Ref sig .tc := ⟨.hbm, 208, rfl⟩
abbrev main_v163 : Ref sig .tc := ⟨.hbm, 209, rfl⟩
abbrev main_c_11 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_12 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_call6_cst : Ref sig .tc := ⟨.hbm, 225, rfl⟩
abbrev main_call6_v0 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_call7_cst : Ref sig .tc := ⟨.hbm, 232, rfl⟩
abbrev main_call7_v0 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_13 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_c_14 : Ref sig .tc := ⟨.hbm, 268, rfl⟩
abbrev main_v215 : Ref sig .tc := ⟨.hbm, 269, rfl⟩
abbrev main_v216 : Ref sig .tc := ⟨.hbm, 270, rfl⟩
abbrev main_c_15 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_cst_16 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_call8_cst : Ref sig .tc := ⟨.hbm, 286, rfl⟩
abbrev main_call8_v0 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_call9_cst : Ref sig .tc := ⟨.hbm, 293, rfl⟩
abbrev main_call9_v0 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_cst_17 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_cst_18 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_cst_19 : Ref sig .tc := ⟨.hbm, 322, rfl⟩
abbrev main_v260 : Ref sig .tc := ⟨.hbm, 323, rfl⟩
abbrev main_cst_20 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_cst_21 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S128x1 : S_.BroadcastsInDim S128x1 (![] : Fin 0 → Fin S128x1.rank)
  bcast_S128x1_S128x64_0_1 : S128x1.BroadcastsInDim S128x64 (![0, 1] : Fin 2 → Fin S128x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128x1_S100000x1_S100000x1_1_0_0_1_wf : ScatterDims.WF S128x1 S100000x1 S100000x1 [1] [0] [0] 1

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf

class Facts : Prop extends Facts₀ where

variable [Facts]
-- ==== Proof.KTerms.lean ====
/-
  The kernel program's host operations around its regions, grouped: the neighbour sums, the slices that pick a layer's
  parameters out of their stacks, the graph ids as a column, and the final mean, each as one function of arrays, written
  with the operations the program prints.
-/
import proofs.«425461_j52037823758418_1_alg».proof.KernelIdeal
import proofs.«425461_j52037823758418_1_alg».proof.Proof.Gen.KernelIdeal

noncomputable section

namespace Cert.KernelIdeal.Terms

open Cert.KernelIdeal Cert.KernelIdeal.Gen Idealize.ShloMosaic

variable {F : FTy → Type} [FloatOps F]

/-- The edge list's first row, as a vector: each edge's source node. -/
def srcRow (ei : IVec S2x1280000 32) : IVec S1280000 32 :=
  shapeCast _ (extractStridedSlice S1x1280000 ![0, 0] ei slices_S2x1280000_S1x1280000_0_0) shapeCasts_S1x1280000_S1280000

/-- The edge list's second row, as a vector: each edge's destination node. -/
def dstRow (ei : IVec S2x1280000 32) : IVec S1280000 32 :=
  shapeCast _ (extractStridedSlice S1x1280000 ![1, 0] ei slices_S2x1280000_S1x1280000_1_0) shapeCasts_S1x1280000_S1280000

/-- The source indices with a negative index counted from the end. -/
def wrapped (src : IVec S1280000 32) : IVec S1280000 32 :=
  select (cmpi .slt src (broadcastInDim S1280000 ![] bcast_S_S1280000 (constantI S_ 32 0#32)))
    (addi src (broadcastInDim S1280000 ![] bcast_S_S1280000 (constantI S_ 32 100000#32))) src

/-- The neighbour sums over given source and destination vectors: every edge's source row gathered, and added into its
    destination row of a zero array. -/
def aggOf (h : FVec F S100000x64 .f32) (src dst : IVec S1280000 32) : FVec F S100000x64 .f32 :=
  Host.scatterAdd scatter_S100000x64_S1280000x1_S1280000x64_1_0_0_1
    (broadcastInDim S100000x64 ![] bcast_S_S100000x64 (constant S_ .f32 0x00000000#32))
    (broadcastInDim S1280000x1 ![0] bcast_S1280000_S1280000x1_0 dst)
    (Host.gather gather_S100000x64_S1280000x1_S1280000x64_1_0_n_n_0_1_164 h
      (broadcastInDim S1280000x1 ![0] bcast_S1280000_S1280000x1_0 (wrapped src)))

/-- The neighbour sums over the edge list. -/
def aggT (h : FVec F S100000x64 .f32) (ei : IVec S2x1280000 32) : FVec F S100000x64 .f32 :=
  aggOf h (srcRow ei) (dstRow ei)

/-- Layer k's matrix out of a stack of four. -/
def mat0 (a : FVec F S4x64x64 .f32) : FVec F S64x64 .f32 :=
  shapeCast _ (extractStridedSlice S1x64x64 ![0, 0, 0] a slices_S4x64x64_S1x64x64_0_0_0) shapeCasts_S1x64x64_S64x64
def mat1 (a : FVec F S4x64x64 .f32) : FVec F S64x64 .f32 :=
  shapeCast _ (extractStridedSlice S1x64x64 ![1, 0, 0] a slices_S4x64x64_S1x64x64_1_0_0) shapeCasts_S1x64x64_S64x64
def mat2 (a : FVec F S4x64x64 .f32) : FVec F S64x64 .f32 :=
  shapeCast _ (extractStridedSlice S1x64x64 ![2, 0, 0] a slices_S4x64x64_S1x64x64_2_0_0) shapeCasts_S1x64x64_S64x64
def mat3 (a : FVec F S4x64x64 .f32) : FVec F S64x64 .f32 :=
  shapeCast _ (extractStridedSlice S1x64x64 ![3, 0, 0] a slices_S4x64x64_S1x64x64_3_0_0) shapeCasts_S1x64x64_S64x64

/-- Layer k's vector out of a stack of four. -/
def vec0 (a : FVec F S4x64 .f32) : FVec F S64 .f32 :=
  shapeCast _ (extractStridedSlice S1x64 ![0, 0] a slices_S4x64_S1x64_0_0) shapeCasts_S1x64_S64
def vec1 (a : FVec F S4x64 .f32) : FVec F S64 .f32 :=
  shapeCast _ (extractStridedSlice S1x64 ![1, 0] a slices_S4x64_S1x64_1_0) shapeCasts_S1x64_S64
def vec2 (a : FVec F S4x64 .f32) : FVec F S64 .f32 :=
  shapeCast _ (extractStridedSlice S1x64 ![2, 0] a slices_S4x64_S1x64_2_0) shapeCasts_S1x64_S64
def vec3 (a : FVec F S4x64 .f32) : FVec F S64 .f32 :=
  shapeCast _ (extractStridedSlice S1x64 ![3, 0] a slices_S4x64_S1x64_3_0) shapeCasts_S1x64_S64

/-- The mean: the sums over the larger of the counts and one, feature by feature. -/
def meanT (s : FVec F S128x64 .f32) (cn : FVec F S128x1 .f32) : FVec F S128x64 .f32 :=
  Host.divf s (broadcastInDim S128x64 ![0, 1] bcast_S128x1_S128x64_0_1
    (maximumf cn (broadcastInDim S128x1 ![] bcast_S_S128x1 (constant S_ .f32 0x3F800000#32))))

/-- The graph ids as a column. -/
def idCol (batch : IVec S100000 32) : IVec S100000x1 32 := shapeCast _ batch shapeCasts_S100000_S100000x1

end Cert.KernelIdeal.Terms

end
-- ==== Proof.Spec.lean ====
/-
  The mathematics of the network, stated once over the extended reals, index by index.

  A node-feature array has 100000 rows of 64 features. One layer takes the row `h r + a r` (the node's own
  features plus the sum `a` of its in-neighbours' features), maps it through two affine maps each followed by a
  clamp at zero, and normalises each feature with fixed statistics: `((z - mu) * rsqrt (v + eps)) * g + be`.
  The first layer returns that; each later layer adds the row it started from. The head maps each row through one
  more affine map and `tanh`, and the result is pooled: graph `g`'s row is the sum of the rows of the nodes whose
  graph id is `g`, divided by the larger of their count and one.
-/
import Idealize.ShloMosaic.PureOps.Ideal
import Idealize.ShloMosaic.PureOps.Ideal.Laws
import Idealize.ShloMosaic.Lib.ValueIdx

noncomputable section

namespace Cert.GinSpec

open Idealize.ShloMosaic Idealize.ShloMosaic.ValueIdx

/-- Node features: 100000 rows of 64. -/
abbrev SN : Shape := ⟨2, ![100000, 64]⟩
/-- A weight matrix. -/
abbrev SM : Shape := ⟨2, ![64, 64]⟩
/-- A per-feature vector. -/
abbrev SV : Shape := ⟨1, ![64]⟩
/-- The graph ids, one per node. -/
abbrev SB : Shape := ⟨1, ![100000]⟩
/-- Pooled features: 128 graphs of 64. -/
abbrev SG : Shape := ⟨2, ![128, 64]⟩
/-- Per-graph counts, as a column. -/
abbrev SC : Shape := ⟨2, ![128, 1]⟩

/-- The zero the clamps compare with, as the word both programs print. -/
abbrev zeroW : EReal := Ideal.ofBits .f32 0x00000000#32
/-- The normalisation's epsilon, as the word both programs print. -/
abbrev epsW : EReal := Ideal.ofBits .f32 0x3727C5AC#32
/-- The one the count is compared with, as the word both programs print. -/
abbrev oneW : EReal := Ideal.ofBits .f32 0x3F800000#32

/-- One affine map of a feature row: `(x · W) k + b k`. -/
def affine (x : Fin 64 → EReal) (W : SM.Idx → EReal) (b : SV.Idx → EReal) (k : Fin 64) : EReal :=
  (∑ l : Fin 64, x l * W (ix2 l k)) + b (ix1 k)

/-- The two clamped affine maps and the normalisation, of one row `z`, at feature `q`. -/
def mlpNorm (z : Fin 64 → EReal) (W1 : SM.Idx → EReal) (b1 : SV.Idx → EReal) (W2 : SM.Idx → EReal) (b2 : SV.Idx → EReal)
    (g be mu v : SV.Idx → EReal) (q : Fin 64) : EReal :=
  ((max (affine (fun k => max (affine z W1 b1 k) zeroW) W2 b2 q) zeroW - mu (ix1 q))
      * Ideal.rsqrt (v (ix1 q) + epsW)) * g (ix1 q) + be (ix1 q)

/-- A layer's row without the residual: the row `h + a` through `mlpNorm`. -/
def rowPlain (hrow arow : Fin 64 → EReal) (W1 : SM.Idx → EReal) (b1 : SV.Idx → EReal) (W2 : SM.Idx → EReal)
    (b2 g be mu v : SV.Idx → EReal) (q : Fin 64) : EReal :=
  mlpNorm (fun l => hrow l + arow l) W1 b1 W2 b2 g be mu v q

/-- A layer's row with the residual: the row it started from plus `rowPlain`. -/
def rowRes (hrow arow : Fin 64 → EReal) (W1 : SM.Idx → EReal) (b1 : SV.Idx → EReal) (W2 : SM.Idx → EReal)
    (b2 g be mu v : SV.Idx → EReal) (q : Fin 64) : EReal :=
  hrow q + rowPlain hrow arow W1 b1 W2 b2 g be mu v q

/-- The first layer on whole arrays. -/
def layerPlain (h a : SN.Idx → EReal) (W1 : SM.Idx → EReal) (b1 : SV.Idx → EReal) (W2 : SM.Idx → EReal)
    (b2 g be mu v : SV.Idx → EReal) : SN.Idx → EReal :=
  fun i => rowPlain (fun l => h (ix2 (i 0) l)) (fun l => a (ix2 (i 0) l)) W1 b1 W2 b2 g be mu v (i 1)

/-- A residual layer on whole arrays. -/
def layerRes (h a : SN.Idx → EReal) (W1 : SM.Idx → EReal) (b1 : SV.Idx → EReal) (W2 : SM.Idx → EReal)
    (b2 g be mu v : SV.Idx → EReal) : SN.Idx → EReal :=
  fun i => rowRes (fun l => h (ix2 (i 0) l)) (fun l => a (ix2 (i 0) l)) W1 b1 W2 b2 g be mu v (i 1)

/-- The head on whole arrays: `tanh` of one affine map of each row. -/
def head (h : SN.Idx → EReal) (W : SM.Idx → EReal) (b : SV.Idx → EReal) : SN.Idx → EReal :=
  fun i => Ideal.tanh (affine (fun l => h (ix2 (i 0) l)) W b (i 1))

/-- Node `n` belongs to graph `g`: its id word is `g`. -/
abbrev inGraph (batch : SB.Idx → BitVec 32) (n : Fin 100000) (g : Fin 128) : Prop :=
  batch (ix1 n) = BitVec.ofNat 32 g.val

/-- Graph `g`'s feature sum: the rows of its nodes, added. -/
def poolSum (o : SN.Idx → EReal) (batch : SB.Idx → BitVec 32) : SG.Idx → EReal :=
  fun i => ∑ n : Fin 100000, if inGraph batch n (i 0) then o (ix2 n (i 1)) else 0

/-- Graph `g`'s node count. -/
def poolCount (batch : SB.Idx → BitVec 32) : SC.Idx → EReal :=
  fun i => ∑ n : Fin 100000, if inGraph batch n (i 0) then (1 : EReal) else 0

/-- The mean: the sum over the larger of the count and one. -/
def poolMean (sums : SG.Idx → EReal) (cnt : SC.Idx → EReal) : SG.Idx → EReal :=
  fun i => Ideal.div (sums i) (max (cnt (ix2 (i 0) (0 : Fin 1))) oneW)

/-- One layer's parameters: two weight matrices with their biases, and the normalisation's scale, shift, mean and variance. -/
structure Params where
  W1 : SM.Idx → EReal
  b1 : SV.Idx → EReal
  W2 : SM.Idx → EReal
  b2 : SV.Idx → EReal
  g : SV.Idx → EReal
  be : SV.Idx → EReal
  mu : SV.Idx → EReal
  v : SV.Idx → EReal

/-- The first layer with its parameters bundled. -/
def plainOf (agg : (SN.Idx → EReal) → SN.Idx → EReal) (p : Params) (h : SN.Idx → EReal) : SN.Idx → EReal :=
  layerPlain h (agg h) p.W1 p.b1 p.W2 p.b2 p.g p.be p.mu p.v

/-- A residual layer with its parameters bundled. -/
def resOf (agg : (SN.Idx → EReal) → SN.Idx → EReal) (p : Params) (h : SN.Idx → EReal) : SN.Idx → EReal :=
  layerRes h (agg h) p.W1 p.b1 p.W2 p.b2 p.g p.be p.mu p.v

/-- The whole network: five layers over one neighbour-sum map `agg`, the head, and the mean pool over the graph ids. -/
def network (agg : (SN.Idx → EReal) → SN.Idx → EReal) (x : SN.Idx → EReal) (batch : SB.Idx → BitVec 32)
    (p1 p2 p3 p4 p5 : Params) (W : SM.Idx → EReal) (b : SV.Idx → EReal) : SG.Idx → EReal :=
  poolMean (poolSum (head (resOf agg p5 (resOf agg p4 (resOf agg p3 (resOf agg p2 (plainOf agg p1 x))))) W b) batch)
    (poolCount batch)

end Cert.GinSpec

end
-- ==== Proof.Net.lean ====
/-
  The whole network with its two host-side pieces left as parameters: the neighbour-sum map and the final mean are the
  same host operations in both programs, so they are carried as functions and never opened.
-/
import proofs.«425461_j52037823758418_1_alg».proof.Proof.Spec

noncomputable section

namespace Cert.GinSpec

open Idealize.ShloMosaic Idealize.ShloMosaic.ValueIdx

/-- Five layers over the neighbour-sum map `agg`, the head, the per-graph sums and counts, and the mean `mean` of them. -/
def networkWith (mean : (SG.Idx → EReal) → (SC.Idx → EReal) → SG.Idx → EReal)
    (agg : (SN.Idx → EReal) → SN.Idx → EReal) (x : SN.Idx → EReal) (batch : SB.Idx → BitVec 32)
    (p1 p2 p3 p4 p5 : Params) (W : SM.Idx → EReal) (b : SV.Idx → EReal) : SG.Idx → EReal :=
  mean (poolSum (head (resOf agg p5 (resOf agg p4 (resOf agg p3 (resOf agg p2 (plainOf agg p1 x))))) W b) batch)
    (poolCount batch)

end Cert.GinSpec

end
-- ==== Proof.LayerPay.lean ====
/-
  The layer kernels' arithmetic, read at one element of a block.

  A block is 5000 rows of 64 features. The body adds the block of the neighbours' sums to the block of node features,
  multiplies the row by the first weight matrix and adds the first bias, clamps at zero, does the same with the second
  matrix and bias, then subtracts the running mean, multiplies by the reciprocal square root of the running variance
  plus epsilon, by the scale, and adds the shift; the later layers add the row they started from. Changes of float
  format are the identity on the extended reals, and a matrix product into a zero accumulator is the plain sum over
  the contracted feature.
-/
import proofs.«425461_j52037823758418_1_alg».proof.Proof.Gen.KernelIdeal.Skeleton
import proofs.«425461_j52037823758418_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.LayerPay

open Idealize.ShloMosaic Idealize.ShloMosaic.ValueIdx Cert.KernelIdeal Cert.KernelIdeal.Gen Cert.GinSpec

/-- The product's left operand is read at the output's row … -/
theorem lhs_0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and the contracted feature; -/
theorem lhs_1 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right operand at the contracted feature … -/
theorem rhs_0 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- … and the output's feature. -/
theorem rhs_1 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block times a weight matrix into the zero accumulator, at row `p`, feature `q`: the sum over the contracted
    feature `l` of the block's `(p, l)` times the matrix's `(l, q)`. -/
theorem matmul_row {φ₁ φ₂ : FTy} (z : FVec Ideal S5000x64 φ₁) (W : FVec Ideal S64x64 φ₂) (p : Fin 5000) (q : Fin 64) :
    matmul dot_S5000x64_S64x64_S5000x64_1_0_0_1_n_n none z W (constant S5000x64 .f32 0x00000000#32) (ix2 p q)
      = ∑ l : Fin 64, z (ix2 p l) * W (ix2 l q) := by
  refine (Ideal.matmul_constant_zero_apply dot_S5000x64_S64x64_S5000x64_1_0_0_1_n_n none z W (ix2 p q)).trans ?_
  rw [← Equiv.sum_comp (contrEquiv1 dot_S5000x64_S64x64_S5000x64_1_0_0_1_n_n 64 rfl rfl).symm]
  refine Finset.sum_congr rfl fun l _ => ?_
  have hk := contrEquiv1_symm_val dot_S5000x64_S64x64_S5000x64_1_0_0_1_n_n 64 rfl rfl l
  have el : dot_S5000x64_S64x64_S5000x64_1_0_0_1_n_n.lhsIdx (ix2 p q)
      ((contrEquiv1 dot_S5000x64_S64x64_S5000x64_1_0_0_1_n_n 64 rfl rfl).symm l) = ix2 p l := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q)
      ((contrEquiv1 dot_S5000x64_S64x64_S5000x64_1_0_0_1_n_n 64 rfl rfl).symm l) = ix2 l q := funext fun a => Fin.ext (by
    match a with
    | ⟨0, _⟩ => exact (rhs_0 _ _).trans hk
    | ⟨1, _⟩ => exact rhs_1 _ _)
  rw [el, er]

/-- A per-feature vector laid along every row of a block reads, at row `p`, feature `q`, its entry `q`. -/
theorem bias_row (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- One clamped affine map of a block, at row `p`, feature `q`: the affine map of the block's row `p`, clamped at zero. -/
theorem clamp_affine (z : FVec Ideal S5000x64 .f32) (W : Vec Ideal S64x64 .f32) (b : Vec Ideal S64 .f32) (p : Fin 5000) (q : Fin 64) :
    maximumf (addf (matmul dot_S5000x64_S64x64_S5000x64_1_0_0_1_n_n none (truncf .bf16 z bitsLt_bf16_f32) (truncf .bf16 W bitsLt_bf16_f32)
          (constant S5000x64 .f32 0x00000000#32))
        (broadcastTo S5000x64 (shapeCast S1x64 b shapeCasts_S64_S1x64) broadcasts_S1x64_S5000x64))
      (broadcast S5000x64 (Scalar.ofBits (F := Ideal) .f32 0x00000000#32)) (ix2 p q)
      = max (affine (fun l => z (ix2 p l)) W b q) zeroW := by
  refine (maximumf_apply _ _ _).trans ?_
  refine congrArg (fun t => max t zeroW) ?_
  refine (addf_apply _ _ _).trans ?_
  unfold affine
  exact congrArg₂ (· + ·) (matmul_row _ _ p q) (bias_row b p q)

/-- Two clamped affine maps of a block, one after the other, at row `p`, feature `q`. -/
theorem clamp2 (z : FVec Ideal S5000x64 .f32) (W1 : Vec Ideal S64x64 .f32) (b1 : Vec Ideal S64 .f32)
    (W2 : Vec Ideal S64x64 .f32) (b2 : Vec Ideal S64 .f32) (p : Fin 5000) (q : Fin 64) :
    maximumf (addf (matmul dot_S5000x64_S64x64_S5000x64_1_0_0_1_n_n none
          (truncf .bf16
            (maximumf (addf (matmul dot_S5000x64_S64x64_S5000x64_1_0_0_1_n_n none (truncf .bf16 z bitsLt_bf16_f32)
                  (truncf .bf16 W1 bitsLt_bf16_f32) (constant S5000x64 .f32 0x00000000#32))
                (broadcastTo S5000x64 (shapeCast S1x64 b1 shapeCasts_S64_S1x64) broadcasts_S1x64_S5000x64))
              (broadcast S5000x64 (Scalar.ofBits (F := Ideal) .f32 0x00000000#32)))
            bitsLt_bf16_f32)
          (truncf .bf16 W2 bitsLt_bf16_f32) (constant S5000x64 .f32 0x00000000#32))
        (broadcastTo S5000x64 (shapeCast S1x64 b2 shapeCasts_S64_S1x64) broadcasts_S1x64_S5000x64))
      (broadcast S5000x64 (Scalar.ofBits (F := Ideal) .f32 0x00000000#32)) (ix2 p q)
      = max (affine (fun k => max (affine (fun l => z (ix2 p l)) W1 b1 k) zeroW) W2 b2 q) zeroW := by
  refine (clamp_affine _ W2 b2 p q).trans ?_
  refine congrArg (fun f => max (affine f W2 b2 q) zeroW) ?_
  funext k
  exact clamp_affine z W1 b1 p k

/-- The normalisation of a block, at row `p`, feature `q`: minus the mean, times the reciprocal square root of the
    variance plus epsilon, times the scale, plus the shift, each read at feature `q`. -/
theorem norm_tail (y : FVec Ideal S5000x64 .f32) (mu v g be : Vec Ideal S64 .f32) (p : Fin 5000) (q : Fin 64) :
    addf (mulf (mulf (subf y (broadcastTo S5000x64 (shapeCast S1x64 mu shapeCasts_S64_S1x64) broadcasts_S1x64_S5000x64))
          (broadcastTo S5000x64 (shapeCast S1x64
            (rsqrt (addf v (broadcast S64 (Scalar.ofBits (F := Ideal) .f32 0x3727C5AC#32)))) shapeCasts_S64_S1x64) broadcasts_S1x64_S5000x64))
        (broadcastTo S5000x64 (shapeCast S1x64 g shapeCasts_S64_S1x64) broadcasts_S1x64_S5000x64))
      (broadcastTo S5000x64 (shapeCast S1x64 be shapeCasts_S64_S1x64) broadcasts_S1x64_S5000x64) (ix2 p q)
      = ((y (ix2 p q) - mu (ix1 q)) * Ideal.rsqrt (v (ix1 q) + epsW)) * g (ix1 q) + be (ix1 q) := by
  refine (addf_apply _ _ _).trans ?_
  refine congrArg₂ (· + ·) ?_ (bias_row be p q)
  refine (mulf_apply _ _ _).trans ?_
  refine congrArg₂ (· * ·) ?_ (bias_row g p q)
  refine (mulf_apply _ _ _).trans ?_
  refine congrArg₂ (· * ·) ?_ ((bias_row _ p q).trans rfl)
  refine (subf_apply _ _ _).trans ?_
  exact congrArg (fun t => y (ix2 p q) - t) (bias_row mu p q)

/-- The first layer's stored value at row `p`, feature `q` of its block: the plain layer row of the block's row `p`. -/
theorem plain_apply (x0 x1 : Vec Ideal S5000x64 .f32) (x2 : Vec Ideal S64x64 .f32) (x3 : Vec Ideal S64 .f32)
    (x4 : Vec Ideal S64x64 .f32) (x5 x6 x7 x8 x9 : Vec Ideal S64 .f32) (p : Fin 5000) (q : Fin 64) :
    k0_pay1 (k0_pay2 x0 x1 x2 x3 x4 x5 x8 x9 x6) x7 (ix2 p q)
      = rowPlain (fun l => x0 (ix2 p l)) (fun l => x1 (ix2 p l)) x2 x3 x4 x5 x6 x7 x8 x9 q := by
  unfold k0_pay1 k0_pay2
  refine (norm_tail _ x8 x9 x6 x7 p q).trans ?_
  refine congrArg (fun t => ((t - x8 (ix1 q)) * Ideal.rsqrt (x9 (ix1 q) + epsW)) * x6 (ix1 q) + x7 (ix1 q)) ?_
  refine (clamp2 _ x2 x3 x4 x5 p q).trans ?_
  rw [shapeCast_self]
  rfl

/-- A residual layer's stored value at row `p`, feature `q` of its block: the residual layer row of the block's row `p`. -/
theorem res_apply (x0 x1 : Vec Ideal S5000x64 .f32) (x2 : Vec Ideal S64x64 .f32) (x3 : Vec Ideal S64 .f32)
    (x4 : Vec Ideal S64x64 .f32) (x5 x6 x7 x8 x9 : Vec Ideal S64 .f32) (p : Fin 5000) (q : Fin 64) :
    k1_pay1 (k1_pay2 x0) (k1_pay3 x0 x1 x2 x3 x4 x5 x8 x9) x6 x7 (ix2 p q)
      = rowRes (fun l => x0 (ix2 p l)) (fun l => x1 (ix2 p l)) x2 x3 x4 x5 x6 x7 x8 x9 q := by
  unfold k1_pay1 k1_pay3 k1_pay2
  simp only [shapeCast_self]
  refine (addf_apply _ _ _).trans ?_
  unfold Cert.GinSpec.rowRes
  refine congrArg (fun t => x0 (ix2 p q) + t) ?_
  refine (norm_tail _ x8 x9 x6 x7 p q).trans ?_
  refine congrArg (fun t => ((t - x8 (ix1 q)) * Ideal.rsqrt (x9 (ix1 q) + epsW)) * x6 (ix1 q) + x7 (ix1 q)) ?_
  refine (clamp2 _ x2 x3 x4 x5 p q).trans ?_
  rfl

/-- The four residual layers run one body: their payloads are the same functions. -/
theorem pay1_2 : k2_pay1 (F := Ideal) = k1_pay1 (F := Ideal) := rfl
theorem pay2_2 : k2_pay2 (F := Ideal) = k1_pay2 (F := Ideal) := rfl
theorem pay3_2 : k2_pay3 (F := Ideal) = k1_pay3 (F := Ideal) := rfl
theorem pay1_3 : k3_pay1 (F := Ideal) = k1_pay1 (F := Ideal) := rfl
theorem pay2_3 : k3_pay2 (F := Ideal) = k1_pay2 (F := Ideal) := rfl
theorem pay3_3 : k3_pay3 (F := Ideal) = k1_pay3 (F := Ideal) := rfl
theorem pay1_4 : k4_pay1 (F := Ideal) = k1_pay1 (F := Ideal) := rfl
theorem pay2_4 : k4_pay2 (F := Ideal) = k1_pay2 (F := Ideal) := rfl
theorem pay3_4 : k4_pay3 (F := Ideal) = k1_pay3 (F := Ideal) := rfl

end Cert.KernelIdeal.LayerPay

end
-- ==== Proof.Region0.lean ====
/-
  The first layer's region: its output array after the run is the plain layer of the arrays the region finds.

  The grid has 20 points; point t works on rows 5000 t … 5000 t + 4999 of the node arrays and on the whole of every
  parameter array, and writes block t of the output. The 20 blocks tile the output, and what point t writes at row p of
  its block depends only on row 5000 t + p of the inputs: so the output is one function of the input arrays, row by row.
-/
import proofs.«425461_j52037823758418_1_alg».proof.Proof.Gen.KernelIdeal.Frame
import proofs.«425461_j52037823758418_1_alg».proof.Proof.LayerPay

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen Cert.GinSpec
open Idealize.ShloMosaic.Pipeline (Dat Cfg Window)

variable (V : (c : Dev nD) → (b : Ref sig .tc) → Buf (Elt Ideal) ((c : Thread nD τ).loc b))

/-- The offsets of a rectangle that starts at the origin, rank 2 … -/
theorem zero2 : (![0, 0] : Fin 2 → Nat) = fun _ => 0 := funext fun a => by fin_cases a <;> rfl
/-- … and rank 1. -/
theorem zero1 : (![0] : Fin 1 → Nat) = fun _ => 0 := funext fun a => by fin_cases a; rfl

/-- The index maps, decided once over the 20 points: the two node windows and the output are at block `(t, 0)`, every
    parameter window at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_3.index t (0 : Fin 1) = 0 ∧ win0_5.index t (0 : Fin 1) = 0 ∧ win0_6.index t (0 : Fin 1) = 0
    ∧ win0_7.index t (0 : Fin 1) = 0 ∧ win0_8.index t (0 : Fin 1) = 0 ∧ win0_9.index t (0 : Fin 1) = 0 :=
  (by decide +kernel : ∀ t : Fin grid0.N, _)

/-- There are 20 points. -/
theorem point_lt (t : Fin cfg0.N) : t.val < 20 := Nat.lt_of_lt_of_eq t.isLt N_0

/-- The row of the node arrays that row `p` of point `t`'s block is: `5000 t + p`. -/
abbrev rowOf (t : Fin cfg0.N) (p : Fin 5000) : Fin 100000 :=
  ⟨t.val * 5000 + p.val, by have := point_lt t; have := p.isLt; omega⟩

/-- The node-feature block at point `t`, row `p`: the array's row `5000 t + p`. -/
theorem feat_block (c : Dev nD) (t : Fin cfg0.N) (p : Fin 5000) (l : Fin 64) :
    (iblk0 V c 0 t : Vec Ideal S5000x64 .f32) (ix2 p l) = (V c main_arg0 : S100000x64.Idx → EReal) (ix2 (rowOf t p) l) := by
  obtain ⟨e0, e1, -⟩ := index_maps t
  show V c main_arg0 (((cfg0.win 0).blk t).view.emb (ix2 p l)) = V c main_arg0 (ix2 (rowOf t p) l)
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 64 + 1 * l.val = l.val; rw [e1]; omega

/-- The neighbour-sum block at point `t`, row `p`: the array's row `5000 t + p`. -/
theorem sum_block (c : Dev nD) (t : Fin cfg0.N) (p : Fin 5000) (l : Fin 64) :
    (iblk0 V c 1 t : Vec Ideal S5000x64 .f32) (ix2 p l) = (V c main_v13 : S100000x64.Idx → EReal) (ix2 (rowOf t p) l) := by
  obtain ⟨-, -, e0, e1, -⟩ := index_maps t
  show V c main_v13 (((cfg0.win 1).blk t).view.emb (ix2 p l)) = V c main_v13 (ix2 (rowOf t p) l)
  congr 1
  funext a
  apply Fin.ext
  match a with
  | ⟨0, _⟩ => show win0_1.index t (0 : Fin 2) * 5000 + 1 * p.val = t.val * 5000 + p.val; rw [e0]; omega
  | ⟨1, _⟩ => show win0_1.index t (1 : Fin 2) * 64 + 1 * l.val = l.val; rw [e1]; omega

/-- Where row `p`, feature `q` of point `t`'s output block sits in the output array: row `5000 t + p`, feature `q`. -/
theorem out_block (t : Fin cfg0.N) (p : Fin 5000) (q : Fin 64) :
    (((cfg0.win 10).blk t).view.emb (ix2 p q) : S100000x64.Idx) = ix2 (rowOf t p) q := by
  obtain ⟨-, -, -, -, e0, e1, -⟩ := index_maps t
  funext a
  apply Fin.ext
  match a with
  | ⟨0, _⟩ => show win0_10.index t (0 : Fin 2) * 5000 + 1 * p.val = t.val * 5000 + p.val; rw [e0]; omega
  | ⟨1, _⟩ => show win0_10.index t (1 : Fin 2) * 64 + 1 * q.val = q.val; rw [e1]; omega

/-- The first weight matrix's block at every point is the whole array. -/
theorem mat1_block (c : Dev nD) (t : Fin cfg0.N) : (iblk0 V c 2 t : Vec Ideal S64x64 .f32) = V c main_arg3 := by
  obtain ⟨-, -, -, -, -, -, e0, e1, -⟩ := index_maps t
  funext y
  show V c main_arg3 (((cfg0.win 2).blk t).view.emb y) = V c main_arg3 y
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The second weight matrix's block at every point is the whole array. -/
theorem mat2_block (c : Dev nD) (t : Fin cfg0.N) : (iblk0 V c 4 t : Vec Ideal S64x64 .f32) = V c main_arg5 := by
  obtain ⟨-, -, -, -, -, -, -, -, e0, e1, -⟩ := index_maps t
  funext y
  show V c main_arg5 (((cfg0.win 4).blk t).view.emb y) = V c main_arg5 y
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The first bias's block at every point is the whole array. -/
theorem bias1_block (c : Dev nD) (t : Fin cfg0.N) : (iblk0 V c 3 t : Vec Ideal S64 .f32) = V c main_arg4 := by
  obtain ⟨-, -, -, -, -, -, -, -, -, -, e0, -⟩ := index_maps t
  funext y
  show V c main_arg4 (((cfg0.win 3).blk t).view.emb y) = V c main_arg4 y
  congr 1
  funext a
  apply Fin.ext
  match a with
  | ⟨0, _⟩ => show win0_3.index t (0 : Fin 1) * 64 + 1 * (y 0).val = (y 0).val; rw [e0]; omega

/-- The second bias's block at every point is the whole array. -/
theorem bias2_block (c : Dev nD) (t : Fin cfg0.N) : (iblk0 V c 5 t : Vec Ideal S64 .f32) = V c main_arg6 := by
  obtain ⟨-, -, -, -, -, -, -, -, -, -, -, e0, -⟩ := index_maps t
  funext y
  show V c main_arg6 (((cfg0.win 5).blk t).view.emb y) = V c main_arg6 y
  congr 1
  funext a
  apply Fin.ext
  match a with
  | ⟨0, _⟩ => show win0_5.index t (0 : Fin 1) * 64 + 1 * (y 0).val = (y 0).val; rw [e0]; omega

/-- The scale's block at every point is the whole array. -/
theorem scale_block (c : Dev nD) (t : Fin cfg0.N) : (iblk0 V c 6 t : Vec Ideal S64 .f32) = V c main_arg7 := by
  obtain ⟨-, -, -, -, -, -, -, -, -, -, -, -, e0, -⟩ := index_maps t
  funext y
  show V c main_arg7 (((cfg0.win 6).blk t).view.emb y) = V c main_arg7 y
  congr 1
  funext a
  apply Fin.ext
  match a with
  | ⟨0, _⟩ => show win0_6.index t (0 : Fin 1) * 64 + 1 * (y 0).val = (y 0).val; rw [e0]; omega

/-- The shift's block at every point is the whole array. -/
theorem shift_block (c : Dev nD) (t : Fin cfg0.N) : (iblk0 V c 7 t : Vec Ideal S64 .f32) = V c main_arg8 := by
  obtain ⟨-, -, -, -, -, -, -, -, -, -, -, -, -, e0, -⟩ := index_maps t
  funext y
  show V c main_arg8 (((cfg0.win 7).blk t).view.emb y) = V c main_arg8 y
  congr 1
  funext a
  apply Fin.ext
  match a with
  | ⟨0, _⟩ => show win0_7.index t (0 : Fin 1) * 64 + 1 * (y 0).val = (y 0).val; rw [e0]; omega

/-- The running mean's block at every point is the whole array. -/
theorem mean_block (c : Dev nD) (t : Fin cfg0.N) : (iblk0 V c 8 t : Vec Ideal S64 .f32) = V c main_arg9 := by
  obtain ⟨-, -, -, -, -, -, -, -, -, -, -, -, -, -, e0, -⟩ := index_maps t
  funext y
  show V c main_arg9 (((cfg0.win 8).blk t).view.emb y) = V c main_arg9 y
  congr 1
  funext a
  apply Fin.ext
  match a with
  | ⟨0, _⟩ => show win0_8.index t (0 : Fin 1) * 64 + 1 * (y 0).val = (y 0).val; rw [e0]; omega

/-- The running variance's block at every point is the whole array. -/
theorem var_block (c : Dev nD) (t : Fin cfg0.N) : (iblk0 V c 9 t : Vec Ideal S64 .f32) = V c main_arg10 := by
  obtain ⟨-, -, -, -, -, -, -, -, -, -, -, -, -, -, -, e0⟩ := index_maps t
  funext y
  show V c main_arg10 (((cfg0.win 9).blk t).view.emb y) = V c main_arg10 y
  congr 1
  funext a
  apply Fin.ext
  match a with
  | ⟨0, _⟩ => show win0_9.index t (0 : Fin 1) * 64 + 1 * (y 0).val = (y 0).val; rw [e0]; omega

/-- One stored element, from the blocks: when row `p` of the two node blocks is row `r` of the node arrays, the value
    stored at row `p`, feature `q` is the layer's value at row `r`, feature `q`. -/
theorem block_row (h a : S100000x64.Idx → EReal) (x0 x1 : Vec Ideal S5000x64 .f32) (x2 : Vec Ideal S64x64 .f32)
    (x3 : Vec Ideal S64 .f32) (x4 : Vec Ideal S64x64 .f32) (x5 x6 x7 x8 x9 : Vec Ideal S64 .f32)
    (p : Fin 5000) (r : Fin 100000) (q : Fin 64)
    (h0 : ∀ l, x0 (ix2 p l) = h (ix2 r l)) (h1 : ∀ l, x1 (ix2 p l) = a (ix2 r l)) :
    k0_pay1 (k0_pay2 x0 x1 x2 x3 x4 x5 x8 x9 x6) x7 (ix2 p q) = layerPlain h a x2 x3 x4 x5 x6 x7 x8 x9 (ix2 r q) := by
  rw [LayerPay.plain_apply]
  rw [show (fun l => x0 (ix2 p l)) = fun l => h (ix2 r l) from funext h0,
    show (fun l => x1 (ix2 p l)) = fun l => a (ix2 r l) from funext h1]
  rfl

/-- What point `t` writes back is block `t` of the layer of the arrays the region finds. -/
theorem flushed_eq (c : Dev nD) (t : Fin cfg0.N) :
    (dat0 (F := Ideal) V c).flushed 10 t = ((cfg0.win 10).blk t).view.read (Elt Ideal)
      (layerPlain (V c main_arg0) (V c main_v13) (V c main_arg3) (V c main_arg4) (V c main_arg5) (V c main_arg6)
          (V c main_arg7) (V c main_arg8) (V c main_arg9) (V c main_arg10)) := by
  show (cfg0.win 10).cut (grid0.coords t) ((dat0 V c).after 10 t) = _
  rw [after0_10]
  unfold out0_10
  rw [View.canon_unit_zero zero2]
  simp only [View.ld_unit_zero (S := S5000x64) zero2, View.ld_unit_zero (S := S64x64) zero2, View.ld_unit_zero (S := S64) zero1]
  funext j
  obtain ⟨p, q, rfl⟩ : ∃ (p : Fin 5000) (q : Fin 64), j = ix2 p q := ⟨j 0, j 1, eq_ix2 j⟩
  rw [mat1_block V c t, bias1_block V c t, mat2_block V c t, bias2_block V c t, scale_block V c t, shift_block V c t,
    mean_block V c t, var_block V c t]
  refine (block_row (V c main_arg0) (V c main_v13) _ _ _ _ _ _ _ _ _ _ p (rowOf t p) q (feat_block V c t p) (sum_block V c t p)).trans ?_
  exact congrArg (layerPlain (V c main_arg0) (V c main_v13) (V c main_arg3) (V c main_arg4) (V c main_arg5) (V c main_arg6)
          (V c main_arg7) (V c main_arg8) (V c main_arg9) (V c main_arg10)) (out_block t p q).symm

/-- An index of the output array is in point `t`'s block iff each coordinate is in the block's range on its axis. -/
theorem mem_block (t : Fin cfg0.N) (i : S100000x64.Idx) :
    i ∈ ((cfg0.win 10).blk t).view.set ↔ ∀ a : Fin 2, win0_10.index t a * S5000x64.size a ≤ (i a).val
      ∧ (i a).val < win0_10.index t a * S5000x64.size a + S5000x64.size a := by
  show i ∈ ((View.whole main_v14).slice (win0_10.rect t)).set ↔ _
  rw [View.set_slice_whole, Rect.mem_set_unit]
  exact Iff.rfl

/-- The 20 blocks cover the output array: row `r` is in the block of point `r / 5000`. -/
theorem covered (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨-, -, -, -, e0, e1, -⟩ := index_maps t
  refine ⟨t, flush0_10 t, ?_⟩
  rw [mem_block]
  intro a
  match a with
  | ⟨0, _⟩ =>
    show win0_10.index t (0 : Fin 2) * 5000 ≤ (i 0).val ∧ (i 0).val < win0_10.index t (0 : Fin 2) * 5000 + 5000
    rw [e0, ht]; omega
  | ⟨1, _⟩ =>
    show win0_10.index t (1 : Fin 2) * 64 ≤ (i 1).val ∧ (i 1).val < win0_10.index t (1 : Fin 2) * 64 + 64
    rw [e1]; omega

/-- Region 0's output array after its 20 points. -/
theorem array (c : Dev nD) :
    ((dat0 (F := Ideal) V c).arrAt 10 cfg0.N : S100000x64.Idx → EReal)
      = layerPlain (V c main_arg0) (V c main_v13) (V c main_arg3) (V c main_arg4) (V c main_arg5) (V c main_arg6)
          (V c main_arg7) (V c main_arg8) (V c main_arg9) (V c main_arg10) :=
  (dat0 (F := Ideal) V c).arrAt_eq_of_cover 10 _ (fun t _ => flushed_eq V c t) covered

end Cert.KernelIdeal.Region0

end
-- ==== Proof.Region1.lean ====
/-
  A residual layer's region (the second layer): its output array after the run is the residual layer of the arrays the region finds.

  The grid has 20 points; point t works on rows 5000 t … 5000 t + 4999 of the node arrays and on the whole of every
  parameter array, and writes block t of the output. The 20 blocks tile the output, and what point t writes at row p of
  its block depends only on row 5000 t + p of the inputs: so the output is one function of the input arrays, row by row.
-/
import proofs.«425461_j52037823758418_1_alg».proof.Proof.Gen.KernelIdeal.Frame
import proofs.«425461_j52037823758418_1_alg».proof.Proof.LayerPay

set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen Cert.GinSpec
open Idealize.ShloMosaic.Pipeline (Dat Cfg Window)

variable (V : (c : Dev nD) → (b : Ref sig .tc) → Buf (Elt Ideal) ((c : Thread nD τ).loc b))

/-- The offsets of a rectangle that starts at the origin, rank 2 … -/
theorem zero2 : (![0, 0] : Fin 2 → Nat) = fun _ => 0 := funext fun a => by fin_cases a <;> rfl
/-- … and rank 1. -/
theorem zero1 : (![0] : Fin 1 → Nat) = fun _ => 0 := funext fun a => by fin_cases a; rfl

/-- The index maps, decided once over the 20 points: the two node windows and the output are at block `(t, 0)`, every
    parameter window at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_10.index t (0 : Fin 2) = t.val ∧ win1_10.index t (1 : Fin 2) = 0
    ∧ win1_2.index t (0 : Fin 2) = 0 ∧ win1_2.index t (1 : Fin 2) = 0
    ∧ win1_4.index t (0 : Fin 2) = 0 ∧ win1_4.index t (1 : Fin 2) = 0
    ∧ win1_3.index t (0 : Fin 1) = 0 ∧ win1_5.index t (0 : Fin 1) = 0 ∧ win1_6.index t (0 : Fin 1) = 0
    ∧ win1_7.index t (0 : Fin 1) = 0 ∧ win1_8.index t (0 : Fin 1) = 0 ∧ win1_9.index t (0 : Fin 1) = 0 :=
  (by decide +kernel : ∀ t : Fin grid1.N, _)

/-- There are 20 points. -/
theorem point_lt (t : Fin cfg1.N) : t.val < 20 := Nat.lt_of_lt_of_eq t.isLt N_1

/-- The row of the node arrays that row `p` of point `t`'s block is: `5000 t + p`. -/
abbrev rowOf (t : Fin cfg1.N) (p : Fin 5000) : Fin 100000 :=
  ⟨t.val * 5000 + p.val, by have := point_lt t; have := p.isLt; omega⟩

/-- The node-feature block at point `t`, row `p`: the array's row `5000 t + p`. -/
theorem feat_block (c : Dev nD) (t : Fin cfg1.N) (p : Fin 5000) (l : Fin 64) :
    (iblk1 V c 0 t : Vec Ideal S5000x64 .f32) (ix2 p l) = (V c main_v14 : S100000x64.Idx → EReal) (ix2 (rowOf t p) l) := by
  obtain ⟨e0, e1, -⟩ := index_maps t
  show V c main_v14 (((cfg1.win 0).blk t).view.emb (ix2 p l)) = V c main_v14 (ix2 (rowOf t p) l)
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 64 + 1 * l.val = l.val; rw [e1]; omega

/-- The neighbour-sum block at point `t`, row `p`: the array's row `5000 t + p`. -/
theorem sum_block (c : Dev nD) (t : Fin cfg1.N) (p : Fin 5000) (l : Fin 64) :
    (iblk1 V c 1 t : Vec Ideal S5000x64 .f32) (ix2 p l) = (V c main_v24 : S100000x64.Idx → EReal) (ix2 (rowOf t p) l) := by
  obtain ⟨-, -, e0, e1, -⟩ := index_maps t
  show V c main_v24 (((cfg1.win 1).blk t).view.emb (ix2 p l)) = V c main_v24 (ix2 (rowOf t p) l)
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 64 + 1 * l.val = l.val; rw [e1]; omega

/-- Where row `p`, feature `q` of point `t`'s output block sits in the output array: row `5000 t + p`, feature `q`. -/
theorem out_block (t : Fin cfg1.N) (p : Fin 5000) (q : Fin 64) :
    (((cfg1.win 10).blk t).view.emb (ix2 p q) : S100000x64.Idx) = ix2 (rowOf t p) q := by
  obtain ⟨-, -, -, -, e0, e1, -⟩ := index_maps t
  funext a
  apply Fin.ext
  match a with
  | ⟨0, _⟩ => show win1_10.index t (0 : Fin 2) * 5000 + 1 * p.val = t.val * 5000 + p.val; rw [e0]; omega
  | ⟨1, _⟩ => show win1_10.index t (1 : Fin 2) * 64 + 1 * q.val = q.val; rw [e1]; omega

/-- The first weight matrix's block at every point is the whole array. -/
theorem mat1_block (c : Dev nD) (t : Fin cfg1.N) : (iblk1 V c 2 t : Vec Ideal S64x64 .f32) = V c main_v26 := by
  obtain ⟨-, -, -, -, -, -, e0, e1, -⟩ := index_maps t
  funext y
  show V c main_v26 (((cfg1.win 2).blk t).view.emb y) = V c main_v26 y
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The second weight matrix's block at every point is the whole array. -/
theorem mat2_block (c : Dev nD) (t : Fin cfg1.N) : (iblk1 V c 4 t : Vec Ideal S64x64 .f32) = V c main_v30 := by
  obtain ⟨-, -, -, -, -, -, -, -, e0, e1, -⟩ := index_maps t
  funext y
  show V c main_v30 (((cfg1.win 4).blk t).view.emb y) = V c main_v30 y
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The first bias's block at every point is the whole array. -/
theorem bias1_block (c : Dev nD) (t : Fin cfg1.N) : (iblk1 V c 3 t : Vec Ideal S64 .f32) = V c main_v28 := by
  obtain ⟨-, -, -, -, -, -, -, -, -, -, e0, -⟩ := index_maps t
  funext y
  show V c main_v28 (((cfg1.win 3).blk t).view.emb y) = V c main_v28 y
  congr 1
  funext a
  apply Fin.ext
  match a with
  | ⟨0, _⟩ => show win1_3.index t (0 : Fin 1) * 64 + 1 * (y 0).val = (y 0).val; rw [e0]; omega

/-- The second bias's block at every point is the whole array. -/
theorem bias2_block (c : Dev nD) (t : Fin cfg1.N) : (iblk1 V c 5 t : Vec Ideal S64 .f32) = V c main_v32 := by
  obtain ⟨-, -, -, -, -, -, -, -, -, -, -, e0, -⟩ := index_maps t
  funext y
  show V c main_v32 (((cfg1.win 5).blk t).view.emb y) = V c main_v32 y
  congr 1
  funext a
  apply Fin.ext
  match a with
  | ⟨0, _⟩ => show win1_5.index t (0 : Fin 1) * 64 + 1 * (y 0).val = (y 0).val; rw [e0]; omega

/-- The scale's block at every point is the whole array. -/
theorem scale_block (c : Dev nD) (t : Fin cfg1.N) : (iblk1 V c 6 t : Vec Ideal S64 .f32) = V c main_v34 := by
  obtain ⟨-, -, -, -, -, -, -, -, -, -, -, -, e0, -⟩ := index_maps t
  funext y
  show V c main_v34 (((cfg1.win 6).blk t).view.emb y) = V c main_v34 y
  congr 1
  funext a
  apply Fin.ext
  match a with
  | ⟨0, _⟩ => show win1_6.index t (0 : Fin 1) * 64 + 1 * (y 0).val = (y 0).val; rw [e0]; omega

/-- The shift's block at every point is the whole array. -/
theorem shift_block (c : Dev nD) (t : Fin cfg1.N) : (iblk1 V c 7 t : Vec Ideal S64 .f32) = V c main_v36 := by
  obtain ⟨-, -, -, -, -, -, -, -, -, -, -, -, -, e0, -⟩ := index_maps t
  funext y
  show V c main_v36 (((cfg1.win 7).blk t).view.emb y) = V c main_v36 y
  congr 1
  funext a
  apply Fin.ext
  match a with
  | ⟨0, _⟩ => show win1_7.index t (0 : Fin 1) * 64 + 1 * (y 0).val = (y 0).val; rw [e0]; omega

/-- The running mean's block at every point is the whole array. -/
theorem mean_block (c : Dev nD) (t : Fin cfg1.N) : (iblk1 V c 8 t : Vec Ideal S64 .f32) = V c main_v38 := by
  obtain ⟨-, -, -, -, -, -, -, -, -, -, -, -, -, -, e0, -⟩ := index_maps t
  funext y
  show V c main_v38 (((cfg1.win 8).blk t).view.emb y) = V c main_v38 y
  congr 1
  funext a
  apply Fin.ext
  match a with
  | ⟨0, _⟩ => show win1_8.index t (0 : Fin 1) * 64 + 1 * (y 0).val = (y 0).val; rw [e0]; omega

/-- The running variance's block at every point is the whole array. -/
theorem var_block (c : Dev nD) (t : Fin cfg1.N) : (iblk1 V c 9 t : Vec Ideal S64 .f32) = V c main_v40 := by
  obtain ⟨-, -, -, -, -, -, -, -, -, -, -, -, -, -, -, e0⟩ := index_maps t
  funext y
  show V c main_v40 (((cfg1.win 9).blk t).view.emb y) = V c main_v40 y
  congr 1
  funext a
  apply Fin.ext
  match a with
  | ⟨0, _⟩ => show win1_9.index t (0 : Fin 1) * 64 + 1 * (y 0).val = (y 0).val; rw [e0]; omega

/-- One stored element, from the blocks: when row `p` of the two node blocks is row `r` of the node arrays, the value
    stored at row `p`, feature `q` is the layer's value at row `r`, feature `q`. -/
theorem block_row (h a : S100000x64.Idx → EReal) (x0 x1 : Vec Ideal S5000x64 .f32) (x2 : Vec Ideal S64x64 .f32)
    (x3 : Vec Ideal S64 .f32) (x4 : Vec Ideal S64x64 .f32) (x5 x6 x7 x8 x9 : Vec Ideal S64 .f32)
    (p : Fin 5000) (r : Fin 100000) (q : Fin 64)
    (h0 : ∀ l, x0 (ix2 p l) = h (ix2 r l)) (h1 : ∀ l, x1 (ix2 p l) = a (ix2 r l)) :
    k1_pay1 (k1_pay2 x0) (k1_pay3 x0 x1 x2 x3 x4 x5 x8 x9) x6 x7 (ix2 p q) = layerRes h a x2 x3 x4 x5 x6 x7 x8 x9 (ix2 r q) := by
  rw [LayerPay.res_apply]
  rw [show (fun l => x0 (ix2 p l)) = fun l => h (ix2 r l) from funext h0,
    show (fun l => x1 (ix2 p l)) = fun l => a (ix2 r l) from funext h1]
  rfl

/-- What point `t` writes back is block `t` of the layer of the arrays the region finds. -/
theorem flushed_eq (c : Dev nD) (t : Fin cfg1.N) :
    (dat1 (F := Ideal) V c).flushed 10 t = ((cfg1.win 10).blk t).view.read (Elt Ideal)
      (layerRes (V c main_v14) (V c main_v24) (V c main_v26) (V c main_v28) (V c main_v30) (V c main_v32)
          (V c main_v34) (V c main_v36) (V c main_v38) (V c main_v40)) := by
  show (cfg1.win 10).cut (grid1.coords t) ((dat1 V c).after 10 t) = _
  rw [after1_10]
  unfold out1_10
  rw [View.canon_unit_zero zero2]
  simp only [View.ld_unit_zero (S := S5000x64) zero2, View.ld_unit_zero (S := S64x64) zero2, View.ld_unit_zero (S := S64) zero1]
  funext j
  obtain ⟨p, q, rfl⟩ : ∃ (p : Fin 5000) (q : Fin 64), j = ix2 p q := ⟨j 0, j 1, eq_ix2 j⟩
  rw [mat1_block V c t, bias1_block V c t, mat2_block V c t, bias2_block V c t, scale_block V c t, shift_block V c t,
    mean_block V c t, var_block V c t]
  refine (block_row (V c main_v14) (V c main_v24) _ _ _ _ _ _ _ _ _ _ p (rowOf t p) q (feat_block V c t p) (sum_block V c t p)).trans ?_
  exact congrArg (layerRes (V c main_v14) (V c main_v24) (V c main_v26) (V c main_v28) (V c main_v30) (V c main_v32)
          (V c main_v34) (V c main_v36) (V c main_v38) (V c main_v40)) (out_block t p q).symm

/-- An index of the output array is in point `t`'s block iff each coordinate is in the block's range on its axis. -/
theorem mem_block (t : Fin cfg1.N) (i : S100000x64.Idx) :
    i ∈ ((cfg1.win 10).blk t).view.set ↔ ∀ a : Fin 2, win1_10.index t a * S5000x64.size a ≤ (i a).val
      ∧ (i a).val < win1_10.index t a * S5000x64.size a + S5000x64.size a := by
  show i ∈ ((View.whole main_v41).slice (win1_10.rect t)).set ↔ _
  rw [View.set_slice_whole, Rect.mem_set_unit]
  exact Iff.rfl

/-- The 20 blocks cover the output array: row `r` is in the block of point `r / 5000`. -/
theorem covered (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (by omega : (i 0).val / 5000 < 20) N_1.symm⟩, rfl⟩
  obtain ⟨-, -, -, -, e0, e1, -⟩ := index_maps t
  refine ⟨t, flush1_10 t, ?_⟩
  rw [mem_block]
  intro a
  match a with
  | ⟨0, _⟩ =>
    show win1_10.index t (0 : Fin 2) * 5000 ≤ (i 0).val ∧ (i 0).val < win1_10.index t (0 : Fin 2) * 5000 + 5000
    rw [e0, ht]; omega
  | ⟨1, _⟩ =>
    show win1_10.index t (1 : Fin 2) * 64 ≤ (i 1).val ∧ (i 1).val < win1_10.index t (1 : Fin 2) * 64 + 64
    rw [e1]; omega

/-- Region 1's output array after its 20 points. -/
theorem array (c : Dev nD) :
    ((dat1 (F := Ideal) V c).arrAt 10 cfg1.N : S100000x64.Idx → EReal)
      = layerRes (V c main_v14) (V c main_v24) (V c main_v26) (V c main_v28) (V c main_v30) (V c main_v32)
          (V c main_v34) (V c main_v36) (V c main_v38) (V c main_v40) :=
  (dat1 (F := Ideal) V c).arrAt_eq_of_cover 10 _ (fun t _ => flushed_eq V c t) covered

end Cert.KernelIdeal.Region1

end
-- ==== Proof.Region2.lean ====
/-
  A residual layer's region (the third layer): its output array after the run is the residual layer of the arrays the region finds.

  The grid has 20 points; point t works on rows 5000 t … 5000 t + 4999 of the node arrays and on the whole of every
  parameter array, and writes block t of the output. The 20 blocks tile the output, and what point t writes at row p of
  its block depends only on row 5000 t + p of the inputs: so the output is one function of the input arrays, row by row.
-/
import proofs.«425461_j52037823758418_1_alg».proof.Proof.Gen.KernelIdeal.Frame
import proofs.«425461_j52037823758418_1_alg».proof.Proof.LayerPay

set_option maxRecDepth 16384

noncomputable section

namespace Cert.KernelIdeal.Region2

open Idealize.ShloMosaic Idealize.ShloMosaic.TcCoe Idealize.ShloMosaic.ValueIdx Idealize.SL.Sem Cert.KernelIdeal Cert.KernelIdeal.Gen Cert.GinSpec
open Idealize.ShloMosaic.Pipeline (Dat Cfg Window)

variable (V : (c : Dev nD) → (b : Ref sig .tc) → Buf (Elt Ideal) ((c : Thread nD τ).loc b))

/-- The offsets of a rectangle that starts at the origin, rank 2 … -/
theorem zero2 : (![0, 0] : Fin 2 → Nat) = fun _ => 0 := funext fun a => by fin_cases a <;> rfl
/-- … and rank 1. -/
theorem zero1 : (![0] : Fin 1 → Nat) = fun _ => 0 := funext fun a => by fin_cases a; rfl

/-- The index maps, decided once over the 20 points: the two node windows and the output are at block `(t, 0)`, every
    parameter window at block 0. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_10.index t (0 : Fin 2) = t.val ∧ win2_10.index t (1 : Fin 2) = 0
    ∧ win2_2.index t (0 : Fin 2) = 0 ∧ win2_2.index t (1 : Fin 2) = 0
    ∧ win2_4.index t (0 : Fin 2) = 0 ∧ win2_4.index t (1 : Fin 2) = 0
    ∧ win2_3.index t (0 : Fin 1) = 0 ∧ win2_5.index t (0 : Fin 1) = 0 ∧ win2_6.index t (0 : Fin 1) = 0
    ∧ win2_7.index t (0 : Fin 1) = 0 ∧ win2_8.index t (0 : Fin 1) = 0 ∧ win2_9.index t (0 : Fin 1) = 0 :=
  (by decide +kernel : ∀ t : Fin grid2.N, _)

/-- There are 20 points. -/
theorem point_lt (t : Fin cfg2.N) : t.val < 20 := Nat.lt_of_lt_of_eq t.isLt N_2

/-- The row of the node arrays that row `p` of point `t`'s block is: `5000 t + p`. -/
abbrev rowOf (t : Fin cfg2.N) (p : Fin 5000) : Fin 100000 :=
  ⟨t.val * 5000 + p.val, by have := point_lt t; have := p.isLt; omega⟩

/-- The node-feature block at point `t`, row `p`: the array's row `5000 t + p`. -/
theorem feat_block (c : Dev nD) (t : Fin cfg2.N) (p : Fin 5000) (l : Fin 64) :
    (iblk2 V c 0 t : Vec Ideal S5000x64 .f32) (ix2 p l) = (V c main_v41 : S100000x64.Idx → EReal) (ix2 (rowOf t p) l) := by
  obtain ⟨e0, e1, -⟩ := index_maps t
  show V c main_v41 (((cfg2.win 0).blk t).view.emb (ix2 p l)) = V c main_v41 (ix2 (rowOf t p) l)
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 64 + 1 * l.val = l.val; rw [e1]; omega

/-- The neighbour-sum block at point `t`, row `p`: the array's row `5000 t + p`. -/
theorem sum_block (c : Dev nD) (t : Fin cfg2.N) (p : Fin 5000) (l : Fin 64) :
    (iblk2 V c 1 t : Vec Ideal S5000x64 .f32) (ix2 p l) = (V c main_v51 : S100000x64.Idx → EReal) (ix2 (rowOf t p) l) := by
  obtain ⟨-, -, e0, e1, -⟩ := index_maps t
  show V c main_v51 (((cfg2.win 1).blk t).view.emb (ix2 p l)) = V c main_v51 (ix2 (rowOf t p) l)
  congr 1
  funext a
  apply Fin.ext
  match a with
  | ⟨0, _⟩ => show win2_1.index t (0 : Fin 2) * 5000 + 1 * p.val = t.val * 5000 + p.val; rw [e0]; omega
  | ⟨1, _⟩ => show win2_1.index t (1 : Fin 2) * 64 + 1 * l.val = l.val; rw [e1]; omega

/-- Where row `p`, feature `q` of point `t`'s output block sits in the output array: row `5000 t + p`, feature `q`. -/
theorem out_block (t : Fin cfg2.N) (p : Fin 5000) (q : Fin 64) :
    (((cfg2.win 10).blk t).view.emb (ix2 p q) : S100000x64.Idx) = ix2 (rowOf t p) q := by
  obtain ⟨-, -, -, -, e0, e1, -⟩ := index_maps t
  funext a
  apply Fin.ext
  match a with
  | ⟨0, _⟩ => show win2_10.index t (0 : Fin 2) * 5000 + 1 * p.val = t.val * 5000 + p.val; rw [e0]; omega
  | ⟨1, _⟩ => show win2_10.index t (1 : Fin 2) * 64 + 1 * q.val = q.val; rw [e1]; omega

/-- The first weight matrix's block at every point is the whole array. -/
theorem mat1_block (c : Dev nD) (t : Fin cfg2.N) : (iblk2 V c 2 t : Vec Ideal S64x64 .f32) = V c main_v53 := by
  obtain ⟨-, -, -, -, -, -, e0, e1, -⟩ := index_maps t
  funext y
  show V c main_v53 (((cfg2.win 2).blk t).view.emb y) = V c main_v53 y
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- The second weight matrix's block at every point is the whole array. -/
theorem mat2_block (c : Dev nD) (t : Fin cfg2.N) : (iblk2 V c 4 t : Vec Ideal S64x64 .f32) = V c main_v57 := by
  obtain ⟨-, -, -, -, -, -, -, -, e0, e1, -⟩ := index_maps t
  funext y
  show V c main_v57 (((cfg2.win 4).blk t).view.emb y) = V c main_v57 y
  congr 1
  funext a
  apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- The first bias's block at every point is the whole array. -/
theorem bias1_block (c : Dev nD) (t : Fin cfg2.N) : (iblk2 V c 3 t : Vec Ideal S64 .f32) = V c main_v55 := by
  obtain ⟨-, -, -, -, -, -, -, -, -, -, e0, -⟩ := index_maps t
  funext y
  show V c main_v55 (((cfg2.win 3).blk t).view.emb y) = V c main_v55 y
  congr 1
  funext a
  apply Fin.ext
  match a with
  | ⟨0, _⟩ => show win2_3.index t (0 : Fin 1) * 64 + 1 * (y 0).val = (y 0).val; rw [e0]; omega

/-- The second bias's block at every point is the whole array. -/
theorem bias2_block (c : Dev nD) (t : Fin cfg2.N) : (iblk2 V c 5 t : Vec Ideal S64 .f32) = V c main_v59 := by
  obtain ⟨-, -, -, -, -, -, -, -, -, -, -, e0, -⟩ := index_maps t
  funext y
  show V c main_v59 (((cfg2.win 5).blk t).view.emb y) = V c main_v59 y
  congr 1
  funext a
  apply Fin.ext
  match a with
  | ⟨0, _⟩ => show win2_5.index t (0 : Fin 1) * 64 + 1 * (y 0).val = (y 0).val; rw [e0]; omega

/-- The scale's block at every point is the whole array. -/
theorem scale_block (c : Dev nD) (t : Fin cfg2.N) : (iblk2 V c 6 t : Vec Ideal S64 .f32) = V c main_v61 := by
  obtain ⟨-, -, -, -, -, -, -, -, -, -, -, -, e0, -⟩ := index_maps t
  funext y
  show V c main_v61 (((cfg2.win 6).blk t).view.emb y) = V c main_v61 y
  congr 1
  funext a
  apply Fin.ext
  match a with
  | ⟨0, _⟩ => show win2_6.index t (0 : Fin 1) * 64 + 1 * (y 0).val = (y 0).val; rw [e0]; omega

/-- The shift's block at every point is the whole array. -/
theorem shift_block (c : Dev nD) (t : Fin cfg2.N) : (iblk2 V c 7 t : Vec Ideal S64 .f32) = V c main_v63 := by
  obtain ⟨-, -, -, -, -, -, -, -, -, -, -, -, -, e0, -⟩ := index_maps t
  funext y
  show V c main_v63 (((cfg2.win 7).blk t).view.emb y) = V c main_v63 y
  congr 1
  funext a
  apply Fin.ext
  match a with
  | ⟨0, _⟩ => show win2_7.index t (0 : Fin 1) * 64 + 1 * (y 0).val = (y 0).val; rw [e0]; omega

/-- The running mean's block at every point is the whole array. -/
theorem mean_block (c : Dev nD) (t : Fin cfg2.N) : (iblk2 V c 8 t : Vec Ideal S64 .f32) = V c main_v65 := by
  obtain ⟨-, -, -, -, -, -, -, -, -, -, -, -, -, -, e0, -⟩ := index_maps t
  funext y
  show V c main_v65 (((cfg2.win 8).blk t).view.emb y) = V c main_v65 y
  congr 1
  funext a
  apply Fin.ext
  match a with
  | ⟨0, _⟩ => show win2_8.index t (0 : Fin 1) * 64 + 1 * (y 0).val = (y 0).val; rw [e0]; omega

/-- The running variance's block at every point is the whole array. -/
theorem var_block (c : Dev nD) (t : Fin cfg2.N) : (iblk2 V c 9 t : Vec Ideal S64 .f32) = V c main_v67 := by
  obtain ⟨-, -, -, -, -, -, -, -, -, -, -, -, -, -, -, e0⟩ := index_maps t
  funext y
  show V c main_v67 (((cfg2.win 9).blk t).view.emb y) = V c main_v67 y
  congr 1
  funext a
  apply Fin.ext
  match a with
  | ⟨0, _⟩ => show win2_9.index t (0 : Fin 1) * 64 + 1 * (y 0).val = (y 0).val; rw [e0]; omega

/-- One stored element, from the blocks: when row `p` of the two node blocks is row `r` of the node arrays, the value
    stored at row `p`, feature `q` is the layer's value at row `r`, feature `q`. -/
theorem block_row (h a : S100000x64.Idx → EReal) (x0 x1 : Vec Ideal S5000x64 .f32) (x2 : Vec Ideal S64x64 .f32)
    (x3 : Vec Ideal S64 .f32) (x4 : Vec Ideal S64x64 .f32) (x5 x6 x7 x8 x9 : Vec Ideal S64 .f32)
    (p : Fin 5000) (r : Fin 100000) (q : Fin 64)
    (h0 : ∀ l, x0 (ix2 p l) = h (ix2 r l)) (h1 : ∀ l, x1 (ix2 p l) = a (ix2 r l)) :
    k1_pay1 (k1_pay2 x0) (k1_pay3 x0 x1 x2 x3 x4 x5 x8 x9) x6 x7 (ix2 p q) = layerRes h a x2 x3 x4 x5 x6 x7 x8 x9 (ix2 r q) := by
  rw [LayerPay.res_apply]
  rw [show (fun l => x0 (ix2 p l)) = fun l => h (ix2 r l) from funext h0,
    show (fun l => x1 (ix2 p l)) = fun l => a (ix2 r l) from funext h1]
  rfl

/-- What point `t` writes back is block `t` of the layer of the arrays the region finds. -/
theorem flushed_eq (c : Dev nD) (t : Fin cfg2.N) :
    (dat2 (F := Ideal) V c).flushed 10 t = ((cfg2.win 10).blk t).view.read (Elt Ideal)
      (layerRes (V c main_v41) (V c main_v51) (V c main_v53) (V c main_v55) (V c main_v57) (V c main_v59)
          (V c main_v61) (V c main_v63) (V c main_v65) (V c main_v67)) := by
  show (cfg2.win 10).cut (grid2.coords t) ((dat2 V c).after 10 t) = _
  rw [after2_10]
  unfold out2_10
  rw [View.canon_unit_zero zero2]
  simp only [View.ld_unit_zero (S := S5000x64) zero2, View.ld_unit_zero (S := S64x64) zero2, View.ld_unit_zero (S := S64) zero1]
  simp only [LayerPay.pay1_2, LayerPay.pay2_2, LayerPay.pay3_2]
  funext j
  obtain ⟨p, q, rfl⟩ : ∃ (p : Fin 5000) (q : Fin 64), j = ix2 p q := ⟨j 0, j 1, eq_ix2 j⟩
  rw [mat1_block V c t, bias1_block V c t, mat2_block V c t, bias2_block V c t, scale_block V c t, shift_block V c t,
    mean_block V c t, var_block V c t]
  refine (block_row (V c main_v41) (V c main_v51) _ _ _ _ _ _ _ _ _ _ p (rowOf t p) q (feat_block V c t p) (sum_block V c t p)).trans ?_
  exact congrArg (layerRes (V c main_v41) (V c main_v51) (V c main_v53) (V c main_v55) (V c main_v57) (V c main_v59)
          (V c main_v61) (V c main_v63) (V c main_v65) (V c main_v67)) (out_block t p q).symm

/-- An index of the output array is in point `t`'s block iff each coordinate is in the block's range on its axis. -/
theorem mem_block (t : Fin cfg2.N) (i : S100000x64.Idx) :
    i ∈ ((cfg2.win 10).blk t).view.set ↔ ∀ a : Fin 2, win2_10.index t a * S5000x64.size a ≤ (i a).val
      ∧ (i a).val < win2_10.index t a * S5000x64.size a + S5000x64.size a := by
  show i ∈ ((View.whole main_v68).slice (win2_10.rect t)).set ↔ _
  rw [View.set_slice_whole, Rect.mem_set_unit]
  exact Iff.rfl

/-- The 20 blocks cover the output array: row `r` is in the block of point `r / 5000`. -/
theorem covered (i : S100000x64.Idx) :
    ∃ t : Fin cfg2.N, (cfg2.win 10).flush t = true ∧ i ∈ ((cfg2.win 10).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨-, -, -, -, e0, e1, -⟩ := index_maps t
  refine ⟨t, flush2_10 t, ?_⟩
  rw [mem_block]
  intro a
  match a with
  | ⟨0, _⟩ =>
    show win2_10.index t (0 : Fin 2) * 5000 ≤ (i 0).val ∧ (i 0).val < win2_10.index t (0 : Fin 2) * 5000 + 5000
    rw [e0, ht]; omega
  | ⟨1, _⟩ =>
    show win2_10.index t (1 : Fin 2) * 64 ≤ (i 1).val ∧ (i 1).val < win2_10.index t (1 : Fin 2) * 64 + 64
    rw [e1]; omega

/-- Region 2's output array after its 20 points. -/
theorem array (c : Dev nD) :
    ((dat2 (F := Ideal) V c).arrAt 10 cfg2.N : S100000x64.Idx → EReal)
      = layerRes (V c main_v41) (V c main_v51) (V c main_v53) (V c main_v55) (V c main_v57) (V c main_v59)
          (V c main_v61) (V c main_v63) (V c main_v65) (V c main_v67) :=
  (dat2 (F := Ideal) V c).arrAt_eq_of_cover 10 _ (fun t _ => flushed_eq V c t) covered

end Cert.KernelIdeal.Region2

end
-- ==== Proof.Region3.lean ====
/-
  A residual layer's region (the fourth layer): its output array after the run is the residual layer of the arrays the region finds.

  The grid has 20 points; point t works on rows 5000 t … 5000 t + 4999 of the node arrays and on the whole of every
  parameter array, and writes block t of the output. The 20 blocks tile the output, and what point t writes at row p of
  its block depends only on row 5000 t + p of the inputs: so the output is one function of the input arrays, row by row.
-/
import proofs.«425461_j52037823758418_1_alg».proof.Proof.Gen.KernelIdeal.Frame
import proofs.«425461_j52037823758418_1_alg».proof.Proof.LayerPay

set_option maxRecDepth 16384

noncomputable section

namespace Cert.KernelIdeal.Region3

open Idealize.ShloMosaic Idealize.ShloMosaic.TcCoe Idealize.ShloMosaic.ValueIdx Idealize.SL.Sem Cert.KernelIdeal Cert.KernelIdeal.Gen Cert.GinSpec
open Idealize.ShloMosaic.Pipeline (Dat Cfg Window)

variable (V : (c : Dev nD) → (b : Ref sig .tc) → Buf (Elt Ideal) ((c : Thread nD τ).loc b))

/-- The offsets of a rectangle that starts at the origin, rank 2 … -/
theorem zero2 : (![0, 0] : Fin 2 → Nat) = fun _ => 0 := funext fun a => by fin_cases a <;> rfl
/-- … and rank 1. -/
theorem zero1 : (![0] : Fin 1 → Nat) = fun _ => 0 := funext fun a => by fin_cases a; rfl

/-- The index maps, decided once over the 20 points: the two node windows and the output are at block `(t, 0)`, every
    parameter window at block 0. -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_10.index t (0 : Fin 2) = t.val ∧ win3_10.index t (1 : Fin 2) = 0
    ∧ win3_2.index t (0 : Fin 2) = 0 ∧ win3_2.index t (1 : Fin 2) = 0
    ∧ win3_4.index t (0 : Fin 2) = 0 ∧ win3_4.index t (1 : Fin 2) = 0
    ∧ win3_3.index t (0 : Fin 1) = 0 ∧ win3_5.index t (0 : Fin 1) = 0 ∧ win3_6.index t (0 : Fin 1) = 0
    ∧ win3_7.index t (0 : Fin 1) = 0 ∧ win3_8.index t (0 : Fin 1) = 0 ∧ win3_9.index t (0 : Fin 1) = 0 :=
  (by decide +kernel : ∀ t : Fin grid3.N, _)

/-- There are 20 points. -/
theorem point_lt (t : Fin cfg3.N) : t.val < 20 := Nat.lt_of_lt_of_eq t.isLt N_3

/-- The row of the node arrays that row `p` of point `t`'s block is: `5000 t + p`. -/
abbrev rowOf (t : Fin cfg3.N) (p : Fin 5000) : Fin 100000 :=
  ⟨t.val * 5000 + p.val, by have := point_lt t; have := p.isLt; omega⟩

/-- The node-feature block at point `t`, row `p`: the array's row `5000 t + p`. -/
theorem feat_block (c : Dev nD) (t : Fin cfg3.N) (p : Fin 5000) (l : Fin 64) :
    (iblk3 V c 0 t : Vec Ideal S5000x64 .f32) (ix2 p l) = (V c main_v68 : S100000x64.Idx → EReal) (ix2 (rowOf t p) l) := by
  obtain ⟨e0, e1, -⟩ := index_maps t
  show V c main_v68 (((cfg3.win 0).blk t).view.emb (ix2 p l)) = V c main_v68 (ix2 (rowOf t p) l)
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 64 + 1 * l.val = l.val; rw [e1]; omega

/-- The neighbour-sum block at point `t`, row `p`: the array's row `5000 t + p`. -/
theorem sum_block (c : Dev nD) (t : Fin cfg3.N) (p : Fin 5000) (l : Fin 64) :
    (iblk3 V c 1 t : Vec Ideal S5000x64 .f32) (ix2 p l) = (V c main_v78 : S100000x64.Idx → EReal) (ix2 (rowOf t p) l) := by
  obtain ⟨-, -, e0, e1, -⟩ := index_maps t
  show V c main_v78 (((cfg3.win 1).blk t).view.emb (ix2 p l)) = V c main_v78 (ix2 (rowOf t p) l)
  congr 1
  funext a
  apply Fin.ext
  match a with
  | ⟨0, _⟩ => show win3_1.index t (0 : Fin 2) * 5000 + 1 * p.val = t.val * 5000 + p.val; rw [e0]; omega
  | ⟨1, _⟩ => show win3_1.index t (1 : Fin 2) * 64 + 1 * l.val = l.val; rw [e1]; omega

/-- Where row `p`, feature `q` of point `t`'s output block sits in the output array: row `5000 t + p`, feature `q`. -/
theorem out_block (t : Fin cfg3.N) (p : Fin 5000) (q : Fin 64) :
    (((cfg3.win 10).blk t).view.emb (ix2 p q) : S100000x64.Idx) = ix2 (rowOf t p) q := by
  obtain ⟨-, -, -, -, e0, e1, -⟩ := index_maps t
  funext a
  apply Fin.ext
  match a with
  | ⟨0, _⟩ => show win3_10.index t (0 : Fin 2) * 5000 + 1 * p.val = t.val * 5000 + p.val; rw [e0]; omega
  | ⟨1, _⟩ => show win3_10.index t (1 : Fin 2) * 64 + 1 * q.val = q.val; rw [e1]; omega

/-- The first weight matrix's block at every point is the whole array. -/
theorem mat1_block (c : Dev nD) (t : Fin cfg3.N) : (iblk3 V c 2 t : Vec Ideal S64x64 .f32) = V c main_v80 := by
  obtain ⟨-, -, -, -, -, -, e0, e1, -⟩ := index_maps t
  funext y
  show V c main_v80 (((cfg3.win 2).blk t).view.emb y) = V c main_v80 y
  congr 1
  funext a
  apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- The second weight matrix's block at every point is the whole array. -/
theorem mat2_block (c : Dev nD) (t : Fin cfg3.N) : (iblk3 V c 4 t : Vec Ideal S64x64 .f32) = V c main_v84 := by
  obtain ⟨-, -, -, -, -, -, -, -, e0, e1, -⟩ := index_maps t
  funext y
  show V c main_v84 (((cfg3.win 4).blk t).view.emb y) = V c main_v84 y
  congr 1
  funext a
  apply Fin.ext
  match a with
  | ⟨0, _⟩ => show win3_4.index t (0 : Fin 2) * 64 + 1 * (y 0).val = (y 0).val; rw [e0]; omega
  | ⟨1, _⟩ => show win3_4.index t (1 : Fin 2) * 64 + 1 * (y 1).val = (y 1).val; rw [e1]; omega

/-- The first bias's block at every point is the whole array. -/
theorem bias1_block (c : Dev nD) (t : Fin cfg3.N) : (iblk3 V c 3 t : Vec Ideal S64 .f32) = V c main_v82 := by
  obtain ⟨-, -, -, -, -, -, -, -, -, -, e0, -⟩ := index_maps t
  funext y
  show V c main_v82 (((cfg3.win 3).blk t).view.emb y) = V c main_v82 y
  congr 1
  funext a
  apply Fin.ext
  match a with
  | ⟨0, _⟩ => show win3_3.index t (0 : Fin 1) * 64 + 1 * (y 0).val = (y 0).val; rw [e0]; omega

/-- The second bias's block at every point is the whole array. -/
theorem bias2_block (c : Dev nD) (t : Fin cfg3.N) : (iblk3 V c 5 t : Vec Ideal S64 .f32) = V c main_v86 := by
  obtain ⟨-, -, -, -, -, -, -, -, -, -, -, e0, -⟩ := index_maps t
  funext y
  show V c main_v86 (((cfg3.win 5).blk t).view.emb y) = V c main_v86 y
  congr 1
  funext a
  apply Fin.ext
  match a with
  | ⟨0, _⟩ => show win3_5.index t (0 : Fin 1) * 64 + 1 * (y 0).val = (y 0).val; rw [e0]; omega

/-- The scale's block at every point is the whole array. -/
theorem scale_block (c : Dev nD) (t : Fin cfg3.N) : (iblk3 V c 6 t : Vec Ideal S64 .f32) = V c main_v88 := by
  obtain ⟨-, -, -, -, -, -, -, -, -, -, -, -, e0, -⟩ := index_maps t
  funext y
  show V c main_v88 (((cfg3.win 6).blk t).view.emb y) = V c main_v88 y
  congr 1
  funext a
  apply Fin.ext
  match a with
  | ⟨0, _⟩ => show win3_6.index t (0 : Fin 1) * 64 + 1 * (y 0).val = (y 0).val; rw [e0]; omega

/-- The shift's block at every point is the whole array. -/
theorem shift_block (c : Dev nD) (t : Fin cfg3.N) : (iblk3 V c 7 t : Vec Ideal S64 .f32) = V c main_v90 := by
  obtain ⟨-, -, -, -, -, -, -, -, -, -, -, -, -, e0, -⟩ := index_maps t
  funext y
  show V c main_v90 (((cfg3.win 7).blk t).view.emb y) = V c main_v90 y
  congr 1
  funext a
  apply Fin.ext
  match a with
  | ⟨0, _⟩ => show win3_7.index t (0 : Fin 1) * 64 + 1 * (y 0).val = (y 0).val; rw [e0]; omega

/-- The running mean's block at every point is the whole array. -/
theorem mean_block (c : Dev nD) (t : Fin cfg3.N) : (iblk3 V c 8 t : Vec Ideal S64 .f32) = V c main_v92 := by
  obtain ⟨-, -, -, -, -, -, -, -, -, -, -, -, -, -, e0, -⟩ := index_maps t
  funext y
  show V c main_v92 (((cfg3.win 8).blk t).view.emb y) = V c main_v92 y
  congr 1
  funext a
  apply Fin.ext
  match a with
  | ⟨0, _⟩ => show win3_8.index t (0 : Fin 1) * 64 + 1 * (y 0).val = (y 0).val; rw [e0]; omega

/-- The running variance's block at every point is the whole array. -/
theorem var_block (c : Dev nD) (t : Fin cfg3.N) : (iblk3 V c 9 t : Vec Ideal S64 .f32) = V c main_v94 := by
  obtain ⟨-, -, -, -, -, -, -, -, -, -, -, -, -, -, -, e0⟩ := index_maps t
  funext y
  show V c main_v94 (((cfg3.win 9).blk t).view.emb y) = V c main_v94 y
  congr 1
  funext a
  apply Fin.ext
  match a with
  | ⟨0, _⟩ => show win3_9.index t (0 : Fin 1) * 64 + 1 * (y 0).val = (y 0).val; rw [e0]; omega

/-- One stored element, from the blocks: when row `p` of the two node blocks is row `r` of the node arrays, the value
    stored at row `p`, feature `q` is the layer's value at row `r`, feature `q`. -/
theorem block_row (h a : S100000x64.Idx → EReal) (x0 x1 : Vec Ideal S5000x64 .f32) (x2 : Vec Ideal S64x64 .f32)
    (x3 : Vec Ideal S64 .f32) (x4 : Vec Ideal S64x64 .f32) (x5 x6 x7 x8 x9 : Vec Ideal S64 .f32)
    (p : Fin 5000) (r : Fin 100000) (q : Fin 64)
    (h0 : ∀ l, x0 (ix2 p l) = h (ix2 r l)) (h1 : ∀ l, x1 (ix2 p l) = a (ix2 r l)) :
    k1_pay1 (k1_pay2 x0) (k1_pay3 x0 x1 x2 x3 x4 x5 x8 x9) x6 x7 (ix2 p q) = layerRes h a x2 x3 x4 x5 x6 x7 x8 x9 (ix2 r q) := by
  rw [LayerPay.res_apply]
  rw [show (fun l => x0 (ix2 p l)) = fun l => h (ix2 r l) from funext h0,
    show (fun l => x1 (ix2 p l)) = fun l => a (ix2 r l) from funext h1]
  rfl

/-- What point `t` writes back is block `t` of the layer of the arrays the region finds. -/
theorem flushed_eq (c : Dev nD) (t : Fin cfg3.N) :
    (dat3 (F := Ideal) V c).flushed 10 t = ((cfg3.win 10).blk t).view.read (Elt Ideal)
      (layerRes (V c main_v68) (V c main_v78) (V c main_v80) (V c main_v82) (V c main_v84) (V c main_v86)
          (V c main_v88) (V c main_v90) (V c main_v92) (V c main_v94)) := by
  show (cfg3.win 10).cut (grid3.coords t) ((dat3 V c).after 10 t) = _
  rw [after3_10]
  unfold out3_10
  rw [View.canon_unit_zero zero2]
  simp only [View.ld_unit_zero (S := S5000x64) zero2, View.ld_unit_zero (S := S64x64) zero2, View.ld_unit_zero (S := S64) zero1]
  simp only [LayerPay.pay1_3, LayerPay.pay2_3, LayerPay.pay3_3]
  funext j
  obtain ⟨p, q, rfl⟩ : ∃ (p : Fin 5000) (q : Fin 64), j = ix2 p q := ⟨j 0, j 1, eq_ix2 j⟩
  rw [mat1_block V c t, bias1_block V c t, mat2_block V c t, bias2_block V c t, scale_block V c t, shift_block V c t,
    mean_block V c t, var_block V c t]
  refine (block_row (V c main_v68) (V c main_v78) _ _ _ _ _ _ _ _ _ _ p (rowOf t p) q (feat_block V c t p) (sum_block V c t p)).trans ?_
  exact congrArg (layerRes (V c main_v68) (V c main_v78) (V c main_v80) (V c main_v82) (V c main_v84) (V c main_v86)
          (V c main_v88) (V c main_v90) (V c main_v92) (V c main_v94)) (out_block t p q).symm

/-- An index of the output array is in point `t`'s block iff each coordinate is in the block's range on its axis. -/
theorem mem_block (t : Fin cfg3.N) (i : S100000x64.Idx) :
    i ∈ ((cfg3.win 10).blk t).view.set ↔ ∀ a : Fin 2, win3_10.index t a * S5000x64.size a ≤ (i a).val
      ∧ (i a).val < win3_10.index t a * S5000x64.size a + S5000x64.size a := by
  show i ∈ ((View.whole main_v95).slice (win3_10.rect t)).set ↔ _
  rw [View.set_slice_whole, Rect.mem_set_unit]
  exact Iff.rfl

/-- The 20 blocks cover the output array: row `r` is in the block of point `r / 5000`. -/
theorem covered (i : S100000x64.Idx) :
    ∃ t : Fin cfg3.N, (cfg3.win 10).flush t = true ∧ i ∈ ((cfg3.win 10).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, Nat.lt_of_lt_of_eq (by omega : (i 0).val / 5000 < 20) N_3.symm⟩, rfl⟩
  obtain ⟨-, -, -, -, e0, e1, -⟩ := index_maps t
  refine ⟨t, flush3_10 t, ?_⟩
  rw [mem_block]
  intro a
  match a with
  | ⟨0, _⟩ =>
    show win3_10.index t (0 : Fin 2) * 5000 ≤ (i 0).val ∧ (i 0).val < win3_10.index t (0 : Fin 2) * 5000 + 5000
    rw [e0, ht]; omega
  | ⟨1, _⟩ =>
    show win3_10.index t (1 : Fin 2) * 64 ≤ (i 1).val ∧ (i 1).val < win3_10.index t (1 : Fin 2) * 64 + 64
    rw [e1]; omega

/-- Region 3's output array after its 20 points. -/
theorem array (c : Dev nD) :
    ((dat3 (F := Ideal) V c).arrAt 10 cfg3.N : S100000x64.Idx → EReal)
      = layerRes (V c main_v68) (V c main_v78) (V c main_v80) (V c main_v82) (V c main_v84) (V c main_v86)
          (V c main_v88) (V c main_v90) (V c main_v92) (V c main_v94) :=
  (dat3 (F := Ideal) V c).arrAt_eq_of_cover 10 _ (fun t _ => flushed_eq V c t) covered

end Cert.KernelIdeal.Region3

end
-- ==== Proof.Region4.lean ====
/-
  A residual layer's region (the fifth layer): its output array after the run is the residual layer of the arrays the region finds.

  The grid has 20 points; point t works on rows 5000 t … 5000 t + 4999 of the node arrays and on the whole of every
  parameter array, and writes block t of the output. The 20 blocks tile the output, and what point t writes at row p of
  its block depends only on row 5000 t + p of the inputs: so the output is one function of the input arrays, row by row.
-/
import proofs.«425461_j52037823758418_1_alg».proof.Proof.Gen.KernelIdeal.Frame
import proofs.«425461_j52037823758418_1_alg».proof.Proof.LayerPay

set_option maxRecDepth 16384

noncomputable section

namespace Cert.KernelIdeal.Region4

open Idealize.ShloMosaic Idealize.ShloMosaic.TcCoe Idealize.ShloMosaic.ValueIdx Idealize.SL.Sem Cert.KernelIdeal Cert.KernelIdeal.Gen Cert.GinSpec
open Idealize.ShloMosaic.Pipeline (Dat Cfg Window)

variable (V : (c : Dev nD) → (b : Ref sig .tc) → Buf (Elt Ideal) ((c : Thread nD τ).loc b))

/-- The offsets of a rectangle that starts at the origin, rank 2 … -/
theorem zero2 : (![0, 0] : Fin 2 → Nat) = fun _ => 0 := funext fun a => by fin_cases a <;> rfl
/-- … and rank 1. -/
theorem zero1 : (![0] : Fin 1 → Nat) = fun _ => 0 := funext fun a => by fin_cases a; rfl

/-- The index maps, decided once over the 20 points: the two node windows and the output are at block `(t, 0)`, every
    parameter window at block 0. -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_10.index t (0 : Fin 2) = t.val ∧ win4_10.index t (1 : Fin 2) = 0
    ∧ win4_2.index t (0 : Fin 2) = 0 ∧ win4_2.index t (1 : Fin 2) = 0
    ∧ win4_4.index t (0 : Fin 2) = 0 ∧ win4_4.index t (1 : Fin 2) = 0
    ∧ win4_3.index t (0 : Fin 1) = 0 ∧ win4_5.index t (0 : Fin 1) = 0 ∧ win4_6.index t (0 : Fin 1) = 0
    ∧ win4_7.index t (0 : Fin 1) = 0 ∧ win4_8.index t (0 : Fin 1) = 0 ∧ win4_9.index t (0 : Fin 1) = 0 :=
  (by decide +kernel : ∀ t : Fin grid4.N, _)

/-- There are 20 points. -/
theorem point_lt (t : Fin cfg4.N) : t.val < 20 := Nat.lt_of_lt_of_eq t.isLt N_4

/-- The row of the node arrays that row `p` of point `t`'s block is: `5000 t + p`. -/
abbrev rowOf (t : Fin cfg4.N) (p : Fin 5000) : Fin 100000 :=
  ⟨t.val * 5000 + p.val, by have := point_lt t; have := p.isLt; omega⟩

/-- The node-feature block at point `t`, row `p`: the array's row `5000 t + p`. -/
theorem feat_block (c : Dev nD) (t : Fin cfg4.N) (p : Fin 5000) (l : Fin 64) :
    (iblk4 V c 0 t : Vec Ideal S5000x64 .f32) (ix2 p l) = (V c main_v95 : S100000x64.Idx → EReal) (ix2 (rowOf t p) l) := by
  obtain ⟨e0, e1, -⟩ := index_maps t
  show V c main_v95 (((cfg4.win 0).blk t).view.emb (ix2 p l)) = V c main_v95 (ix2 (rowOf t p) l)
  congr 1
  funext a
  apply Fin.ext
  match a with
  | ⟨0, _⟩ => show win4_0.index t (0 : Fin 2) * 5000 + 1 * p.val = t.val * 5000 + p.val; rw [e0]; omega
  | ⟨1, _⟩ => show win4_0.index t (1 : Fin 2) * 64 + 1 * l.val = l.val; rw [e1]; omega

/-- The neighbour-sum block at point `t`, row `p`: the array's row `5000 t + p`. -/
theorem sum_block (c : Dev nD) (t : Fin cfg4.N) (p : Fin 5000) (l : Fin 64) :
    (iblk4 V c 1 t : Vec Ideal S5000x64 .f32) (ix2 p l) = (V c main_v105 : S100000x64.Idx → EReal) (ix2 (rowOf t p) l) := by
  obtain ⟨-, -, e0, e1, -⟩ := index_maps t
  show V c main_v105 (((cfg4.win 1).blk t).view.emb (ix2 p l)) = V c main_v105 (ix2 (rowOf t p) l)
  congr 1
  funext a
  apply Fin.ext
  match a with
  | ⟨0, _⟩ => show win4_1.index t (0 : Fin 2) * 5000 + 1 * p.val = t.val * 5000 + p.val; rw [e0]; omega
  | ⟨1, _⟩ => show win4_1.index t (1 : Fin 2) * 64 + 1 * l.val = l.val; rw [e1]; omega

/-- Where row `p`, feature `q` of point `t`'s output block sits in the output array: row `5000 t + p`, feature `q`. -/
theorem out_block (t : Fin cfg4.N) (p : Fin 5000) (q : Fin 64) :
    (((cfg4.win 10).blk t).view.emb (ix2 p q) : S100000x64.Idx) = ix2 (rowOf t p) q := by
  obtain ⟨-, -, -, -, e0, e1, -⟩ := index_maps t
  funext a
  apply Fin.ext
  match a with
  | ⟨0, _⟩ => show win4_10.index t (0 : Fin 2) * 5000 + 1 * p.val = t.val * 5000 + p.val; rw [e0]; omega
  | ⟨1, _⟩ => show win4_10.index t (1 : Fin 2) * 64 + 1 * q.val = q.val; rw [e1]; omega

/-- The first weight matrix's block at every point is the whole array. -/
theorem mat1_block (c : Dev nD) (t : Fin cfg4.N) : (iblk4 V c 2 t : Vec Ideal S64x64 .f32) = V c main_v107 := by
  obtain ⟨-, -, -, -, -, -, e0, e1, -⟩ := index_maps t
  funext y
  show V c main_v107 (((cfg4.win 2).blk t).view.emb y) = V c main_v107 y
  congr 1
  funext a
  apply Fin.ext
  match a with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

/-- The second weight matrix's block at every point is the whole array. -/
theorem mat2_block (c : Dev nD) (t : Fin cfg4.N) : (iblk4 V c 4 t : Vec Ideal S64x64 .f32) = V c main_v111 := by
  obtain ⟨-, -, -, -, -, -, -, -, e0, e1, -⟩ := index_maps t
  funext y
  show V c main_v111 (((cfg4.win 4).blk t).view.emb y) = V c main_v111 y
  congr 1
  funext a
  apply Fin.ext
  match a with
  | ⟨0, _⟩ => show win4_4.index t (0 : Fin 2) * 64 + 1 * (y 0).val = (y 0).val; rw [e0]; omega
  | ⟨1, _⟩ => show win4_4.index t (1 : Fin 2) * 64 + 1 * (y 1).val = (y 1).val; rw [e1]; omega

/-- The first bias's block at every point is the whole array. -/
theorem bias1_block (c : Dev nD) (t : Fin cfg4.N) : (iblk4 V c 3 t : Vec Ideal S64 .f32) = V c main_v109 := by
  obtain ⟨-, -, -, -, -, -, -, -, -, -, e0, -⟩ := index_maps t
  funext y
  show V c main_v109 (((cfg4.win 3).blk t).view.emb y) = V c main_v109 y
  congr 1
  funext a
  apply Fin.ext
  match a with
  | ⟨0, _⟩ => show win4_3.index t (0 : Fin 1) * 64 + 1 * (y 0).val = (y 0).val; rw [e0]; omega

/-- The second bias's block at every point is the whole array. -/
theorem bias2_block (c : Dev nD) (t : Fin cfg4.N) : (iblk4 V c 5 t : Vec Ideal S64 .f32) = V c main_v113 := by
  obtain ⟨-, -, -, -, -, -, -, -, -, -, -, e0, -⟩ := index_maps t
  funext y
  show V c main_v113 (((cfg4.win 5).blk t).view.emb y) = V c main_v113 y
  congr 1
  funext a
  apply Fin.ext
  match a with
  | ⟨0, _⟩ => show win4_5.index t (0 : Fin 1) * 64 + 1 * (y 0).val = (y 0).val; rw [e0]; omega

/-- The scale's block at every point is the whole array. -/
theorem scale_block (c : Dev nD) (t : Fin cfg4.N) : (iblk4 V c 6 t : Vec Ideal S64 .f32) = V c main_v115 := by
  obtain ⟨-, -, -, -, -, -, -, -, -, -, -, -, e0, -⟩ := index_maps t
  funext y
  show V c main_v115 (((cfg4.win 6).blk t).view.emb y) = V c main_v115 y
  congr 1
  funext a
  apply Fin.ext
  match a with
  | ⟨0, _⟩ => show win4_6.index t (0 : Fin 1) * 64 + 1 * (y 0).val = (y 0).val; rw [e0]; omega

/-- The shift's block at every point is the whole array. -/
theorem shift_block (c : Dev nD) (t : Fin cfg4.N) : (iblk4 V c 7 t : Vec Ideal S64 .f32) = V c main_v117 := by
  obtain ⟨-, -, -, -, -, -, -, -, -, -, -, -, -, e0, -⟩ := index_maps t
  funext y
  show V c main_v117 (((cfg4.win 7).blk t).view.emb y) = V c main_v117 y
  congr 1
  funext a
  apply Fin.ext
  match a with
  | ⟨0, _⟩ => show win4_7.index t (0 : Fin 1) * 64 + 1 * (y 0).val = (y 0).val; rw [e0]; omega

/-- The running mean's block at every point is the whole array. -/
theorem mean_block (c : Dev nD) (t : Fin cfg4.N) : (iblk4 V c 8 t : Vec Ideal S64 .f32) = V c main_v119 := by
  obtain ⟨-, -, -, -, -, -, -, -, -, -, -, -, -, -, e0, -⟩ := index_maps t
  funext y
  show V c main_v119 (((cfg4.win 8).blk t).view.emb y) = V c main_v119 y
  congr 1
  funext a
  apply Fin.ext
  match a with
  | ⟨0, _⟩ => show win4_8.index t (0 : Fin 1) * 64 + 1 * (y 0).val = (y 0).val; rw [e0]; omega

/-- The running variance's block at every point is the whole array. -/
theorem var_block (c : Dev nD) (t : Fin cfg4.N) : (iblk4 V c 9 t : Vec Ideal S64 .f32) = V c main_v121 := by
  obtain ⟨-, -, -, -, -, -, -, -, -, -, -, -, -, -, -, e0⟩ := index_maps t
  funext y
  show V c main_v121 (((cfg4.win 9).blk t).view.emb y) = V c main_v121 y
  congr 1
  funext a
  apply Fin.ext
  match a with
  | ⟨0, _⟩ => show win4_9.index t (0 : Fin 1) * 64 + 1 * (y 0).val = (y 0).val; rw [e0]; omega

/-- One stored element, from the blocks: when row `p` of the two node blocks is row `r` of the node arrays, the value
    stored at row `p`, feature `q` is the layer's value at row `r`, feature `q`. -/
theorem block_row (h a : S100000x64.Idx → EReal) (x0 x1 : Vec Ideal S5000x64 .f32) (x2 : Vec Ideal S64x64 .f32)
    (x3 : Vec Ideal S64 .f32) (x4 : Vec Ideal S64x64 .f32) (x5 x6 x7 x8 x9 : Vec Ideal S64 .f32)
    (p : Fin 5000) (r : Fin 100000) (q : Fin 64)
    (h0 : ∀ l, x0 (ix2 p l) = h (ix2 r l)) (h1 : ∀ l, x1 (ix2 p l) = a (ix2 r l)) :
    k1_pay1 (k1_pay2 x0) (k1_pay3 x0 x1 x2 x3 x4 x5 x8 x9) x6 x7 (ix2 p q) = layerRes h a x2 x3 x4 x5 x6 x7 x8 x9 (ix2 r q) := by
  rw [LayerPay.res_apply]
  rw [show (fun l => x0 (ix2 p l)) = fun l => h (ix2 r l) from funext h0,
    show (fun l => x1 (ix2 p l)) = fun l => a (ix2 r l) from funext h1]
  rfl

/-- What point `t` writes back is block `t` of the layer of the arrays the region finds. -/
theorem flushed_eq (c : Dev nD) (t : Fin cfg4.N) :
    (dat4 (F := Ideal) V c).flushed 10 t = ((cfg4.win 10).blk t).view.read (Elt Ideal)
      (layerRes (V c main_v95) (V c main_v105) (V c main_v107) (V c main_v109) (V c main_v111) (V c main_v113)
          (V c main_v115) (V c main_v117) (V c main_v119) (V c main_v121)) := by
  show (cfg4.win 10).cut (grid4.coords t) ((dat4 V c).after 10 t) = _
  rw [after4_10]
  unfold out4_10
  rw [View.canon_unit_zero zero2]
  simp only [View.ld_unit_zero (S := S5000x64) zero2, View.ld_unit_zero (S := S64x64) zero2, View.ld_unit_zero (S := S64) zero1]
  simp only [LayerPay.pay1_4, LayerPay.pay2_4, LayerPay.pay3_4]
  funext j
  obtain ⟨p, q, rfl⟩ : ∃ (p : Fin 5000) (q : Fin 64), j = ix2 p q := ⟨j 0, j 1, eq_ix2 j⟩
  rw [mat1_block V c t, bias1_block V c t, mat2_block V c t, bias2_block V c t, scale_block V c t, shift_block V c t,
    mean_block V c t, var_block V c t]
  refine (block_row (V c main_v95) (V c main_v105) _ _ _ _ _ _ _ _ _ _ p (rowOf t p) q (feat_block V c t p) (sum_block V c t p)).trans ?_
  exact congrArg (layerRes (V c main_v95) (V c main_v105) (V c main_v107) (V c main_v109) (V c main_v111) (V c main_v113)
          (V c main_v115) (V c main_v117) (V c main_v119) (V c main_v121)) (out_block t p q).symm

/-- An index of the output array is in point `t`'s block iff each coordinate is in the block's range on its axis. -/
theorem mem_block (t : Fin cfg4.N) (i : S100000x64.Idx) :
    i ∈ ((cfg4.win 10).blk t).view.set ↔ ∀ a : Fin 2, win4_10.index t a * S5000x64.size a ≤ (i a).val
      ∧ (i a).val < win4_10.index t a * S5000x64.size a + S5000x64.size a := by
  show i ∈ ((View.whole main_v122).slice (win4_10.rect t)).set ↔ _
  rw [View.set_slice_whole, Rect.mem_set_unit]
  exact Iff.rfl

/-- The 20 blocks cover the output array: row `r` is in the block of point `r / 5000`. -/
theorem covered (i : S100000x64.Idx) :
    ∃ t : Fin cfg4.N, (cfg4.win 10).flush t = true ∧ i ∈ ((cfg4.win 10).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, Nat.lt_of_lt_of_eq (by omega : (i 0).val / 5000 < 20) N_4.symm⟩, rfl⟩
  obtain ⟨-, -, -, -, e0, e1, -⟩ := index_maps t
  refine ⟨t, flush4_10 t, ?_⟩
  rw [mem_block]
  intro a
  match a with
  | ⟨0, _⟩ =>
    show win4_10.index t (0 : Fin 2) * 5000 ≤ (i 0).val ∧ (i 0).val < win4_10.index t (0 : Fin 2) * 5000 + 5000
    rw [e0, ht]; omega
  | ⟨1, _⟩ =>
    show win4_10.index t (1 : Fin 2) * 64 ≤ (i 1).val ∧ (i 1).val < win4_10.index t (1 : Fin 2) * 64 + 64
    rw [e1]; omega

/-- Region 4's output array after its 20 points. -/
theorem array (c : Dev nD) :
    ((dat4 (F := Ideal) V c).arrAt 10 cfg4.N : S100000x64.Idx → EReal)
      = layerRes (V c main_v95) (V c main_v105) (V c main_v107) (V c main_v109) (V c main_v111) (V c main_v113)
          (V c main_v115) (V c main_v117) (V c main_v119) (V c main_v121) :=
  (dat4 (F := Ideal) V c).arrAt_eq_of_cover 10 _ (fun t _ => flushed_eq V c t) covered

end Cert.KernelIdeal.Region4

end
-- ==== Proof.PoolPay.lean ====
/-
  The pooling kernel's arithmetic, read at one element.

  A point sees 5000 rows of node features and their graph ids. It maps each row through the head (one affine map and
  tanh), forms the 5000 x 128 table whose entry (p, g) is one when row p's id is g and zero otherwise, and adds to the
  running 128 x 64 sums the product of that table, transposed, with the head's output; to the running 128 x 1 counts it
  adds the product of the transposed table with a column of ones. On the extended reals the table's entries are exactly
  0 and 1, so the products are the sum of the rows whose id is g, and their number.
-/
import proofs.«425461_j52037823758418_1_alg».proof.Proof.Gen.KernelIdeal.Skeleton
import proofs.«425461_j52037823758418_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PoolPay

open Idealize.ShloMosaic Idealize.ShloMosaic.ValueIdx Cert.KernelIdeal Cert.KernelIdeal.Gen Cert.GinSpec

/-! ## The head's product: rows by the weight matrix -/

/-- The head's left operand is read at the output's row … -/
theorem head_lhs_0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and the contracted feature; -/
theorem head_lhs_1 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right operand at the contracted feature … -/
theorem head_rhs_0 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- … and the output's feature. -/
theorem head_rhs_1 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block times a weight matrix into the zero accumulator, at row `p`, feature `q`: the sum over the contracted
    feature `l` of the block's `(p, l)` times the matrix's `(l, q)`. -/
theorem matmul_row {φ₁ φ₂ : FTy} (z : FVec Ideal S5000x64 φ₁) (W : FVec Ideal S64x64 φ₂) (p : Fin 5000) (q : Fin 64) :
    matmul dot_S5000x64_S64x64_S5000x64_1_0_0_1_n_n none z W (constant S5000x64 .f32 0x00000000#32) (ix2 p q)
      = ∑ l : Fin 64, z (ix2 p l) * W (ix2 l q) := by
  refine (Ideal.matmul_constant_zero_apply dot_S5000x64_S64x64_S5000x64_1_0_0_1_n_n none z W (ix2 p q)).trans ?_
  rw [← Equiv.sum_comp (contrEquiv1 dot_S5000x64_S64x64_S5000x64_1_0_0_1_n_n 64 rfl rfl).symm]
  refine Finset.sum_congr rfl fun l _ => ?_
  have hk := contrEquiv1_symm_val dot_S5000x64_S64x64_S5000x64_1_0_0_1_n_n 64 rfl rfl l
  have el : dot_S5000x64_S64x64_S5000x64_1_0_0_1_n_n.lhsIdx (ix2 p q)
      ((contrEquiv1 dot_S5000x64_S64x64_S5000x64_1_0_0_1_n_n 64 rfl rfl).symm l) = ix2 p l := funext fun a => Fin.ext (by
    match a with
    | ⟨0, _⟩ => exact head_lhs_0 _ _
    | ⟨1, _⟩ => exact (head_lhs_1 _ _).trans hk)
  have er : dot_S5000x64_S64x64_S5000x64_1_0_0_1_n_n.rhsIdx (ix2 p q)
      ((contrEquiv1 dot_S5000x64_S64x64_S5000x64_1_0_0_1_n_n 64 rfl rfl).symm l) = ix2 l q := funext fun a => Fin.ext (by
    match a with
    | ⟨0, _⟩ => exact (head_rhs_0 _ _).trans hk
    | ⟨1, _⟩ => exact head_rhs_1 _ _)
  rw [el, er]

/-- A per-feature vector laid along every row of a block reads, at row `p`, feature `q`, its entry `q`. -/
theorem bias_row (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- The head of a block, at row `p`, feature `q`: tanh of the affine map of the block's row `p`. -/
theorem head_row (x0 : FVec Ideal S5000x64 .f32) (W : Vec Ideal S64x64 .f32) (b : Vec Ideal S64 .f32) (p : Fin 5000) (q : Fin 64) :
    tanh (addf (matmul dot_S5000x64_S64x64_S5000x64_1_0_0_1_n_n none (truncf .bf16 x0 bitsLt_bf16_f32) (truncf .bf16 W bitsLt_bf16_f32)
          (constant S5000x64 .f32 0x00000000#32))
        (broadcastTo S5000x64 (shapeCast S1x64 b shapeCasts_S64_S1x64) broadcasts_S1x64_S5000x64)) (ix2 p q)
      = Ideal.tanh (affine (fun l => x0 (ix2 p l)) W b q) := by
  show Ideal.tanh (_ + _) = _
  unfold affine
  exact congrArg Ideal.tanh (congrArg₂ (· + ·) (matmul_row _ _ p q) (bias_row b p q))

/-! ## The pooling products: the table, transposed, by a block -/

/-- The pooling product's left operand (the table) is read at the contracted row … -/
theorem sums_lhs_0 (i : S128x64.Idx) (k : dot_S5000x128_S5000x64_S128x64_0_0_1_1_n_n.contr.Idx) :
    (dot_S5000x128_S5000x64_S128x64_0_0_1_1_n_n.lhsIdx i k 0).val = (k ⟨0, by decide⟩).val :=
  dot_S5000x128_S5000x64_S128x64_0_0_1_1_n_n.lhsIdx_val_of_single rfl i k
/-- … and the output's graph; -/
theorem sums_lhs_1 (i : S128x64.Idx) (k : dot_S5000x128_S5000x64_S128x64_0_0_1_1_n_n.contr.Idx) :
    (dot_S5000x128_S5000x64_S128x64_0_0_1_1_n_n.lhsIdx i k 1).val = (i 0).val := by
  unfold DotDims.lhsIdx
  rw [dif_neg (show ¬(1 : Fin S5000x128.rank) ∈ dot_S5000x128_S5000x64_S128x64_0_0_1_1_n_n.lhsBatch by decide),
    dif_pos (show (1 : Fin S5000x128.rank) ∈ dot_S5000x128_S5000x64_S128x64_0_0_1_1_n_n.lhsNonContracting by decide)]
  rfl
/-- the right operand at the contracted row … -/
theorem sums_rhs_0 (i : S128x64.Idx) (k : dot_S5000x128_S5000x64_S128x64_0_0_1_1_n_n.contr.Idx) :
    (dot_S5000x128_S5000x64_S128x64_0_0_1_1_n_n.rhsIdx i k 0).val = (k ⟨0, by decide⟩).val :=
  dot_S5000x128_S5000x64_S128x64_0_0_1_1_n_n.rhsIdx_val_of_single rfl i k
/-- … and the output's column. -/
theorem sums_rhs_1 (i : S128x64.Idx) (k : dot_S5000x128_S5000x64_S128x64_0_0_1_1_n_n.contr.Idx) :
    (dot_S5000x128_S5000x64_S128x64_0_0_1_1_n_n.rhsIdx i k 1).val = (i 1).val := by
  unfold DotDims.rhsIdx
  rw [dif_neg (show ¬(1 : Fin S5000x64.rank) ∈ dot_S5000x128_S5000x64_S128x64_0_0_1_1_n_n.rhsBatch by decide),
    dif_pos (show (1 : Fin S5000x64.rank) ∈ dot_S5000x128_S5000x64_S128x64_0_0_1_1_n_n.rhsNonContracting by decide)]
  rfl

/-- The table, transposed, times a block of 64 column(s) into the zero accumulator, at graph `g`, column `q`: the sum
    over the rows `p` of the table's `(p, g)` times the block's `(p, q)`. -/
theorem sums_matmul {φ₁ φ₂ : FTy} (T : FVec Ideal S5000x128 φ₁) (Y : FVec Ideal S5000x64 φ₂) (g : Fin 128) (q : Fin 64) :
    matmul dot_S5000x128_S5000x64_S128x64_0_0_1_1_n_n none T Y (constant S128x64 .f32 0x00000000#32) (ix2 g q)
      = ∑ p : Fin 5000, T (ix2 p g) * Y (ix2 p q) := by
  refine (Ideal.matmul_constant_zero_apply dot_S5000x128_S5000x64_S128x64_0_0_1_1_n_n none T Y (ix2 g q)).trans ?_
  rw [← Equiv.sum_comp (contrEquiv1 dot_S5000x128_S5000x64_S128x64_0_0_1_1_n_n 5000 rfl rfl).symm]
  refine Finset.sum_congr rfl fun p _ => ?_
  have hk := contrEquiv1_symm_val dot_S5000x128_S5000x64_S128x64_0_0_1_1_n_n 5000 rfl rfl p
  have el : dot_S5000x128_S5000x64_S128x64_0_0_1_1_n_n.lhsIdx (ix2 g q)
      ((contrEquiv1 dot_S5000x128_S5000x64_S128x64_0_0_1_1_n_n 5000 rfl rfl).symm p) = ix2 p g := funext fun a => Fin.ext (by
    match a with
    | ⟨0, _⟩ => exact (sums_lhs_0 _ _).trans hk
    | ⟨1, _⟩ => exact sums_lhs_1 _ _)
  have er : dot_S5000x128_S5000x64_S128x64_0_0_1_1_n_n.rhsIdx (ix2 g q)
      ((contrEquiv1 dot_S5000x128_S5000x64_S128x64_0_0_1_1_n_n 5000 rfl rfl).symm p) = ix2 p q := funext fun a => Fin.ext (by
    match a with
    | ⟨0, _⟩ => exact (sums_rhs_0 _ _).trans hk
    | ⟨1, _⟩ => exact sums_rhs_1 _ _)
  rw [el, er]

/-- The pooling product's left operand (the table) is read at the contracted row … -/
theorem counts_lhs_0 (i : S128x1.Idx) (k : dot_S5000x128_S5000x1_S128x1_0_0_1_1_n_n.contr.Idx) :
    (dot_S5000x128_S5000x1_S128x1_0_0_1_1_n_n.lhsIdx i k 0).val = (k ⟨0, by decide⟩).val :=
  dot_S5000x128_S5000x1_S128x1_0_0_1_1_n_n.lhsIdx_val_of_single rfl i k
/-- … and the output's graph; -/
theorem counts_lhs_1 (i : S128x1.Idx) (k : dot_S5000x128_S5000x1_S128x1_0_0_1_1_n_n.contr.Idx) :
    (dot_S5000x128_S5000x1_S128x1_0_0_1_1_n_n.lhsIdx i k 1).val = (i 0).val := by
  unfold DotDims.lhsIdx
  rw [dif_neg (show ¬(1 : Fin S5000x128.rank) ∈ dot_S5000x128_S5000x1_S128x1_0_0_1_1_n_n.lhsBatch by decide),
    dif_pos (show (1 : Fin S5000x128.rank) ∈ dot_S5000x128_S5000x1_S128x1_0_0_1_1_n_n.lhsNonContracting by decide)]
  rfl
/-- the right operand at the contracted row … -/
theorem counts_rhs_0 (i : S128x1.Idx) (k : dot_S5000x128_S5000x1_S128x1_0_0_1_1_n_n.contr.Idx) :
    (dot_S5000x128_S5000x1_S128x1_0_0_1_1_n_n.rhsIdx i k 0).val = (k ⟨0, by decide⟩).val :=
  dot_S5000x128_S5000x1_S128x1_0_0_1_1_n_n.rhsIdx_val_of_single rfl i k
/-- … and the output's column. -/
theorem counts_rhs_1 (i : S128x1.Idx) (k : dot_S5000x128_S5000x1_S128x1_0_0_1_1_n_n.contr.Idx) :
    (dot_S5000x128_S5000x1_S128x1_0_0_1_1_n_n.rhsIdx i k 1).val = (i 1).val := by
  unfold DotDims.rhsIdx
  rw [dif_neg (show ¬(1 : Fin S5000x1.rank) ∈ dot_S5000x128_S5000x1_S128x1_0_0_1_1_n_n.rhsBatch by decide),
    dif_pos (show (1 : Fin S5000x1.rank) ∈ dot_S5000x128_S5000x1_S128x1_0_0_1_1_n_n.rhsNonContracting by decide)]
  rfl

/-- The table, transposed, times a block of 1 column(s) into the zero accumulator, at graph `g`, column `q`: the sum
    over the rows `p` of the table's `(p, g)` times the block's `(p, q)`. -/
theorem counts_matmul {φ₁ φ₂ : FTy} (T : FVec Ideal S5000x128 φ₁) (Y : FVec Ideal S5000x1 φ₂) (g : Fin 128) (q : Fin 1) :
    matmul dot_S5000x128_S5000x1_S128x1_0_0_1_1_n_n none T Y (constant S128x1 .f32 0x00000000#32) (ix2 g q)
      = ∑ p : Fin 5000, T (ix2 p g) * Y (ix2 p q) := by
  refine (Ideal.matmul_constant_zero_apply dot_S5000x128_S5000x1_S128x1_0_0_1_1_n_n none T Y (ix2 g q)).trans ?_
  rw [← Equiv.sum_comp (contrEquiv1 dot_S5000x128_S5000x1_S128x1_0_0_1_1_n_n 5000 rfl rfl).symm]
  refine Finset.sum_congr rfl fun p _ => ?_
  have hk := contrEquiv1_symm_val dot_S5000x128_S5000x1_S128x1_0_0_1_1_n_n 5000 rfl rfl p
  have el : dot_S5000x128_S5000x1_S128x1_0_0_1_1_n_n.lhsIdx (ix2 g q)
      ((contrEquiv1 dot_S5000x128_S5000x1_S128x1_0_0_1_1_n_n 5000 rfl rfl).symm p) = ix2 p g := funext fun a => Fin.ext (by
    match a with
    | ⟨0, _⟩ => exact (counts_lhs_0 _ _).trans hk
    | ⟨1, _⟩ => exact counts_lhs_1 _ _)
  have er : dot_S5000x128_S5000x1_S128x1_0_0_1_1_n_n.rhsIdx (ix2 g q)
      ((contrEquiv1 dot_S5000x128_S5000x1_S128x1_0_0_1_1_n_n 5000 rfl rfl).symm p) = ix2 p q := funext fun a => Fin.ext (by
    match a with
    | ⟨0, _⟩ => exact (counts_rhs_0 _ _).trans hk
    | ⟨1, _⟩ => exact counts_rhs_1 _ _)
  rw [el, er]

/-! ## The table of ids: entry (p, g) is one when row p's id is g, zero otherwise -/

/-- A `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word "these two 32-bit words are equal", widened and read as a signed integer, is one or zero. -/
theorem eq_word (a b : BitVec 32) :
    ((((IntOp.cmpi .eq a b).setWidth 32).toInt : ℝ) : EReal) = if a = b then 1 else 0 := by
  unfold IntOp.cmpi
  by_cases h : a = b
  · subst h
    have e : ((BitVec.ofBool (a == a)).setWidth 32).toInt = 1 := by
      rw [beq_self_eq_true]; decide
    rw [if_pos rfl]
    show ((((BitVec.ofBool (a == a)).setWidth 32).toInt : ℝ) : EReal) = 1
    rw [e]; norm_num
  · have hb : (a == b) = false := by simpa using h
    have e : ((BitVec.ofBool (a == b)).setWidth 32).toInt = 0 := by
      rw [hb]; decide
    rw [if_neg h]
    show ((((BitVec.ofBool (a == b)).setWidth 32).toInt : ℝ) : EReal) = 0
    rw [e]; norm_num

/-- The table at row `p`, graph `g`: one when the row's id is `g`, zero otherwise. -/
theorem table_apply (x3 : Vec Ideal S5000x1 .i32) (p : Fin 5000) (g : Fin 128) :
    k5_pay3 x3 (ix2 p g) = if x3 (ix2 p (0 : Fin 1)) = BitVec.ofNat 32 g.val then (1 : EReal) else 0 := by
  unfold k5_pay3
  have hb : broadcastTo S5000x128 (shapeCast S5000x1 x3 shapeCasts_S5000x1_S5000x1) broadcasts_S5000x1_S5000x128 (ix2 p g)
      = x3 (ix2 p (0 : Fin 1)) := by
    rw [shapeCast_self]
    exact broadcastTo_a1_ab_apply x3 broadcasts_S5000x1_S5000x128 p g
  have hi : iota .tc S5000x128 32 [1] iota_S5000x128_d1_w32 (ix2 p g) = BitVec.ofNat 32 g.val :=
    iota_single_apply .tc S5000x128 32 1 iota_S5000x128_d1_w32 (ix2 p g)
  refine Eq.trans ?_ (eq_word (x3 (ix2 p (0 : Fin 1))) (BitVec.ofNat 32 g.val))
  show ((((IntOp.cmpi .eq _ _).setWidth 32).toInt : ℝ) : EReal) = _
  rw [hb, hi]

/-- The bf16 word `0x3F80` is one. -/
theorem ofBits_one_bf16 : Ideal.ofBits .bf16 0x3F80#16 = 1 := by
  simp [Ideal.ofBits, Ideal.ieee]
  rw [← EReal.coe_mul]
  norm_num

/-! ## The four stored values -/

/-- The value the first point stores first into the sums: zero everywhere. -/
theorem zero_sums (i : S128x64.Idx) : k5_pay1 (F := Ideal) i = 0 := by
  exact Ideal.ofBits_zero_f32

/-- The value the first point stores first into the counts: zero everywhere. -/
theorem zero_counts (i : S128x1.Idx) : k5_pay2 (F := Ideal) i = 0 := by
  exact Ideal.ofBits_zero_f32

/-- The sums a point stores, at graph `g`, feature `q`: what it found there plus the head's rows of the point's nodes
    whose id is `g`. -/
theorem sums_apply (x0 : Vec Ideal S5000x64 .f32) (x1 : Vec Ideal S64x64 .f32) (x2 : Vec Ideal S64 .f32)
    (x3 : Vec Ideal S5000x1 .i32) (acc : Vec Ideal S128x64 .f32) (g : Fin 128) (q : Fin 64) :
    k5_pay4 x0 x1 x2 x3 acc (ix2 g q)
      = acc (ix2 g q) + ∑ p : Fin 5000, if x3 (ix2 p (0 : Fin 1)) = BitVec.ofNat 32 g.val
          then Ideal.tanh (affine (fun l => x0 (ix2 p l)) x1 x2 q) else 0 := by
  unfold k5_pay4
  simp only [shapeCast_self]
  refine (addf_apply _ _ _).trans ?_
  refine congrArg (fun t => acc (ix2 g q) + t) ?_
  refine (sums_matmul _ _ g q).trans ?_
  refine Finset.sum_congr rfl fun p _ => ?_
  refine (congrArg₂ (· * ·) (table_apply x3 p g) (head_row x0 x1 x2 p q)).trans ?_
  by_cases h : x3 (ix2 p (0 : Fin 1)) = BitVec.ofNat 32 g.val
  · rw [if_pos h, if_pos h, one_mul]
  · rw [if_neg h, if_neg h, zero_mul]

/-- The counts a point stores, at graph `g`: what it found there plus the number of the point's nodes whose id is `g`. -/
theorem counts_apply (x3 : Vec Ideal S5000x1 .i32) (acc : Vec Ideal S128x1 .f32) (g : Fin 128) :
    k5_pay5 x3 acc (ix2 g (0 : Fin 1))
      = acc (ix2 g (0 : Fin 1)) + ∑ p : Fin 5000, if x3 (ix2 p (0 : Fin 1)) = BitVec.ofNat 32 g.val then (1 : EReal) else 0 := by
  unfold k5_pay5
  simp only [shapeCast_self]
  refine (addf_apply _ _ _).trans ?_
  refine congrArg (fun t => acc (ix2 g (0 : Fin 1)) + t) ?_
  refine (counts_matmul _ _ g 0).trans ?_
  refine Finset.sum_congr rfl fun p _ => ?_
  refine (congrArg₂ (· * ·) (table_apply x3 p g) ofBits_one_bf16).trans ?_
  exact mul_one _

end Cert.KernelIdeal.PoolPay

end
-- ==== Proof.Region5a.lean ====
/-
  The pooling region, first part: what one point does.

  A point reads a block of 5000 node rows and their graph ids, the whole weight and bias, and the whole sums and counts.
  Point 0 clears the sums and counts and then updates them; every later point updates what the point before left. Here:
  what each case leaves in the two outputs as a function of what it read; which rows of the arrays each block is; and
  the update read at one graph and feature, in terms of the arrays' rows.
-/
import proofs.«425461_j52037823758418_1_alg».proof.Proof.Gen.KernelIdeal.Frame
import proofs.«425461_j52037823758418_1_alg».proof.Proof.PoolPay

set_option maxRecDepth 16384

noncomputable section

namespace Cert.KernelIdeal.Region5

open Idealize.ShloMosaic Idealize.ShloMosaic.TcCoe Idealize.ShloMosaic.ValueIdx Idealize.SL.Sem Cert.KernelIdeal Cert.KernelIdeal.Gen Cert.GinSpec
open Idealize.ShloMosaic.Pipeline (Dat Cfg Window)

/-! ## What one point leaves in the two outputs, as a function of what it reads -/

section Pieces
open Idealize.ShloMosaic.Tactic
variable {F : FTy → Type} [FloatOps F]

/-- The offsets of a rectangle that starts at the origin, rank 2 … -/
theorem zero2 : (![0, 0] : Fin 2 → Nat) = fun _ => 0 := funext fun a => by fin_cases a <;> rfl
/-- … and rank 1. -/
theorem zero1 : (![0] : Fin 1 → Nat) = fun _ => 0 := funext fun a => by fin_cases a; rfl

variable (c : Dev nD) (i : grid5.Coords)
  (arg1 : Memref sig .tc .vmem S5000x64 .f32) (harg1 : arg1.IsWhole) (arg2 : Memref sig .tc .vmem S64x64 .f32) (harg2 : arg2.IsWhole)
  (arg3 : Memref sig .tc .vmem S64 .f32) (harg3 : arg3.IsWhole) (arg4 : Memref sig .tc .vmem S5000x1 .i32) (harg4 : arg4.IsWhole)
  (arg5 : Memref sig .tc .vmem S128x64 .f32) (harg5 : arg5.IsWhole) (arg6 : Memref sig .tc .vmem S128x1 .f32) (harg6 : arg6.IsWhole)

/-- The first point's sums: the update applied to the cleared array (the clear is read back by the update). -/
theorem pieceA4 (hc0 : cond5_0 i) (x0 : Vec F S5000x64 .f32) (x1 : Vec F S64x64 .f32) (x2 : Vec F S64 .f32) (x3 : Vec F S5000x1 .i32) :
    out5_A_4 c i arg1 harg1 arg2 harg2 arg3 harg3 arg4 harg4 arg5 harg5 arg6 harg6 hc0 x0 x1 x2 x3 = k5_pay4 x0 x1 x2 x3 k5_pay1 := by
  unfold out5_A_4
  rw [View.read_writes_eq_canon _ _ _ (cover5_A_4 c i arg1 harg1 arg2 harg2 arg3 harg3 arg4 harg4 arg5 harg5 arg6 harg6 hc0 x0 x1 x2 x3)]
  unfold kernelRun5_A
  dsimp only
  sl_unfold_words
  rw [View.canon_cons_unit_zero (S := S128x64) zero2, View.readCov_unit_zero (S := S128x64) _ zero2]
  simp only [View.readAt_eq_ld, harg1.read_unread, harg2.read_unread, harg3.read_unread, harg4.read_unread,
    View.ld_unit_zero (S := S5000x64) zero2, View.ld_unit_zero (S := S64x64) zero2, View.ld_unit_zero (S := S64) zero1,
    View.ld_unit_zero (S := S5000x1) zero2]

/-- The first point's counts: the update applied to the cleared column. -/
theorem pieceA5 (hc0 : cond5_0 i) (x0 : Vec F S5000x64 .f32) (x1 : Vec F S64x64 .f32) (x2 : Vec F S64 .f32) (x3 : Vec F S5000x1 .i32) :
    out5_A_5 c i arg1 harg1 arg2 harg2 arg3 harg3 arg4 harg4 arg5 harg5 arg6 harg6 hc0 x0 x1 x2 x3 = k5_pay5 x3 k5_pay2 := by
  unfold out5_A_5
  rw [View.read_writes_eq_canon _ _ _ (cover5_A_5 c i arg1 harg1 arg2 harg2 arg3 harg3 arg4 harg4 arg5 harg5 arg6 harg6 hc0 x0 x1 x2 x3)]
  unfold kernelRun5_A
  dsimp only
  sl_unfold_words
  rw [View.canon_cons_unit_zero (S := S128x1) zero2, View.readCov_unit_zero (S := S128x1) _ zero2]
  simp only [View.readAt_eq_ld, harg1.read_unread, harg2.read_unread, harg3.read_unread, harg4.read_unread,
    View.ld_unit_zero (S := S5000x64) zero2, View.ld_unit_zero (S := S64x64) zero2, View.ld_unit_zero (S := S64) zero1,
    View.ld_unit_zero (S := S5000x1) zero2]

/-- A later point's sums: the update applied to what the point before left. -/
theorem pieceB4 (hc0 : ¬cond5_0 i) (x0 : Vec F S5000x64 .f32) (x1 : Vec F S64x64 .f32) (x2 : Vec F S64 .f32) (x3 : Vec F S5000x1 .i32)
    (xo4 : Vec F S128x64 .f32) (xo5 : Vec F S128x1 .f32) :
    out5_B_4 c i arg1 harg1 arg2 harg2 arg3 harg3 arg4 harg4 arg5 harg5 arg6 harg6 hc0 x0 x1 x2 x3 xo4 xo5 = k5_pay4 x0 x1 x2 x3 xo4 := by
  unfold out5_B_4
  rw [View.read_writes_eq_canon _ _ _ (cover5_B_4 c i arg1 harg1 arg2 harg2 arg3 harg3 arg4 harg4 arg5 harg5 arg6 harg6 hc0 x0 x1 x2 x3 xo4 xo5)]
  unfold kernelRun5_B
  dsimp only
  sl_unfold_words
  rw [View.canon_unit_zero (S := S128x64) zero2]
  simp only [View.readAt_eq_ld, harg1.read_unread, harg2.read_unread, harg3.read_unread, harg4.read_unread,
    View.ld_unit_zero (S := S5000x64) zero2, View.ld_unit_zero (S := S64x64) zero2, View.ld_unit_zero (S := S64) zero1,
    View.ld_unit_zero (S := S5000x1) zero2, harg5.read_unread, harg6.read_unread,
    View.ld_unit_zero (S := S128x64) zero2, View.ld_unit_zero (S := S128x1) zero2]

/-- A later point's counts: the update applied to what the point before left. -/
theorem pieceB5 (hc0 : ¬cond5_0 i) (x0 : Vec F S5000x64 .f32) (x1 : Vec F S64x64 .f32) (x2 : Vec F S64 .f32) (x3 : Vec F S5000x1 .i32)
    (xo4 : Vec F S128x64 .f32) (xo5 : Vec F S128x1 .f32) :
    out5_B_5 c i arg1 harg1 arg2 harg2 arg3 harg3 arg4 harg4 arg5 harg5 arg6 harg6 hc0 x0 x1 x2 x3 xo4 xo5 = k5_pay5 x3 xo5 := by
  unfold out5_B_5
  rw [View.read_writes_eq_canon _ _ _ (cover5_B_5 c i arg1 harg1 arg2 harg2 arg3 harg3 arg4 harg4 arg5 harg5 arg6 harg6 hc0 x0 x1 x2 x3 xo4 xo5)]
  unfold kernelRun5_B
  dsimp only
  sl_unfold_words
  rw [View.canon_unit_zero (S := S128x1) zero2]
  simp only [View.readAt_eq_ld, harg1.read_unread, harg2.read_unread, harg3.read_unread, harg4.read_unread,
    View.ld_unit_zero (S := S5000x64) zero2, View.ld_unit_zero (S := S64x64) zero2, View.ld_unit_zero (S := S64) zero1,
    View.ld_unit_zero (S := S5000x1) zero2, harg5.read_unread, harg6.read_unread,
    View.ld_unit_zero (S := S128x64) zero2, View.ld_unit_zero (S := S128x1) zero2]

end Pieces

/-! ## What each point reads: blocks of the arrays the region finds -/

variable (V : (c : Dev nD) → (b : Ref sig .tc) → Buf (Elt Ideal) ((c : Thread nD τ).loc b))

/-- The index maps, decided once over the 20 points: the node rows and the ids are at block `(t, 0)`, the weight, the
    bias, the sums and the counts at block 0. -/
theorem index_maps : ∀ t : Fin cfg5.N,
    win5_0.index t (0 : Fin 2) = t.val ∧ win5_0.index t (1 : Fin 2) = 0
    ∧ win5_3.index t (0 : Fin 2) = t.val ∧ win5_3.index t (1 : Fin 2) = 0
    ∧ win5_1.index t (0 : Fin 2) = 0 ∧ win5_1.index t (1 : Fin 2) = 0
    ∧ win5_2.index t (0 : Fin 1) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- There are 20 points. -/
theorem point_lt (t : Fin cfg5.N) : t.val < 20 := Nat.lt_of_lt_of_eq t.isLt N_5

/-- The row of the node arrays that row `p` of point `t`'s block is: `5000 t + p`. -/
abbrev rowOf (t : Fin cfg5.N) (p : Fin 5000) : Fin 100000 :=
  ⟨5000 * t.val + p.val, by have := point_lt t; have := p.isLt; omega⟩

/-- The node-feature block at point `t`, row `p`: the array's row `5000 t + p`. -/
theorem feat_block (c : Dev nD) (t : Fin cfg5.N) (p : Fin 5000) (l : Fin 64) :
    (iblk5 V c 0 t : Vec Ideal S5000x64 .f32) (ix2 p l) = (V c main_v122 : S100000x64.Idx → EReal) (ix2 (rowOf t p) l) := by
  obtain ⟨e0, e1, -⟩ := index_maps t
  show V c main_v122 (((cfg5.win 0).blk t).view.emb (ix2 p l)) = V c main_v122 (ix2 (rowOf t p) l)
  congr 1
  funext a
  apply Fin.ext
  match a with
  | ⟨0, _⟩ => show win5_0.index t (0 : Fin 2) * 5000 + 1 * p.val = 5000 * t.val + p.val; rw [e0]; omega
  | ⟨1, _⟩ => show win5_0.index t (1 : Fin 2) * 64 + 1 * l.val = l.val; rw [e1]; omega

/-- The id block at point `t`, row `p`: the id of node `5000 t + p`. -/
theorem id_block (c : Dev nD) (t : Fin cfg5.N) (p : Fin 5000) :
    (iblk5 V c 3 t : Vec Ideal S5000x1 .i32) (ix2 p (0 : Fin 1))
      = (V c main_v123 : S100000x1.Idx → BitVec 32) (ix2 (rowOf t p) (0 : Fin 1)) := by
  obtain ⟨-, -, e0, e1, -⟩ := index_maps t
  show V c main_v123 (((cfg5.win 3).blk t).view.emb (ix2 p (0 : Fin 1))) = V c main_v123 (ix2 (rowOf t p) (0 : Fin 1))
  congr 1
  funext a
  apply Fin.ext
  match a with
  | ⟨0, _⟩ => show win5_3.index t (0 : Fin 2) * 5000 + 1 * p.val = 5000 * t.val + p.val; rw [e0]; omega
  | ⟨1, _⟩ => show win5_3.index t (1 : Fin 2) * 1 + 1 * 0 = 0; rw [e1]

/-- The weight's block at every point is the whole array. -/
theorem mat_block (c : Dev nD) (t : Fin cfg5.N) : (iblk5 V c 1 t : Vec Ideal S64x64 .f32) = V c main_arg19 := by
  obtain ⟨-, -, -, -, e0, e1, -⟩ := index_maps t
  funext y
  show V c main_arg19 (((cfg5.win 1).blk t).view.emb y) = V c main_arg19 y
  congr 1
  funext a
  apply Fin.ext
  match a with
  | ⟨0, _⟩ => show win5_1.index t (0 : Fin 2) * 64 + 1 * (y 0).val = (y 0).val; rw [e0]; omega
  | ⟨1, _⟩ => show win5_1.index t (1 : Fin 2) * 64 + 1 * (y 1).val = (y 1).val; rw [e1]; omega

/-- The bias's block at every point is the whole array. -/
theorem bias_block (c : Dev nD) (t : Fin cfg5.N) : (iblk5 V c 2 t : Vec Ideal S64 .f32) = V c main_arg20 := by
  obtain ⟨-, -, -, -, -, -, e0, -⟩ := index_maps t
  funext y
  show V c main_arg20 (((cfg5.win 2).blk t).view.emb y) = V c main_arg20 y
  congr 1
  funext a
  apply Fin.ext
  match a with
  | ⟨0, _⟩ => show win5_2.index t (0 : Fin 1) * 64 + 1 * (y 0).val = (y 0).val; rw [e0]; omega

/-- The sums' block at every point is the whole array: reading the block is reading the array. -/
theorem sums_block (t : Fin cfg5.N) (G : S128x64.Idx → EReal) (g : Fin 128) (q : Fin 64) :
    ((cfg5.win 4).blk t).view.read (Elt Ideal) G (ix2 g q) = G (ix2 g q) := by
  obtain ⟨-, -, -, -, -, -, -, e0, e1, -⟩ := index_maps t
  show G (((cfg5.win 4).blk t).view.emb (ix2 g q)) = G (ix2 g q)
  congr 1
  funext a
  apply Fin.ext
  match a with
  | ⟨0, _⟩ => show win5_4.index t (0 : Fin 2) * 128 + 1 * g.val = g.val; rw [e0]; omega
  | ⟨1, _⟩ => show win5_4.index t (1 : Fin 2) * 64 + 1 * q.val = q.val; rw [e1]; omega

/-- The counts' block at every point is the whole column. -/
theorem counts_block (t : Fin cfg5.N) (G : S128x1.Idx → EReal) (g : Fin 128) :
    ((cfg5.win 5).blk t).view.read (Elt Ideal) G (ix2 g (0 : Fin 1)) = G (ix2 g (0 : Fin 1)) := by
  obtain ⟨-, -, -, -, -, -, -, -, -, e0, e1⟩ := index_maps t
  show G (((cfg5.win 5).blk t).view.emb (ix2 g (0 : Fin 1))) = G (ix2 g (0 : Fin 1))
  congr 1
  funext a
  apply Fin.ext
  match a with
  | ⟨0, _⟩ => show win5_5.index t (0 : Fin 2) * 128 + 1 * g.val = g.val; rw [e0]; omega
  | ⟨1, _⟩ => show win5_5.index t (1 : Fin 2) * 1 + 1 * 0 = 0; rw [e1]

/-! ## One point's arithmetic, from the arrays' rows -/

/-- One point's sums at graph `g`, feature `q`, from the blocks: when row `p` of the node and id blocks is row `r p` of
    the arrays, the point adds the head's rows of its nodes whose id is `g`. -/
theorem point_sums (h : S100000x64.Idx → EReal) (W : S64x64.Idx → EReal) (b : S64.Idx → EReal)
    (bt : S100000x1.Idx → BitVec 32) (x0 : Vec Ideal S5000x64 .f32) (x1 : Vec Ideal S64x64 .f32) (x2 : Vec Ideal S64 .f32)
    (x3 : Vec Ideal S5000x1 .i32) (acc : Vec Ideal S128x64 .f32) (g : Fin 128) (q : Fin 64) (r : Fin 5000 → Fin 100000)
    (h0 : ∀ p l, x0 (ix2 p l) = h (ix2 (r p) l)) (h1 : x1 = W) (h2 : x2 = b)
    (h3 : ∀ p, x3 (ix2 p (0 : Fin 1)) = bt (ix2 (r p) (0 : Fin 1))) :
    k5_pay4 x0 x1 x2 x3 acc (ix2 g q)
      = acc (ix2 g q) + ∑ p : Fin 5000, if bt (ix2 (r p) (0 : Fin 1)) = BitVec.ofNat 32 g.val
          then head h W b (ix2 (r p) q) else 0 := by
  subst h1 h2
  refine (PoolPay.sums_apply x0 x1 x2 x3 acc g q).trans ?_
  congr 1
  refine Finset.sum_congr rfl fun p _ => ?_
  rw [h3 p, show (fun l => x0 (ix2 p l)) = fun l => h (ix2 (r p) l) from funext (h0 p)]
  rfl

/-- One point's counts at graph `g`: the point adds the number of its nodes whose id is `g`. -/
theorem point_counts (bt : S100000x1.Idx → BitVec 32) (x3 : Vec Ideal S5000x1 .i32) (acc : Vec Ideal S128x1 .f32)
    (g : Fin 128) (r : Fin 5000 → Fin 100000) (h3 : ∀ p, x3 (ix2 p (0 : Fin 1)) = bt (ix2 (r p) (0 : Fin 1))) :
    k5_pay5 x3 acc (ix2 g (0 : Fin 1))
      = acc (ix2 g (0 : Fin 1)) + ∑ p : Fin 5000, if bt (ix2 (r p) (0 : Fin 1)) = BitVec.ofNat 32 g.val
          then (1 : EReal) else 0 := by
  refine (PoolPay.counts_apply x3 acc g).trans ?_
  congr 1
  refine Finset.sum_congr rfl fun p _ => ?_
  rw [h3 p]

end Cert.KernelIdeal.Region5

end
-- ==== Proof.PoolMath.lean ====
/-
  Two facts about finite sums used for the pooled sums.

  The nodes are visited in 20 consecutive runs of 5000, so a sum over all 100000 nodes is the sum over the runs of the
  sums within a run; and an accumulator that starts from zero plus the first run's contribution and then adds one
  run's contribution at a time holds, after run n, the sum of the contributions of runs 0 … n.
-/
import Mathlib.Algebra.BigOperators.Fin
import Mathlib.Algebra.BigOperators.Intervals
import Mathlib.Data.EReal.Basic

namespace Cert.PoolMath

/-- A sum over `P * T` consecutive numbers, cut into `T` runs of `P`. -/
theorem sum_range_runs {M : Type*} [AddCommMonoid M] (f : ℕ → M) (P T : ℕ) :
    ∑ n ∈ Finset.range (P * T), f n = ∑ t ∈ Finset.range T, ∑ p ∈ Finset.range P, f (P * t + p) := by
  induction T with
  | zero => simp
  | succ T ih => rw [Nat.mul_succ, Finset.sum_range_add, ih, Finset.sum_range_succ]

/-- A sum over 100000 consecutive numbers, cut into 20 runs of 5000. -/
theorem sum_runs {M : Type*} [AddCommMonoid M] (f : ℕ → M) :
    ∑ n : Fin 100000, f n.val = ∑ t ∈ Finset.range 20, ∑ p : Fin 5000, f (5000 * t + p.val) := by
  rw [Fin.sum_univ_eq_sum_range (fun n => f n) 100000, show (100000 : ℕ) = 5000 * 20 from by norm_num,
    sum_range_runs f 5000 20]
  refine Finset.sum_congr rfl fun t _ => ?_
  exact (Fin.sum_univ_eq_sum_range (fun p => f (5000 * t + p)) 5000).symm

/-- An accumulator fed one contribution at a time holds the sum of the contributions so far. -/
theorem acc_eq_sum {M : Type*} [AddCommMonoid M] (b S : ℕ → M) (h0 : S 0 = 0 + b 0) (hs : ∀ n, S (n + 1) = S n + b (n + 1))
    (n : ℕ) : S n = ∑ t ∈ Finset.range (n + 1), b t := by
  induction n with
  | zero => rw [h0, zero_add, Finset.sum_range_one]
  | succ n ih => rw [hs, ih, Finset.sum_range_succ (fun t => b t) (n + 1)]

end Cert.PoolMath
-- ==== Proof.Region5.lean ====
/-
  The pooling region: its two output arrays after the run are the per-graph sums of the head's rows and the per-graph
  node counts.

  The grid has 20 points visited in order; point t sees rows 5000 t … 5000 t + 4999 of the node array and of the graph
  ids, and the whole 128 x 64 sums and 128 x 1 counts, which stay in place from one point to the next. Point 0 first
  clears both; every point then adds its rows' contribution. After the last point the arrays hold the contributions of
  all 100000 rows.
-/
import proofs.«425461_j52037823758418_1_alg».proof.Proof.Gen.KernelIdeal.Frame
import proofs.«425461_j52037823758418_1_alg».proof.Proof.PoolPay
import proofs.«425461_j52037823758418_1_alg».proof.Proof.Region5a
import proofs.«425461_j52037823758418_1_alg».proof.Proof.PoolMath

set_option maxRecDepth 16384

noncomputable section

namespace Cert.KernelIdeal.Region5

open Idealize.ShloMosaic Idealize.ShloMosaic.TcCoe Idealize.ShloMosaic.ValueIdx Idealize.SL.Sem Cert.KernelIdeal Cert.KernelIdeal.Gen Cert.GinSpec
open Idealize.ShloMosaic.Pipeline (Dat Cfg Window)

variable (V : (c : Dev nD) → (b : Ref sig .tc) → Buf (Elt Ideal) ((c : Thread nD τ).loc b))

/-- The graph ids as the region finds them (a column), read as a vector. -/
abbrev ids (c : Dev nD) : SB.Idx → BitVec 32 := fun i => (V c main_v123 : S100000x1.Idx → BitVec 32) (ix2 (i 0) (0 : Fin 1))

/-! ## The contributions of the nodes and of the points -/

/-- Node `n`'s term of graph `g`'s sum at feature `q`, as a function of the number `n` (zero past the last node). -/
def sumTerm (c : Dev nD) (g : Fin 128) (q : Fin 64) (n : ℕ) : EReal :=
  if hn : n < 100000 then
    (if (V c main_v123 : S100000x1.Idx → BitVec 32) (ix2 (⟨n, hn⟩ : Fin 100000) (0 : Fin 1)) = BitVec.ofNat 32 g.val
      then head (V c main_v122) (V c main_arg19) (V c main_arg20) (ix2 (⟨n, hn⟩ : Fin 100000) q) else 0)
  else 0

/-- Node `n`'s term of graph `g`'s count. -/
def countTerm (c : Dev nD) (g : Fin 128) (n : ℕ) : EReal :=
  if hn : n < 100000 then
    (if (V c main_v123 : S100000x1.Idx → BitVec 32) (ix2 (⟨n, hn⟩ : Fin 100000) (0 : Fin 1)) = BitVec.ofNat 32 g.val
      then (1 : EReal) else 0)
  else 0

/-- Point `t`'s contribution to graph `g`'s sum at feature `q`: its 5000 nodes' terms. -/
def sumRun (c : Dev nD) (g : Fin 128) (q : Fin 64) (t : ℕ) : EReal := ∑ p : Fin 5000, sumTerm V c g q (5000 * t + p.val)

/-- Point `t`'s contribution to graph `g`'s count. -/
def countRun (c : Dev nD) (g : Fin 128) (t : ℕ) : EReal := ∑ p : Fin 5000, countTerm V c g (5000 * t + p.val)

/-- What point `t` adds to the sums, from its blocks, is its contribution. -/
theorem point_sums_at (c : Dev nD) (t : Fin cfg5.N) (acc : Vec Ideal S128x64 .f32) (g : Fin 128) (q : Fin 64) :
    k5_pay4 (iblk5 V c 0 t) (iblk5 V c 1 t) (iblk5 V c 2 t) (iblk5 V c 3 t) acc (ix2 g q)
      = acc (ix2 g q) + sumRun V c g q t.val := by
  refine (point_sums (V c main_v122) (V c main_arg19) (V c main_arg20) (V c main_v123) (iblk5 V c 0 t) (iblk5 V c 1 t)
    (iblk5 V c 2 t) (iblk5 V c 3 t) acc g q (rowOf t) (feat_block V c t) (mat_block V c t) (bias_block V c t)
    (id_block V c t)).trans ?_
  congr 1
  refine Finset.sum_congr rfl fun p _ => ?_
  unfold sumTerm
  rw [dif_pos (rowOf t p).isLt]

/-- What point `t` adds to the counts, from its id block, is its contribution. -/
theorem point_counts_at (c : Dev nD) (t : Fin cfg5.N) (acc : Vec Ideal S128x1 .f32) (g : Fin 128) :
    k5_pay5 (iblk5 V c 3 t) acc (ix2 g (0 : Fin 1)) = acc (ix2 g (0 : Fin 1)) + countRun V c g t.val := by
  refine (point_counts (V c main_v123) (iblk5 V c 3 t) acc g (rowOf t) (id_block V c t)).trans ?_
  congr 1
  refine Finset.sum_congr rfl fun p _ => ?_
  unfold countTerm
  rw [dif_pos (rowOf t p).isLt]

/-! ## The outputs after each point -/

/-- After point `n` the sums hold the contributions of points `0 … n`. -/
theorem sums_after (c : Dev nD) (g : Fin 128) (q : Fin 64) : ∀ (n : ℕ) (hn : n < cfg5.N),
    ((outsAt5 V c n hn).1 : Vec Ideal S128x64 .f32) (ix2 g q) = ∑ t ∈ Finset.range (n + 1), sumRun V c g q t
  | 0, hn => by
    rw [outsAt5_A V c ⟨0, hn⟩ rfl]
    dsimp only
    refine (congrFun (pieceA4 (F := Ideal) c (grid5.coords ⟨0, hn⟩) (ms5_0 ⟨0, hn⟩) (hs5_0 ⟨0, hn⟩) (ms5_1 ⟨0, hn⟩)
      (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩)
      (ms5_5 ⟨0, hn⟩) (hs5_5 ⟨0, hn⟩) ((hcond5_0 ⟨0, hn⟩).mpr rfl) (iblk5 V c 0 ⟨0, hn⟩) (iblk5 V c 1 ⟨0, hn⟩)
      (iblk5 V c 2 ⟨0, hn⟩) (iblk5 V c 3 ⟨0, hn⟩)) (ix2 g q)).trans ?_
    refine (point_sums_at V c ⟨0, hn⟩ (k5_pay1 (F := Ideal)) g q).trans ?_
    rw [PoolPay.zero_sums, zero_add, Finset.sum_range_one]
  | n + 1, hn => by
    have hN : n + 1 < 20 := Nat.lt_of_lt_of_eq hn N_5
    have hB : ¬(⟨n + 1, hn⟩ : Fin cfg5.N).val % 20 = 0 := by dsimp only; omega
    rw [outsAt5_B V c ⟨n + 1, hn⟩ hB]
    dsimp only
    refine (congrFun (pieceB4 (F := Ideal) c (grid5.coords ⟨n + 1, hn⟩) (ms5_0 ⟨n + 1, hn⟩) (hs5_0 ⟨n + 1, hn⟩)
      (ms5_1 ⟨n + 1, hn⟩) (hs5_1 ⟨n + 1, hn⟩) (ms5_2 ⟨n + 1, hn⟩) (hs5_2 ⟨n + 1, hn⟩) (ms5_3 ⟨n + 1, hn⟩)
      (hs5_3 ⟨n + 1, hn⟩) (ms5_4 ⟨n + 1, hn⟩) (hs5_4 ⟨n + 1, hn⟩) (ms5_5 ⟨n + 1, hn⟩) (hs5_5 ⟨n + 1, hn⟩)
      (fun h => hB ((hcond5_0 ⟨n + 1, hn⟩).mp h)) (iblk5 V c 0 ⟨n + 1, hn⟩) (iblk5 V c 1 ⟨n + 1, hn⟩)
      (iblk5 V c 2 ⟨n + 1, hn⟩) (iblk5 V c 3 ⟨n + 1, hn⟩) (outsAt5 V c n (Nat.lt_of_succ_lt hn)).1
      (outsAt5 V c n (Nat.lt_of_succ_lt hn)).2) (ix2 g q)).trans ?_
    refine (point_sums_at V c ⟨n + 1, hn⟩ (outsAt5 V c n (Nat.lt_of_succ_lt hn)).1 g q).trans ?_
    rw [sums_after c g q n (Nat.lt_of_succ_lt hn), Finset.sum_range_succ (fun t => sumRun V c g q t) (n + 1)]

/-- After point `n` the counts hold the contributions of points `0 … n`. -/
theorem counts_after (c : Dev nD) (g : Fin 128) : ∀ (n : ℕ) (hn : n < cfg5.N),
    ((outsAt5 V c n hn).2 : Vec Ideal S128x1 .f32) (ix2 g (0 : Fin 1)) = ∑ t ∈ Finset.range (n + 1), countRun V c g t
  | 0, hn => by
    rw [outsAt5_A V c ⟨0, hn⟩ rfl]
    dsimp only
    refine (congrFun (pieceA5 (F := Ideal) c (grid5.coords ⟨0, hn⟩) (ms5_0 ⟨0, hn⟩) (hs5_0 ⟨0, hn⟩) (ms5_1 ⟨0, hn⟩)
      (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩)
      (ms5_5 ⟨0, hn⟩) (hs5_5 ⟨0, hn⟩) ((hcond5_0 ⟨0, hn⟩).mpr rfl) (iblk5 V c 0 ⟨0, hn⟩) (iblk5 V c 1 ⟨0, hn⟩)
      (iblk5 V c 2 ⟨0, hn⟩) (iblk5 V c 3 ⟨0, hn⟩)) (ix2 g (0 : Fin 1))).trans ?_
    refine (point_counts_at V c ⟨0, hn⟩ (k5_pay2 (F := Ideal)) g).trans ?_
    rw [PoolPay.zero_counts, zero_add, Finset.sum_range_one]
  | n + 1, hn => by
    have hN : n + 1 < 20 := Nat.lt_of_lt_of_eq hn N_5
    have hB : ¬(⟨n + 1, hn⟩ : Fin cfg5.N).val % 20 = 0 := by dsimp only; omega
    rw [outsAt5_B V c ⟨n + 1, hn⟩ hB]
    dsimp only
    refine (congrFun (pieceB5 (F := Ideal) c (grid5.coords ⟨n + 1, hn⟩) (ms5_0 ⟨n + 1, hn⟩) (hs5_0 ⟨n + 1, hn⟩)
      (ms5_1 ⟨n + 1, hn⟩) (hs5_1 ⟨n + 1, hn⟩) (ms5_2 ⟨n + 1, hn⟩) (hs5_2 ⟨n + 1, hn⟩) (ms5_3 ⟨n + 1, hn⟩)
      (hs5_3 ⟨n + 1, hn⟩) (ms5_4 ⟨n + 1, hn⟩) (hs5_4 ⟨n + 1, hn⟩) (ms5_5 ⟨n + 1, hn⟩) (hs5_5 ⟨n + 1, hn⟩)
      (fun h => hB ((hcond5_0 ⟨n + 1, hn⟩).mp h)) (iblk5 V c 0 ⟨n + 1, hn⟩) (iblk5 V c 1 ⟨n + 1, hn⟩)
      (iblk5 V c 2 ⟨n + 1, hn⟩) (iblk5 V c 3 ⟨n + 1, hn⟩) (outsAt5 V c n (Nat.lt_of_succ_lt hn)).1
      (outsAt5 V c n (Nat.lt_of_succ_lt hn)).2) (ix2 g (0 : Fin 1))).trans ?_
    refine (point_counts_at V c ⟨n + 1, hn⟩ (outsAt5 V c n (Nat.lt_of_succ_lt hn)).2 g).trans ?_
    rw [counts_after c g n (Nat.lt_of_succ_lt hn), Finset.sum_range_succ (fun t => countRun V c g t) (n + 1)]

/-! ## The arrays after the run -/

/-- Graph `g`'s sum at feature `q` over all 100000 nodes, regrouped by point. -/
theorem sum_all (c : Dev nD) (g : Fin 128) (q : Fin 64) :
    poolSum (head (V c main_v122) (V c main_arg19) (V c main_arg20)) (ids V c) (ix2 g q)
      = ∑ t ∈ Finset.range 20, sumRun V c g q t := by
  refine Eq.trans ?_ (Cert.PoolMath.sum_runs (sumTerm V c g q))
  unfold poolSum
  refine Finset.sum_congr rfl fun n _ => ?_
  unfold sumTerm
  rw [dif_pos n.isLt]

/-- Graph `g`'s count over all 100000 nodes, regrouped by point. -/
theorem count_all (c : Dev nD) (g : Fin 128) :
    poolCount (ids V c) (ix2 g (0 : Fin 1)) = ∑ t ∈ Finset.range 20, countRun V c g t := by
  refine Eq.trans ?_ (Cert.PoolMath.sum_runs (countTerm V c g))
  unfold poolCount
  refine Finset.sum_congr rfl fun n _ => ?_
  unfold countTerm
  rw [dif_pos n.isLt]

/-- The one write-back of the sums, at the last point, writes the per-graph sums. -/
theorem flushed_sums (c : Dev nD) (t : Fin cfg5.N) (hf : (cfg5.win 4).flush t = true) :
    (dat5 (F := Ideal) V c).flushed 4 t = ((cfg5.win 4).blk t).view.read (Elt Ideal)
      (poolSum (head (V c main_v122) (V c main_arg19) (V c main_arg20)) (ids V c)) := by
  have h19 : t.val = 19 := by have := (flush5_4 t).mp hf; have := point_lt t; omega
  show (cfg5.win 4).cut (grid5.coords t) ((dat5 V c).after 4 t) = _
  rw [after5_4]
  funext j
  obtain ⟨g, q, rfl⟩ : ∃ (g : Fin 128) (q : Fin 64), j = ix2 g q := ⟨j 0, j 1, eq_ix2 j⟩
  refine (sums_after V c g q t.val t.isLt).trans ?_
  rw [h19]
  refine (sum_all V c g q).symm.trans ?_
  exact (sums_block t _ g q).symm

/-- The one write-back of the counts, at the last point, writes the per-graph counts. -/
theorem flushed_counts (c : Dev nD) (t : Fin cfg5.N) (hf : (cfg5.win 5).flush t = true) :
    (dat5 (F := Ideal) V c).flushed 5 t = ((cfg5.win 5).blk t).view.read (Elt Ideal) (poolCount (ids V c)) := by
  have h19 : t.val = 19 := by have := (flush5_5 t).mp hf; have := point_lt t; omega
  show (cfg5.win 5).cut (grid5.coords t) ((dat5 V c).after 5 t) = _
  rw [after5_5]
  funext j
  obtain ⟨g, z, rfl⟩ : ∃ (g : Fin 128) (z : Fin 1), j = ix2 g z := ⟨j 0, j 1, eq_ix2 j⟩
  obtain rfl : z = 0 := Subsingleton.elim _ _
  refine (counts_after V c g t.val t.isLt).trans ?_
  rw [h19]
  refine (count_all V c g).symm.trans ?_
  exact (counts_block t _ g).symm

/-- The last point's block of the sums is the whole array. -/
theorem covered_sums (i : S128x64.Idx) :
    ∃ t : Fin cfg5.N, (cfg5.win 4).flush t = true ∧ i ∈ ((cfg5.win 4).blk t).view.set := by
  have hi0 : (i 0).val < 128 := (i 0).isLt
  have hi1 : (i 1).val < 64 := (i 1).isLt
  obtain ⟨t, ht⟩ : ∃ t : Fin cfg5.N, t.val = 19 := ⟨⟨19, Nat.lt_of_lt_of_eq (by omega : 19 < 20) N_5.symm⟩, rfl⟩
  obtain ⟨-, -, -, -, -, -, -, e0, e1, -⟩ := index_maps t
  refine ⟨t, (flush5_4 t).mpr (by rw [ht]), ?_⟩
  show i ∈ ((View.whole main_v124_0).slice (win5_4.rect t)).set
  rw [View.set_slice_whole, Rect.mem_set_unit]
  intro a
  match a with
  | ⟨0, _⟩ =>
    show win5_4.index t (0 : Fin 2) * 128 ≤ (i 0).val ∧ (i 0).val < win5_4.index t (0 : Fin 2) * 128 + 128
    rw [e0]; omega
  | ⟨1, _⟩ =>
    show win5_4.index t (1 : Fin 2) * 64 ≤ (i 1).val ∧ (i 1).val < win5_4.index t (1 : Fin 2) * 64 + 64
    rw [e1]; omega

/-- The last point's block of the counts is the whole column. -/
theorem covered_counts (i : S128x1.Idx) :
    ∃ t : Fin cfg5.N, (cfg5.win 5).flush t = true ∧ i ∈ ((cfg5.win 5).blk t).view.set := by
  have hi0 : (i 0).val < 128 := (i 0).isLt
  have hi1 : (i 1).val < 1 := (i 1).isLt
  obtain ⟨t, ht⟩ : ∃ t : Fin cfg5.N, t.val = 19 := ⟨⟨19, Nat.lt_of_lt_of_eq (by omega : 19 < 20) N_5.symm⟩, rfl⟩
  obtain ⟨-, -, -, -, -, -, -, -, -, e0, e1⟩ := index_maps t
  refine ⟨t, (flush5_5 t).mpr (by rw [ht]), ?_⟩
  show i ∈ ((View.whole main_v124_1).slice (win5_5.rect t)).set
  rw [View.set_slice_whole, Rect.mem_set_unit]
  intro a
  match a with
  | ⟨0, _⟩ =>
    show win5_5.index t (0 : Fin 2) * 128 ≤ (i 0).val ∧ (i 0).val < win5_5.index t (0 : Fin 2) * 128 + 128
    rw [e0]; omega
  | ⟨1, _⟩ =>
    show win5_5.index t (1 : Fin 2) * 1 ≤ (i 1).val ∧ (i 1).val < win5_5.index t (1 : Fin 2) * 1 + 1
    rw [e1]; omega

/-- The sums' array after the 20 points. -/
theorem sums (c : Dev nD) :
    ((dat5 (F := Ideal) V c).arrAt 4 cfg5.N : S128x64.Idx → EReal)
      = poolSum (head (V c main_v122) (V c main_arg19) (V c main_arg20)) (ids V c) :=
  (dat5 (F := Ideal) V c).arrAt_eq_of_cover 4 _ (flushed_sums V c) covered_sums

/-- The counts' array after the 20 points. -/
theorem counts (c : Dev nD) :
    ((dat5 (F := Ideal) V c).arrAt 5 cfg5.N : S128x1.Idx → EReal) = poolCount (ids V c) :=
  (dat5 (F := Ideal) V c).arrAt_eq_of_cover 5 _ (flushed_counts V c) covered_counts

end Cert.KernelIdeal.Region5

end
-- ==== Proof.KChainA.lean ====
/-
  The host stretches of @main, each read at the buffers it writes, over any contents `X` it may start from.

  Stretch 0 cuts the edge list into its source and destination rows and computes the first neighbour sums; stretches 1
  to 4 compute a layer's neighbour sums from the layer before and cut that layer's parameters out of their stacks;
  stretch 5 lays the graph ids out as a column; stretch 6 divides the pooled sums by the larger of the counts and one.
  A buffer a stretch does not write keeps its contents.
-/
import proofs.«425461_j52037823758418_1_alg».proof.Proof.Gen.KernelIdeal.Frame
import proofs.«425461_j52037823758418_1_alg».proof.Proof.KTerms
import Idealize.ShloMosaic.Lib.ValueIdx

set_option maxRecDepth 16384

noncomputable section

namespace Cert.KernelIdeal.KChainA

open Idealize.ShloMosaic Idealize.ShloMosaic.TcCoe Idealize.ShloMosaic.ValueIdx Idealize.SL.Sem
open Cert.KernelIdeal Cert.KernelIdeal.Gen Cert.KernelIdeal.Terms

variable (X : Valuation τ sig (Elt Ideal))

/-! ## What each stretch writes, and that it writes nothing else -/

/-- The buffers stretch 0 writes. -/
abbrev written0 : List (Ref sig .tc) :=
  [main_v0, main_v1, main_v2, main_v3, main_c, main_v4, main_v5, main_c_0, main_v6, main_v7, main_v8, main_v9, main_v10, main_cst, main_v11, main_v12, main_v13]
/-- Every operation of stretch 0 writes one of them. -/
theorem writes0 : (hostOps0 (F := Ideal)).Forall fun op =>
    op.writes ⊆ (written0.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- So any other buffer keeps its contents through stretch 0. -/
theorem keeps0 (b : Ref sig .tc) (hb : b ∉ written0) :
    StableHlo.after (hostOps0 (F := Ideal)) X (Proc.devRef .tc b) = X (Proc.devRef .tc b) :=
  StableHlo.after_of_writes_sub _ X writes0 hb

/-- The buffers stretch 1 writes. -/
abbrev written1 : List (Ref sig .tc) :=
  [main_c_1, main_v15, main_v16, main_c_2, main_v17, main_v18, main_v19, main_v20, main_v21, main_cst_3, main_v22, main_v23, main_v24, main_v25, main_v26, main_v27, main_v28, main_v29, main_v30, main_v31, main_v32, main_v33, main_v34, main_v35, main_v36, main_v37, main_v38, main_v39, main_v40]
/-- Every operation of stretch 1 writes one of them. -/
theorem writes1 : (hostOps1 (F := Ideal)).Forall fun op =>
    op.writes ⊆ (written1.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- So any other buffer keeps its contents through stretch 1. -/
theorem keeps1 (b : Ref sig .tc) (hb : b ∉ written1) :
    StableHlo.after (hostOps1 (F := Ideal)) X (Proc.devRef .tc b) = X (Proc.devRef .tc b) :=
  StableHlo.after_of_writes_sub _ X writes1 hb

/-- The buffers stretch 2 writes. -/
abbrev written2 : List (Ref sig .tc) :=
  [main_c_4, main_v42, main_v43, main_c_5, main_v44, main_v45, main_v46, main_v47, main_v48, main_cst_6, main_v49, main_v50, main_v51, main_v52, main_v53, main_v54, main_v55, main_v56, main_v57, main_v58, main_v59, main_v60, main_v61, main_v62, main_v63, main_v64, main_v65, main_v66, main_v67]
/-- Every operation of stretch 2 writes one of them. -/
theorem writes2 : (hostOps2 (F := Ideal)).Forall fun op =>
    op.writes ⊆ (written2.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- So any other buffer keeps its contents through stretch 2. -/
theorem keeps2 (b : Ref sig .tc) (hb : b ∉ written2) :
    StableHlo.after (hostOps2 (F := Ideal)) X (Proc.devRef .tc b) = X (Proc.devRef .tc b) :=
  StableHlo.after_of_writes_sub _ X writes2 hb

/-- The buffers stretch 3 writes. -/
abbrev written3 : List (Ref sig .tc) :=
  [main_c_7, main_v69, main_v70, main_c_8, main_v71, main_v72, main_v73, main_v74, main_v75, main_cst_9, main_v76, main_v77, main_v78, main_v79, main_v80, main_v81, main_v82, main_v83, main_v84, main_v85, main_v86, main_v87, main_v88, main_v89, main_v90, main_v91, main_v92, main_v93, main_v94]
/-- Every operation of stretch 3 writes one of them. -/
theorem writes3 : (hostOps3 (F := Ideal)).Forall fun op =>
    op.writes ⊆ (written3.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- So any other buffer keeps its contents through stretch 3. -/
theorem keeps3 (b : Ref sig .tc) (hb : b ∉ written3) :
    StableHlo.after (hostOps3 (F := Ideal)) X (Proc.devRef .tc b) = X (Proc.devRef .tc b) :=
  StableHlo.after_of_writes_sub _ X writes3 hb

/-- The buffers stretch 4 writes. -/
abbrev written4 : List (Ref sig .tc) :=
  [main_c_10, main_v96, main_v97, main_c_11, main_v98, main_v99, main_v100, main_v101, main_v102, main_cst_12, main_v103, main_v104, main_v105, main_v106, main_v107, main_v108, main_v109, main_v110, main_v111, main_v112, main_v113, main_v114, main_v115, main_v116, main_v117, main_v118, main_v119, main_v120, main_v121]
/-- Every operation of stretch 4 writes one of them. -/
theorem writes4 : (hostOps4 (F := Ideal)).Forall fun op =>
    op.writes ⊆ (written4.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- So any other buffer keeps its contents through stretch 4. -/
theorem keeps4 (b : Ref sig .tc) (hb : b ∉ written4) :
    StableHlo.after (hostOps4 (F := Ideal)) X (Proc.devRef .tc b) = X (Proc.devRef .tc b) :=
  StableHlo.after_of_writes_sub _ X writes4 hb

/-- The buffers stretch 5 writes. -/
abbrev written5 : List (Ref sig .tc) :=
  [main_v123]
/-- Every operation of stretch 5 writes one of them. -/
theorem writes5 : (hostOps5 (F := Ideal)).Forall fun op =>
    op.writes ⊆ (written5.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  exact List.mem_map_of_mem (by decide)
/-- So any other buffer keeps its contents through stretch 5. -/
theorem keeps5 (b : Ref sig .tc) (hb : b ∉ written5) :
    StableHlo.after (hostOps5 (F := Ideal)) X (Proc.devRef .tc b) = X (Proc.devRef .tc b) :=
  StableHlo.after_of_writes_sub _ X writes5 hb

/-- The buffers stretch 6 writes. -/
abbrev written6 : List (Ref sig .tc) :=
  [main_cst_13, main_v125, main_v126, main_v127, main_v128]
/-- Every operation of stretch 6 writes one of them. -/
theorem writes6 : (hostOps6 (F := Ideal)).Forall fun op =>
    op.writes ⊆ (written6.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- So any other buffer keeps its contents through stretch 6. -/
theorem keeps6 (b : Ref sig .tc) (hb : b ∉ written6) :
    StableHlo.after (hostOps6 (F := Ideal)) X (Proc.devRef .tc b) = X (Proc.devRef .tc b) :=
  StableHlo.after_of_writes_sub _ X writes6 hb

/-! ## Stretch 0: the edge rows and the first neighbour sums -/

/-- The source row of the edge list. -/
theorem src0 : (StableHlo.after (hostOps0 (F := Ideal)) X (Proc.devRef .tc main_v1) : IVec S1280000 32)
    = srcRow (X (Proc.devRef .tc main_arg1)) := by
  after_results_simp
  rfl
/-- The destination row of the edge list. -/
theorem dst0 : (StableHlo.after (hostOps0 (F := Ideal)) X (Proc.devRef .tc main_v3) : IVec S1280000 32)
    = dstRow (X (Proc.devRef .tc main_arg1)) := by
  after_results_simp
  rfl
/-- The neighbour sums of the input features. -/
theorem agg0 : (StableHlo.after (hostOps0 (F := Ideal)) X (Proc.devRef .tc main_v13) : FVec Ideal S100000x64 .f32)
    = aggT (F := Ideal) (X (Proc.devRef .tc main_arg0)) (X (Proc.devRef .tc main_arg1)) := by
  after_results_simp
  rfl

/-! ## Stretch 1: layer 2's neighbour sums and parameters -/

/-- The neighbour sums of the features layer 1 left, over the edge rows stretch 0 left. -/
theorem agg1 : (StableHlo.after (hostOps1 (F := Ideal)) X (Proc.devRef .tc main_v24) : FVec Ideal S100000x64 .f32)
    = aggOf (F := Ideal) (X (Proc.devRef .tc main_v14)) (X (Proc.devRef .tc main_v1)) (X (Proc.devRef .tc main_v3)) := by
  after_results_simp
  rfl
/-- Layer 2's first weight matrix: slice 0 of its stack. -/
theorem mat1_1 : (StableHlo.after (hostOps1 (F := Ideal)) X (Proc.devRef .tc main_v26) : FVec Ideal S64x64 .f32)
    = mat0 (F := Ideal) (X (Proc.devRef .tc main_arg11)) := by
  after_results_simp
  rfl
/-- Layer 2's first bias: slice 0 of its stack. -/
theorem bias1_1 : (StableHlo.after (hostOps1 (F := Ideal)) X (Proc.devRef .tc main_v28) : FVec Ideal S64 .f32)
    = vec0 (F := Ideal) (X (Proc.devRef .tc main_arg12)) := by
  after_results_simp
  rfl
/-- Layer 2's second weight matrix: slice 0 of its stack. -/
theorem mat2_1 : (StableHlo.after (hostOps1 (F := Ideal)) X (Proc.devRef .tc main_v30) : FVec Ideal S64x64 .f32)
    = mat0 (F := Ideal) (X (Proc.devRef .tc main_arg13)) := by
  after_results_simp
  rfl
/-- Layer 2's second bias: slice 0 of its stack. -/
theorem bias2_1 : (StableHlo.after (hostOps1 (F := Ideal)) X (Proc.devRef .tc main_v32) : FVec Ideal S64 .f32)
    = vec0 (F := Ideal) (X (Proc.devRef .tc main_arg14)) := by
  after_results_simp
  rfl
/-- Layer 2's scale: slice 0 of its stack. -/
theorem scale1 : (StableHlo.after (hostOps1 (F := Ideal)) X (Proc.devRef .tc main_v34) : FVec Ideal S64 .f32)
    = vec0 (F := Ideal) (X (Proc.devRef .tc main_arg15)) := by
  after_results_simp
  rfl
/-- Layer 2's shift: slice 0 of its stack. -/
theorem shift1 : (StableHlo.after (hostOps1 (F := Ideal)) X (Proc.devRef .tc main_v36) : FVec Ideal S64 .f32)
    = vec0 (F := Ideal) (X (Proc.devRef .tc main_arg16)) := by
  after_results_simp
  rfl
/-- Layer 2's running mean: slice 0 of its stack. -/
theorem mean1 : (StableHlo.after (hostOps1 (F := Ideal)) X (Proc.devRef .tc main_v38) : FVec Ideal S64 .f32)
    = vec0 (F := Ideal) (X (Proc.devRef .tc main_arg17)) := by
  after_results_simp
  rfl
/-- Layer 2's running variance: slice 0 of its stack. -/
theorem var1 : (StableHlo.after (hostOps1 (F := Ideal)) X (Proc.devRef .tc main_v40) : FVec Ideal S64 .f32)
    = vec0 (F := Ideal) (X (Proc.devRef .tc main_arg18)) := by
  after_results_simp
  rfl

/-! ## Stretch 2: layer 3's neighbour sums and parameters -/

/-- The neighbour sums of the features layer 2 left, over the edge rows stretch 0 left. -/
theorem agg2 : (StableHlo.after (hostOps2 (F := Ideal)) X (Proc.devRef .tc main_v51) : FVec Ideal S100000x64 .f32)
    = aggOf (F := Ideal) (X (Proc.devRef .tc main_v41)) (X (Proc.devRef .tc main_v1)) (X (Proc.devRef .tc main_v3)) := by
  after_results_simp
  rfl
/-- Layer 3's first weight matrix: slice 1 of its stack. -/
theorem mat1_2 : (StableHlo.after (hostOps2 (F := Ideal)) X (Proc.devRef .tc main_v53) : FVec Ideal S64x64 .f32)
    = mat1 (F := Ideal) (X (Proc.devRef .tc main_arg11)) := by
  after_results_simp
  rfl
/-- Layer 3's first bias: slice 1 of its stack. -/
theorem bias1_2 : (StableHlo.after (hostOps2 (F := Ideal)) X (Proc.devRef .tc main_v55) : FVec Ideal S64 .f32)
    = vec1 (F := Ideal) (X (Proc.devRef .tc main_arg12)) := by
  after_results_simp
  rfl
/-- Layer 3's second weight matrix: slice 1 of its stack. -/
theorem mat2_2 : (StableHlo.after (hostOps2 (F := Ideal)) X (Proc.devRef .tc main_v57) : FVec Ideal S64x64 .f32)
    = mat1 (F := Ideal) (X (Proc.devRef .tc main_arg13)) := by
  after_results_simp
  rfl
/-- Layer 3's second bias: slice 1 of its stack. -/
theorem bias2_2 : (StableHlo.after (hostOps2 (F := Ideal)) X (Proc.devRef .tc main_v59) : FVec Ideal S64 .f32)
    = vec1 (F := Ideal) (X (Proc.devRef .tc main_arg14)) := by
  after_results_simp
  rfl
/-- Layer 3's scale: slice 1 of its stack. -/
theorem scale2 : (StableHlo.after (hostOps2 (F := Ideal)) X (Proc.devRef .tc main_v61) : FVec Ideal S64 .f32)
    = vec1 (F := Ideal) (X (Proc.devRef .tc main_arg15)) := by
  after_results_simp
  rfl
/-- Layer 3's shift: slice 1 of its stack. -/
theorem shift2 : (StableHlo.after (hostOps2 (F := Ideal)) X (Proc.devRef .tc main_v63) : FVec Ideal S64 .f32)
    = vec1 (F := Ideal) (X (Proc.devRef .tc main_arg16)) := by
  after_results_simp
  rfl
/-- Layer 3's running mean: slice 1 of its stack. -/
theorem mean2 : (StableHlo.after (hostOps2 (F := Ideal)) X (Proc.devRef .tc main_v65) : FVec Ideal S64 .f32)
    = vec1 (F := Ideal) (X (Proc.devRef .tc main_arg17)) := by
  after_results_simp
  rfl
/-- Layer 3's running variance: slice 1 of its stack. -/
theorem var2 : (StableHlo.after (hostOps2 (F := Ideal)) X (Proc.devRef .tc main_v67) : FVec Ideal S64 .f32)
    = vec1 (F := Ideal) (X (Proc.devRef .tc main_arg18)) := by
  after_results_simp
  rfl

/-! ## Stretch 3: layer 4's neighbour sums and parameters -/

/-- The neighbour sums of the features layer 3 left, over the edge rows stretch 0 left. -/
theorem agg3 : (StableHlo.after (hostOps3 (F := Ideal)) X (Proc.devRef .tc main_v78) : FVec Ideal S100000x64 .f32)
    = aggOf (F := Ideal) (X (Proc.devRef .tc main_v68)) (X (Proc.devRef .tc main_v1)) (X (Proc.devRef .tc main_v3)) := by
  after_results_simp
  rfl
/-- Layer 4's first weight matrix: slice 2 of its stack. -/
theorem mat1_3 : (StableHlo.after (hostOps3 (F := Ideal)) X (Proc.devRef .tc main_v80) : FVec Ideal S64x64 .f32)
    = mat2 (F := Ideal) (X (Proc.devRef .tc main_arg11)) := by
  after_results_simp
  rfl
/-- Layer 4's first bias: slice 2 of its stack. -/
theorem bias1_3 : (StableHlo.after (hostOps3 (F := Ideal)) X (Proc.devRef .tc main_v82) : FVec Ideal S64 .f32)
    = vec2 (F := Ideal) (X (Proc.devRef .tc main_arg12)) := by
  after_results_simp
  rfl
/-- Layer 4's second weight matrix: slice 2 of its stack. -/
theorem mat2_3 : (StableHlo.after (hostOps3 (F := Ideal)) X (Proc.devRef .tc main_v84) : FVec Ideal S64x64 .f32)
    = mat2 (F := Ideal) (X (Proc.devRef .tc main_arg13)) := by
  after_results_simp
  rfl
/-- Layer 4's second bias: slice 2 of its stack. -/
theorem bias2_3 : (StableHlo.after (hostOps3 (F := Ideal)) X (Proc.devRef .tc main_v86) : FVec Ideal S64 .f32)
    = vec2 (F := Ideal) (X (Proc.devRef .tc main_arg14)) := by
  after_results_simp
  rfl
/-- Layer 4's scale: slice 2 of its stack. -/
theorem scale3 : (StableHlo.after (hostOps3 (F := Ideal)) X (Proc.devRef .tc main_v88) : FVec Ideal S64 .f32)
    = vec2 (F := Ideal) (X (Proc.devRef .tc main_arg15)) := by
  after_results_simp
  rfl
/-- Layer 4's shift: slice 2 of its stack. -/
theorem shift3 : (StableHlo.after (hostOps3 (F := Ideal)) X (Proc.devRef .tc main_v90) : FVec Ideal S64 .f32)
    = vec2 (F := Ideal) (X (Proc.devRef .tc main_arg16)) := by
  after_results_simp
  rfl
/-- Layer 4's running mean: slice 2 of its stack. -/
theorem mean3 : (StableHlo.after (hostOps3 (F := Ideal)) X (Proc.devRef .tc main_v92) : FVec Ideal S64 .f32)
    = vec2 (F := Ideal) (X (Proc.devRef .tc main_arg17)) := by
  after_results_simp
  rfl
/-- Layer 4's running variance: slice 2 of its stack. -/
theorem var3 : (StableHlo.after (hostOps3 (F := Ideal)) X (Proc.devRef .tc main_v94) : FVec Ideal S64 .f32)
    = vec2 (F := Ideal) (X (Proc.devRef .tc main_arg18)) := by
  after_results_simp
  rfl

/-! ## Stretch 4: layer 5's neighbour sums and parameters -/

/-- The neighbour sums of the features layer 4 left, over the edge rows stretch 0 left. -/
theorem agg4 : (StableHlo.after (hostOps4 (F := Ideal)) X (Proc.devRef .tc main_v105) : FVec Ideal S100000x64 .f32)
    = aggOf (F := Ideal) (X (Proc.devRef .tc main_v95)) (X (Proc.devRef .tc main_v1)) (X (Proc.devRef .tc main_v3)) := by
  after_results_simp
  rfl
/-- Layer 5's first weight matrix: slice 3 of its stack. -/
theorem mat1_4 : (StableHlo.after (hostOps4 (F := Ideal)) X (Proc.devRef .tc main_v107) : FVec Ideal S64x64 .f32)
    = mat3 (F := Ideal) (X (Proc.devRef .tc main_arg11)) := by
  after_results_simp
  rfl
/-- Layer 5's first bias: slice 3 of its stack. -/
theorem bias1_4 : (StableHlo.after (hostOps4 (F := Ideal)) X (Proc.devRef .tc main_v109) : FVec Ideal S64 .f32)
    = vec3 (F := Ideal) (X (Proc.devRef .tc main_arg12)) := by
  after_results_simp
  rfl
/-- Layer 5's second weight matrix: slice 3 of its stack. -/
theorem mat2_4 : (StableHlo.after (hostOps4 (F := Ideal)) X (Proc.devRef .tc main_v111) : FVec Ideal S64x64 .f32)
    = mat3 (F := Ideal) (X (Proc.devRef .tc main_arg13)) := by
  after_results_simp
  rfl
/-- Layer 5's second bias: slice 3 of its stack. -/
theorem bias2_4 : (StableHlo.after (hostOps4 (F := Ideal)) X (Proc.devRef .tc main_v113) : FVec Ideal S64 .f32)
    = vec3 (F := Ideal) (X (Proc.devRef .tc main_arg14)) := by
  after_results_simp
  rfl
/-- Layer 5's scale: slice 3 of its stack. -/
theorem scale4 : (StableHlo.after (hostOps4 (F := Ideal)) X (Proc.devRef .tc main_v115) : FVec Ideal S64 .f32)
    = vec3 (F := Ideal) (X (Proc.devRef .tc main_arg15)) := by
  after_results_simp
  rfl
/-- Layer 5's shift: slice 3 of its stack. -/
theorem shift4 : (StableHlo.after (hostOps4 (F := Ideal)) X (Proc.devRef .tc main_v117) : FVec Ideal S64 .f32)
    = vec3 (F := Ideal) (X (Proc.devRef .tc main_arg16)) := by
  after_results_simp
  rfl
/-- Layer 5's running mean: slice 3 of its stack. -/
theorem mean4 : (StableHlo.after (hostOps4 (F := Ideal)) X (Proc.devRef .tc main_v119) : FVec Ideal S64 .f32)
    = vec3 (F := Ideal) (X (Proc.devRef .tc main_arg17)) := by
  after_results_simp
  rfl
/-- Layer 5's running variance: slice 3 of its stack. -/
theorem var4 : (StableHlo.after (hostOps4 (F := Ideal)) X (Proc.devRef .tc main_v121) : FVec Ideal S64 .f32)
    = vec3 (F := Ideal) (X (Proc.devRef .tc main_arg18)) := by
  after_results_simp
  rfl

/-! ## Stretches 5 and 6: the graph ids as a column, and the mean -/

/-- The graph ids as a column. -/
theorem ids5 : (StableHlo.after (hostOps5 (F := Ideal)) X (Proc.devRef .tc main_v123) : IVec S100000x1 32)
    = idCol (X (Proc.devRef .tc main_arg2)) := by
  after_results_simp
  rfl
/-- The mean of the pooled sums and counts. -/
theorem mean6 : (StableHlo.after (hostOps6 (F := Ideal)) X (Proc.devRef .tc main_v128) : FVec Ideal S128x64 .f32)
    = meanT (F := Ideal) (X (Proc.devRef .tc main_v124_0)) (X (Proc.devRef .tc main_v124_1)) := by
  after_results_simp
  rfl

end Cert.KernelIdeal.KChainA

end
-- ==== Proof.KChain.lean ====
/-
  The idealized kernel's result buffer at the end of @main, as one function of the arguments.

  @main alternates host stretches and regions. Each layer's region finds the node features the region before left and
  the neighbour sums the host stretch before it computed from them and from the edge list, and leaves the layer of them;
  the pooling region finds the last layer's output and the graph ids and leaves the per-graph sums and counts; the last
  host stretch divides. No stretch or region writes an argument, the edge rows, or a layer's parameters.
-/
import proofs.«425461_j52037823758418_1_alg».proof.Proof.Gen.KernelIdeal.Frame
import proofs.«425461_j52037823758418_1_alg».proof.Proof.KTerms
import proofs.«425461_j52037823758418_1_alg».proof.Proof.Net
import proofs.«425461_j52037823758418_1_alg».proof.Proof.Region0
import proofs.«425461_j52037823758418_1_alg».proof.Proof.Region1
import proofs.«425461_j52037823758418_1_alg».proof.Proof.Region2
import proofs.«425461_j52037823758418_1_alg».proof.Proof.Region3
import proofs.«425461_j52037823758418_1_alg».proof.Proof.Region4
import proofs.«425461_j52037823758418_1_alg».proof.Proof.Region5
import proofs.«425461_j52037823758418_1_alg».proof.Proof.KChainA
import Idealize.ShloMosaic.Lib.Pipeline.Value

set_option maxRecDepth 16384

noncomputable section

namespace Cert.KernelIdeal.KChain

open Idealize.ShloMosaic Idealize.ShloMosaic.TcCoe Idealize.ShloMosaic.ValueIdx Idealize.SL.Sem
open Cert.KernelIdeal Cert.KernelIdeal.Gen Cert.KernelIdeal.Terms Cert.GinSpec Cert.KernelIdeal.KChainA

variable (m : (ℓ : Loc nD τ sig) → Buf (Elt Ideal) ℓ) (ρ : Dev nD → PrngReg)

/-! ## The values the chain passes along, by name -/

/-- The neighbour sums of a feature array over the edge list the program is given. -/
def nbrs (c : Dev nD) (h : SN.Idx → EReal) : SN.Idx → EReal := aggT (F := Ideal) h (m ((c.tc : Thread nD τ).loc main_arg1))

/-- The first layer's parameters: eight arguments. -/
def par1 (c : Dev nD) : Params :=
  ⟨(m ((c.tc : Thread nD τ).loc main_arg3)), (m ((c.tc : Thread nD τ).loc main_arg4)), (m ((c.tc : Thread nD τ).loc main_arg5)), (m ((c.tc : Thread nD τ).loc main_arg6)),
    (m ((c.tc : Thread nD τ).loc main_arg7)), (m ((c.tc : Thread nD τ).loc main_arg8)), (m ((c.tc : Thread nD τ).loc main_arg9)), (m ((c.tc : Thread nD τ).loc main_arg10))⟩
/-- Layer 2's parameters: slice 0 of each of the eight stacks. -/
def par2 (c : Dev nD) : Params :=
  ⟨mat0 (F := Ideal) (m ((c.tc : Thread nD τ).loc main_arg11)),
    vec0 (F := Ideal) (m ((c.tc : Thread nD τ).loc main_arg12)),
    mat0 (F := Ideal) (m ((c.tc : Thread nD τ).loc main_arg13)),
    vec0 (F := Ideal) (m ((c.tc : Thread nD τ).loc main_arg14)),
    vec0 (F := Ideal) (m ((c.tc : Thread nD τ).loc main_arg15)),
    vec0 (F := Ideal) (m ((c.tc : Thread nD τ).loc main_arg16)),
    vec0 (F := Ideal) (m ((c.tc : Thread nD τ).loc main_arg17)),
    vec0 (F := Ideal) (m ((c.tc : Thread nD τ).loc main_arg18))⟩
/-- Layer 3's parameters: slice 1 of each of the eight stacks. -/
def par3 (c : Dev nD) : Params :=
  ⟨mat1 (F := Ideal) (m ((c.tc : Thread nD τ).loc main_arg11)),
    vec1 (F := Ideal) (m ((c.tc : Thread nD τ).loc main_arg12)),
    mat1 (F := Ideal) (m ((c.tc : Thread nD τ).loc main_arg13)),
    vec1 (F := Ideal) (m ((c.tc : Thread nD τ).loc main_arg14)),
    vec1 (F := Ideal) (m ((c.tc : Thread nD τ).loc main_arg15)),
    vec1 (F := Ideal) (m ((c.tc : Thread nD τ).loc main_arg16)),
    vec1 (F := Ideal) (m ((c.tc : Thread nD τ).loc main_arg17)),
    vec1 (F := Ideal) (m ((c.tc : Thread nD τ).loc main_arg18))⟩
/-- Layer 4's parameters: slice 2 of each of the eight stacks. -/
def par4 (c : Dev nD) : Params :=
  ⟨mat2 (F := Ideal) (m ((c.tc : Thread nD τ).loc main_arg11)),
    vec2 (F := Ideal) (m ((c.tc : Thread nD τ).loc main_arg12)),
    mat2 (F := Ideal) (m ((c.tc : Thread nD τ).loc main_arg13)),
    vec2 (F := Ideal) (m ((c.tc : Thread nD τ).loc main_arg14)),
    vec2 (F := Ideal) (m ((c.tc : Thread nD τ).loc main_arg15)),
    vec2 (F := Ideal) (m ((c.tc : Thread nD τ).loc main_arg16)),
    vec2 (F := Ideal) (m ((c.tc : Thread nD τ).loc main_arg17)),
    vec2 (F := Ideal) (m ((c.tc : Thread nD τ).loc main_arg18))⟩
/-- Layer 5's parameters: slice 3 of each of the eight stacks. -/
def par5 (c : Dev nD) : Params :=
  ⟨mat3 (F := Ideal) (m ((c.tc : Thread nD τ).loc main_arg11)),
    vec3 (F := Ideal) (m ((c.tc : Thread nD τ).loc main_arg12)),
    mat3 (F := Ideal) (m ((c.tc : Thread nD τ).loc main_arg13)),
    vec3 (F := Ideal) (m ((c.tc : Thread nD τ).loc main_arg14)),
    vec3 (F := Ideal) (m ((c.tc : Thread nD τ).loc main_arg15)),
    vec3 (F := Ideal) (m ((c.tc : Thread nD τ).loc main_arg16)),
    vec3 (F := Ideal) (m ((c.tc : Thread nD τ).loc main_arg17)),
    vec3 (F := Ideal) (m ((c.tc : Thread nD τ).loc main_arg18))⟩

/-- The features after layer 1 … -/
def out1 (c : Dev nD) : SN.Idx → EReal := plainOf (nbrs m c) (par1 m c) (m ((c.tc : Thread nD τ).loc main_arg0))
/-- … after layer 2 … -/
def out2 (c : Dev nD) : SN.Idx → EReal := resOf (nbrs m c) (par2 m c) (out1 m c)
/-- … after layer 3 … -/
def out3 (c : Dev nD) : SN.Idx → EReal := resOf (nbrs m c) (par3 m c) (out2 m c)
/-- … after layer 4 … -/
def out4 (c : Dev nD) : SN.Idx → EReal := resOf (nbrs m c) (par4 m c) (out3 m c)
/-- … after layer 5. -/
def out5 (c : Dev nD) : SN.Idx → EReal := resOf (nbrs m c) (par5 m c) (out4 m c)

/-! ## The buffers no stretch after the first and no layer region touches -/

/-- A buffer that is no array of the five layer regions and that stretches 1 to 5 do not write. -/
abbrev Idle (b : Ref sig .tc) : Prop :=
  (∀ w, Pipeline.arrRef spec0 w ≠ b) ∧ b ∉ written1 ∧ (∀ w, Pipeline.arrRef spec1 w ≠ b) ∧ b ∉ written2
  ∧ (∀ w, Pipeline.arrRef spec2 w ≠ b) ∧ b ∉ written3 ∧ (∀ w, Pipeline.arrRef spec3 w ≠ b) ∧ b ∉ written4
  ∧ (∀ w, Pipeline.arrRef spec4 w ≠ b) ∧ b ∉ written5

/-- At the first boundary a buffer stretch 0 does not write holds what the program was launched with. -/
theorem W1_arg (c : Dev nD) (b : Ref sig .tc) (hb : b ∉ written0) :
    W1 m ρ c (Proc.devRef .tc b) = m ((c.tc : Thread nD τ).loc b) :=
  keeps0 (W0 m ρ c) b hb

/-- Such a buffer holds at every later boundary up to the pooling region's entry what it held at the first. -/
theorem idle2 (c : Dev nD) (b : Ref sig .tc) (h : Idle b) : W2 m ρ c (Proc.devRef .tc b) = W1 m ρ c (Proc.devRef .tc b) :=
  W2_of_ne m ρ c b h.1
theorem idle3 (c : Dev nD) (b : Ref sig .tc) (h : Idle b) : W3 m ρ c (Proc.devRef .tc b) = W1 m ρ c (Proc.devRef .tc b) :=
  (keeps1 (W2 m ρ c) b h.2.1).trans (idle2 m ρ c b h)
theorem idle4 (c : Dev nD) (b : Ref sig .tc) (h : Idle b) : W4 m ρ c (Proc.devRef .tc b) = W1 m ρ c (Proc.devRef .tc b) :=
  (W4_of_ne m ρ c b h.2.2.1).trans (idle3 m ρ c b h)
theorem idle5 (c : Dev nD) (b : Ref sig .tc) (h : Idle b) : W5 m ρ c (Proc.devRef .tc b) = W1 m ρ c (Proc.devRef .tc b) :=
  (keeps2 (W4 m ρ c) b h.2.2.2.1).trans (idle4 m ρ c b h)
theorem idle6 (c : Dev nD) (b : Ref sig .tc) (h : Idle b) : W6 m ρ c (Proc.devRef .tc b) = W1 m ρ c (Proc.devRef .tc b) :=
  (W6_of_ne m ρ c b h.2.2.2.2.1).trans (idle5 m ρ c b h)
theorem idle7 (c : Dev nD) (b : Ref sig .tc) (h : Idle b) : W7 m ρ c (Proc.devRef .tc b) = W1 m ρ c (Proc.devRef .tc b) :=
  (keeps3 (W6 m ρ c) b h.2.2.2.2.2.1).trans (idle6 m ρ c b h)
theorem idle8 (c : Dev nD) (b : Ref sig .tc) (h : Idle b) : W8 m ρ c (Proc.devRef .tc b) = W1 m ρ c (Proc.devRef .tc b) :=
  (W8_of_ne m ρ c b h.2.2.2.2.2.2.1).trans (idle7 m ρ c b h)
theorem idle9 (c : Dev nD) (b : Ref sig .tc) (h : Idle b) : W9 m ρ c (Proc.devRef .tc b) = W1 m ρ c (Proc.devRef .tc b) :=
  (keeps4 (W8 m ρ c) b h.2.2.2.2.2.2.2.1).trans (idle8 m ρ c b h)
theorem idle10 (c : Dev nD) (b : Ref sig .tc) (h : Idle b) : W10 m ρ c (Proc.devRef .tc b) = W1 m ρ c (Proc.devRef .tc b) :=
  (W10_of_ne m ρ c b h.2.2.2.2.2.2.2.2.1).trans (idle9 m ρ c b h)
theorem idle11 (c : Dev nD) (b : Ref sig .tc) (h : Idle b) : W11 m ρ c (Proc.devRef .tc b) = W1 m ρ c (Proc.devRef .tc b) :=
  (keeps5 (W10 m ρ c) b h.2.2.2.2.2.2.2.2.2).trans (idle10 m ρ c b h)

/-! ## Boundary 1: the edge rows and the first neighbour sums -/

theorem W1_src (c : Dev nD) : (W1 m ρ c (Proc.devRef .tc main_v1) : IVec S1280000 32) = srcRow (m ((c.tc : Thread nD τ).loc main_arg1)) :=
  src0 (W0 m ρ c)
theorem W1_dst (c : Dev nD) : (W1 m ρ c (Proc.devRef .tc main_v3) : IVec S1280000 32) = dstRow (m ((c.tc : Thread nD τ).loc main_arg1)) :=
  dst0 (W0 m ρ c)
theorem W1_nbrs (c : Dev nD) : (W1 m ρ c (Proc.devRef .tc main_v13) : SN.Idx → EReal) = nbrs m c (m ((c.tc : Thread nD τ).loc main_arg0)) :=
  agg0 (W0 m ρ c)

/-! ## Boundary 2: layer 1 -/

theorem W2_out (c : Dev nD) : (W2 m ρ c (Proc.devRef .tc main_v14) : SN.Idx → EReal) = out1 m c :=
  (W2_arr m ρ c 10).trans ((Region0.array (V1 m ρ) c).trans (by
    show layerPlain (W1 m ρ c (Proc.devRef .tc main_arg0)) (W1 m ρ c (Proc.devRef .tc main_v13)) (W1 m ρ c (Proc.devRef .tc main_arg3))
      (W1 m ρ c (Proc.devRef .tc main_arg4)) (W1 m ρ c (Proc.devRef .tc main_arg5)) (W1 m ρ c (Proc.devRef .tc main_arg6)) (W1 m ρ c (Proc.devRef .tc main_arg7))
      (W1 m ρ c (Proc.devRef .tc main_arg8)) (W1 m ρ c (Proc.devRef .tc main_arg9)) (W1 m ρ c (Proc.devRef .tc main_arg10)) = out1 m c
    rw [W1_nbrs m ρ c, W1_arg m ρ c main_arg0 (by decide), W1_arg m ρ c main_arg3 (by decide), W1_arg m ρ c main_arg4 (by decide),
      W1_arg m ρ c main_arg5 (by decide), W1_arg m ρ c main_arg6 (by decide), W1_arg m ρ c main_arg7 (by decide),
      W1_arg m ρ c main_arg8 (by decide), W1_arg m ρ c main_arg9 (by decide), W1_arg m ρ c main_arg10 (by decide)]
    rfl))

/-! ## Boundary 3: layer 2's neighbour sums and parameters; boundary 4: layer 2 -/

theorem W3_feat (c : Dev nD) : (W3 m ρ c (Proc.devRef .tc main_v14) : SN.Idx → EReal) = out1 m c :=
  (keeps1 (W2 m ρ c) main_v14 (by decide)).trans (W2_out m ρ c)
theorem W3_nbrs (c : Dev nD) : (W3 m ρ c (Proc.devRef .tc main_v24) : SN.Idx → EReal) = nbrs m c (out1 m c) :=
  (agg1 (W2 m ρ c)).trans (by
    rw [W2_out m ρ c, idle2 m ρ c main_v1 (by decide), W1_src m ρ c, idle2 m ρ c main_v3 (by decide), W1_dst m ρ c]
    rfl)
theorem W3_mat1 (c : Dev nD) : (W3 m ρ c (Proc.devRef .tc main_v26) : SM.Idx → EReal) = mat0 (F := Ideal) (m ((c.tc : Thread nD τ).loc main_arg11)) :=
  (mat1_1 (W2 m ρ c)).trans (congrArg (mat0 (F := Ideal))
    ((idle2 m ρ c main_arg11 (by decide)).trans (W1_arg m ρ c main_arg11 (by decide))))
theorem W3_bias1 (c : Dev nD) : (W3 m ρ c (Proc.devRef .tc main_v28) : SV.Idx → EReal) = vec0 (F := Ideal) (m ((c.tc : Thread nD τ).loc main_arg12)) :=
  (bias1_1 (W2 m ρ c)).trans (congrArg (vec0 (F := Ideal))
    ((idle2 m ρ c main_arg12 (by decide)).trans (W1_arg m ρ c main_arg12 (by decide))))
theorem W3_mat2 (c : Dev nD) : (W3 m ρ c (Proc.devRef .tc main_v30) : SM.Idx → EReal) = mat0 (F := Ideal) (m ((c.tc : Thread nD τ).loc main_arg13)) :=
  (mat2_1 (W2 m ρ c)).trans (congrArg (mat0 (F := Ideal))
    ((idle2 m ρ c main_arg13 (by decide)).trans (W1_arg m ρ c main_arg13 (by decide))))
theorem W3_bias2 (c : Dev nD) : (W3 m ρ c (Proc.devRef .tc main_v32) : SV.Idx → EReal) = vec0 (F := Ideal) (m ((c.tc : Thread nD τ).loc main_arg14)) :=
  (bias2_1 (W2 m ρ c)).trans (congrArg (vec0 (F := Ideal))
    ((idle2 m ρ c main_arg14 (by decide)).trans (W1_arg m ρ c main_arg14 (by decide))))
theorem W3_scale (c : Dev nD) : (W3 m ρ c (Proc.devRef .tc main_v34) : SV.Idx → EReal) = vec0 (F := Ideal) (m ((c.tc : Thread nD τ).loc main_arg15)) :=
  (scale1 (W2 m ρ c)).trans (congrArg (vec0 (F := Ideal))
    ((idle2 m ρ c main_arg15 (by decide)).trans (W1_arg m ρ c main_arg15 (by decide))))
theorem W3_shift (c : Dev nD) : (W3 m ρ c (Proc.devRef .tc main_v36) : SV.Idx → EReal) = vec0 (F := Ideal) (m ((c.tc : Thread nD τ).loc main_arg16)) :=
  (shift1 (W2 m ρ c)).trans (congrArg (vec0 (F := Ideal))
    ((idle2 m ρ c main_arg16 (by decide)).trans (W1_arg m ρ c main_arg16 (by decide))))
theorem W3_mean (c : Dev nD) : (W3 m ρ c (Proc.devRef .tc main_v38) : SV.Idx → EReal) = vec0 (F := Ideal) (m ((c.tc : Thread nD τ).loc main_arg17)) :=
  (mean1 (W2 m ρ c)).trans (congrArg (vec0 (F := Ideal))
    ((idle2 m ρ c main_arg17 (by decide)).trans (W1_arg m ρ c main_arg17 (by decide))))
theorem W3_var (c : Dev nD) : (W3 m ρ c (Proc.devRef .tc main_v40) : SV.Idx → EReal) = vec0 (F := Ideal) (m ((c.tc : Thread nD τ).loc main_arg18)) :=
  (var1 (W2 m ρ c)).trans (congrArg (vec0 (F := Ideal))
    ((idle2 m ρ c main_arg18 (by decide)).trans (W1_arg m ρ c main_arg18 (by decide))))

theorem W4_out (c : Dev nD) : (W4 m ρ c (Proc.devRef .tc main_v41) : SN.Idx → EReal) = out2 m c :=
  (W4_arr m ρ c 10).trans ((Region1.array (V3 m ρ) c).trans (by
    show layerRes (W3 m ρ c (Proc.devRef .tc main_v14)) (W3 m ρ c (Proc.devRef .tc main_v24)) (W3 m ρ c (Proc.devRef .tc main_v26))
      (W3 m ρ c (Proc.devRef .tc main_v28)) (W3 m ρ c (Proc.devRef .tc main_v30)) (W3 m ρ c (Proc.devRef .tc main_v32)) (W3 m ρ c (Proc.devRef .tc main_v34))
      (W3 m ρ c (Proc.devRef .tc main_v36)) (W3 m ρ c (Proc.devRef .tc main_v38)) (W3 m ρ c (Proc.devRef .tc main_v40)) = out2 m c
    rw [W3_feat m ρ c, W3_nbrs m ρ c, W3_mat1 m ρ c, W3_bias1 m ρ c, W3_mat2 m ρ c, W3_bias2 m ρ c,
      W3_scale m ρ c, W3_shift m ρ c, W3_mean m ρ c, W3_var m ρ c]
    rfl))

/-! ## Boundary 5: layer 3's neighbour sums and parameters; boundary 6: layer 3 -/

theorem W5_feat (c : Dev nD) : (W5 m ρ c (Proc.devRef .tc main_v41) : SN.Idx → EReal) = out2 m c :=
  (keeps2 (W4 m ρ c) main_v41 (by decide)).trans (W4_out m ρ c)
theorem W5_nbrs (c : Dev nD) : (W5 m ρ c (Proc.devRef .tc main_v51) : SN.Idx → EReal) = nbrs m c (out2 m c) :=
  (agg2 (W4 m ρ c)).trans (by
    rw [W4_out m ρ c, idle4 m ρ c main_v1 (by decide), W1_src m ρ c, idle4 m ρ c main_v3 (by decide), W1_dst m ρ c]
    rfl)
theorem W5_mat1 (c : Dev nD) : (W5 m ρ c (Proc.devRef .tc main_v53) : SM.Idx → EReal) = mat1 (F := Ideal) (m ((c.tc : Thread nD τ).loc main_arg11)) :=
  (mat1_2 (W4 m ρ c)).trans (congrArg (mat1 (F := Ideal))
    ((idle4 m ρ c main_arg11 (by decide)).trans (W1_arg m ρ c main_arg11 (by decide))))
theorem W5_bias1 (c : Dev nD) : (W5 m ρ c (Proc.devRef .tc main_v55) : SV.Idx → EReal) = vec1 (F := Ideal) (m ((c.tc : Thread nD τ).loc main_arg12)) :=
  (bias1_2 (W4 m ρ c)).trans (congrArg (vec1 (F := Ideal))
    ((idle4 m ρ c main_arg12 (by decide)).trans (W1_arg m ρ c main_arg12 (by decide))))
theorem W5_mat2 (c : Dev nD) : (W5 m ρ c (Proc.devRef .tc main_v57) : SM.Idx → EReal) = mat1 (F := Ideal) (m ((c.tc : Thread nD τ).loc main_arg13)) :=
  (mat2_2 (W4 m ρ c)).trans (congrArg (mat1 (F := Ideal))
    ((idle4 m ρ c main_arg13 (by decide)).trans (W1_arg m ρ c main_arg13 (by decide))))
theorem W5_bias2 (c : Dev nD) : (W5 m ρ c (Proc.devRef .tc main_v59) : SV.Idx → EReal) = vec1 (F := Ideal) (m ((c.tc : Thread nD τ).loc main_arg14)) :=
  (bias2_2 (W4 m ρ c)).trans (congrArg (vec1 (F := Ideal))
    ((idle4 m ρ c main_arg14 (by decide)).trans (W1_arg m ρ c main_arg14 (by decide))))
theorem W5_scale (c : Dev nD) : (W5 m ρ c (Proc.devRef .tc main_v61) : SV.Idx → EReal) = vec1 (F := Ideal) (m ((c.tc : Thread nD τ).loc main_arg15)) :=
  (scale2 (W4 m ρ c)).trans (congrArg (vec1 (F := Ideal))
    ((idle4 m ρ c main_arg15 (by decide)).trans (W1_arg m ρ c main_arg15 (by decide))))
theorem W5_shift (c : Dev nD) : (W5 m ρ c (Proc.devRef .tc main_v63) : SV.Idx → EReal) = vec1 (F := Ideal) (m ((c.tc : Thread nD τ).loc main_arg16)) :=
  (shift2 (W4 m ρ c)).trans (congrArg (vec1 (F := Ideal))
    ((idle4 m ρ c main_arg16 (by decide)).trans (W1_arg m ρ c main_arg16 (by decide))))
theorem W5_mean (c : Dev nD) : (W5 m ρ c (Proc.devRef .tc main_v65) : SV.Idx → EReal) = vec1 (F := Ideal) (m ((c.tc : Thread nD τ).loc main_arg17)) :=
  (mean2 (W4 m ρ c)).trans (congrArg (vec1 (F := Ideal))
    ((idle4 m ρ c main_arg17 (by decide)).trans (W1_arg m ρ c main_arg17 (by decide))))
theorem W5_var (c : Dev nD) : (W5 m ρ c (Proc.devRef .tc main_v67) : SV.Idx → EReal) = vec1 (F := Ideal) (m ((c.tc : Thread nD τ).loc main_arg18)) :=
  (var2 (W4 m ρ c)).trans (congrArg (vec1 (F := Ideal))
    ((idle4 m ρ c main_arg18 (by decide)).trans (W1_arg m ρ c main_arg18 (by decide))))

theorem W6_out (c : Dev nD) : (W6 m ρ c (Proc.devRef .tc main_v68) : SN.Idx → EReal) = out3 m c :=
  (W6_arr m ρ c 10).trans ((Region2.array (V5 m ρ) c).trans (by
    show layerRes (W5 m ρ c (Proc.devRef .tc main_v41)) (W5 m ρ c (Proc.devRef .tc main_v51)) (W5 m ρ c (Proc.devRef .tc main_v53))
      (W5 m ρ c (Proc.devRef .tc main_v55)) (W5 m ρ c (Proc.devRef .tc main_v57)) (W5 m ρ c (Proc.devRef .tc main_v59)) (W5 m ρ c (Proc.devRef .tc main_v61))
      (W5 m ρ c (Proc.devRef .tc main_v63)) (W5 m ρ c (Proc.devRef .tc main_v65)) (W5 m ρ c (Proc.devRef .tc main_v67)) = out3 m c
    rw [W5_feat m ρ c, W5_nbrs m ρ c, W5_mat1 m ρ c, W5_bias1 m ρ c, W5_mat2 m ρ c, W5_bias2 m ρ c,
      W5_scale m ρ c, W5_shift m ρ c, W5_mean m ρ c, W5_var m ρ c]
    rfl))

/-! ## Boundary 7: layer 4's neighbour sums and parameters; boundary 8: layer 4 -/

theorem W7_feat (c : Dev nD) : (W7 m ρ c (Proc.devRef .tc main_v68) : SN.Idx → EReal) = out3 m c :=
  (keeps3 (W6 m ρ c) main_v68 (by decide)).trans (W6_out m ρ c)
theorem W7_nbrs (c : Dev nD) : (W7 m ρ c (Proc.devRef .tc main_v78) : SN.Idx → EReal) = nbrs m c (out3 m c) :=
  (agg3 (W6 m ρ c)).trans (by
    rw [W6_out m ρ c, idle6 m ρ c main_v1 (by decide), W1_src m ρ c, idle6 m ρ c main_v3 (by decide), W1_dst m ρ c]
    rfl)
theorem W7_mat1 (c : Dev nD) : (W7 m ρ c (Proc.devRef .tc main_v80) : SM.Idx → EReal) = mat2 (F := Ideal) (m ((c.tc : Thread nD τ).loc main_arg11)) :=
  (mat1_3 (W6 m ρ c)).trans (congrArg (mat2 (F := Ideal))
    ((idle6 m ρ c main_arg11 (by decide)).trans (W1_arg m ρ c main_arg11 (by decide))))
theorem W7_bias1 (c : Dev nD) : (W7 m ρ c (Proc.devRef .tc main_v82) : SV.Idx → EReal) = vec2 (F := Ideal) (m ((c.tc : Thread nD τ).loc main_arg12)) :=
  (bias1_3 (W6 m ρ c)).trans (congrArg (vec2 (F := Ideal))
    ((idle6 m ρ c main_arg12 (by decide)).trans (W1_arg m ρ c main_arg12 (by decide))))
theorem W7_mat2 (c : Dev nD) : (W7 m ρ c (Proc.devRef .tc main_v84) : SM.Idx → EReal) = mat2 (F := Ideal) (m ((c.tc : Thread nD τ).loc main_arg13)) :=
  (mat2_3 (W6 m ρ c)).trans (congrArg (mat2 (F := Ideal))
    ((idle6 m ρ c main_arg13 (by decide)).trans (W1_arg m ρ c main_arg13 (by decide))))
theorem W7_bias2 (c : Dev nD) : (W7 m ρ c (Proc.devRef .tc main_v86) : SV.Idx → EReal) = vec2 (F := Ideal) (m ((c.tc : Thread nD τ).loc main_arg14)) :=
  (bias2_3 (W6 m ρ c)).trans (congrArg (vec2 (F := Ideal))
    ((idle6 m ρ c main_arg14 (by decide)).trans (W1_arg m ρ c main_arg14 (by decide))))
theorem W7_scale (c : Dev nD) : (W7 m ρ c (Proc.devRef .tc main_v88) : SV.Idx → EReal) = vec2 (F := Ideal) (m ((c.tc : Thread nD τ).loc main_arg15)) :=
  (scale3 (W6 m ρ c)).trans (congrArg (vec2 (F := Ideal))
    ((idle6 m ρ c main_arg15 (by decide)).trans (W1_arg m ρ c main_arg15 (by decide))))
theorem W7_shift (c : Dev nD) : (W7 m ρ c (Proc.devRef .tc main_v90) : SV.Idx → EReal) = vec2 (F := Ideal) (m ((c.tc : Thread nD τ).loc main_arg16)) :=
  (shift3 (W6 m ρ c)).trans (congrArg (vec2 (F := Ideal))
    ((idle6 m ρ c main_arg16 (by decide)).trans (W1_arg m ρ c main_arg16 (by decide))))
theorem W7_mean (c : Dev nD) : (W7 m ρ c (Proc.devRef .tc main_v92) : SV.Idx → EReal) = vec2 (F := Ideal) (m ((c.tc : Thread nD τ).loc main_arg17)) :=
  (mean3 (W6 m ρ c)).trans (congrArg (vec2 (F := Ideal))
    ((idle6 m ρ c main_arg17 (by decide)).trans (W1_arg m ρ c main_arg17 (by decide))))
theorem W7_var (c : Dev nD) : (W7 m ρ c (Proc.devRef .tc main_v94) : SV.Idx → EReal) = vec2 (F := Ideal) (m ((c.tc : Thread nD τ).loc main_arg18)) :=
  (var3 (W6 m ρ c)).trans (congrArg (vec2 (F := Ideal))
    ((idle6 m ρ c main_arg18 (by decide)).trans (W1_arg m ρ c main_arg18 (by decide))))

theorem W8_out (c : Dev nD) : (W8 m ρ c (Proc.devRef .tc main_v95) : SN.Idx → EReal) = out4 m c :=
  (W8_arr m ρ c 10).trans ((Region3.array (V7 m ρ) c).trans (by
    show layerRes (W7 m ρ c (Proc.devRef .tc main_v68)) (W7 m ρ c (Proc.devRef .tc main_v78)) (W7 m ρ c (Proc.devRef .tc main_v80))
      (W7 m ρ c (Proc.devRef .tc main_v82)) (W7 m ρ c (Proc.devRef .tc main_v84)) (W7 m ρ c (Proc.devRef .tc main_v86)) (W7 m ρ c (Proc.devRef .tc main_v88))
      (W7 m ρ c (Proc.devRef .tc main_v90)) (W7 m ρ c (Proc.devRef .tc main_v92)) (W7 m ρ c (Proc.devRef .tc main_v94)) = out4 m c
    rw [W7_feat m ρ c, W7_nbrs m ρ c, W7_mat1 m ρ c, W7_bias1 m ρ c, W7_mat2 m ρ c, W7_bias2 m ρ c,
      W7_scale m ρ c, W7_shift m ρ c, W7_mean m ρ c, W7_var m ρ c]
    rfl))

/-! ## Boundary 9: layer 5's neighbour sums and parameters; boundary 10: layer 5 -/

theorem W9_feat (c : Dev nD) : (W9 m ρ c (Proc.devRef .tc main_v95) : SN.Idx → EReal) = out4 m c :=
  (keeps4 (W8 m ρ c) main_v95 (by decide)).trans (W8_out m ρ c)
theorem W9_nbrs (c : Dev nD) : (W9 m ρ c (Proc.devRef .tc main_v105) : SN.Idx → EReal) = nbrs m c (out4 m c) :=
  (agg4 (W8 m ρ c)).trans (by
    rw [W8_out m ρ c, idle8 m ρ c main_v1 (by decide), W1_src m ρ c, idle8 m ρ c main_v3 (by decide), W1_dst m ρ c]
    rfl)
theorem W9_mat1 (c : Dev nD) : (W9 m ρ c (Proc.devRef .tc main_v107) : SM.Idx → EReal) = mat3 (F := Ideal) (m ((c.tc : Thread nD τ).loc main_arg11)) :=
  (mat1_4 (W8 m ρ c)).trans (congrArg (mat3 (F := Ideal))
    ((idle8 m ρ c main_arg11 (by decide)).trans (W1_arg m ρ c main_arg11 (by decide))))
theorem W9_bias1 (c : Dev nD) : (W9 m ρ c (Proc.devRef .tc main_v109) : SV.Idx → EReal) = vec3 (F := Ideal) (m ((c.tc : Thread nD τ).loc main_arg12)) :=
  (bias1_4 (W8 m ρ c)).trans (congrArg (vec3 (F := Ideal))
    ((idle8 m ρ c main_arg12 (by decide)).trans (W1_arg m ρ c main_arg12 (by decide))))
theorem W9_mat2 (c : Dev nD) : (W9 m ρ c (Proc.devRef .tc main_v111) : SM.Idx → EReal) = mat3 (F := Ideal) (m ((c.tc : Thread nD τ).loc main_arg13)) :=
  (mat2_4 (W8 m ρ c)).trans (congrArg (mat3 (F := Ideal))
    ((idle8 m ρ c main_arg13 (by decide)).trans (W1_arg m ρ c main_arg13 (by decide))))
theorem W9_bias2 (c : Dev nD) : (W9 m ρ c (Proc.devRef .tc main_v113) : SV.Idx → EReal) = vec3 (F := Ideal) (m ((c.tc : Thread nD τ).loc main_arg14)) :=
  (bias2_4 (W8 m ρ c)).trans (congrArg (vec3 (F := Ideal))
    ((idle8 m ρ c main_arg14 (by decide)).trans (W1_arg m ρ c main_arg14 (by decide))))
theorem W9_scale (c : Dev nD) : (W9 m ρ c (Proc.devRef .tc main_v115) : SV.Idx → EReal) = vec3 (F := Ideal) (m ((c.tc : Thread nD τ).loc main_arg15)) :=
  (scale4 (W8 m ρ c)).trans (congrArg (vec3 (F := Ideal))
    ((idle8 m ρ c main_arg15 (by decide)).trans (W1_arg m ρ c main_arg15 (by decide))))
theorem W9_shift (c : Dev nD) : (W9 m ρ c (Proc.devRef .tc main_v117) : SV.Idx → EReal) = vec3 (F := Ideal) (m ((c.tc : Thread nD τ).loc main_arg16)) :=
  (shift4 (W8 m ρ c)).trans (congrArg (vec3 (F := Ideal))
    ((idle8 m ρ c main_arg16 (by decide)).trans (W1_arg m ρ c main_arg16 (by decide))))
theorem W9_mean (c : Dev nD) : (W9 m ρ c (Proc.devRef .tc main_v119) : SV.Idx → EReal) = vec3 (F := Ideal) (m ((c.tc : Thread nD τ).loc main_arg17)) :=
  (mean4 (W8 m ρ c)).trans (congrArg (vec3 (F := Ideal))
    ((idle8 m ρ c main_arg17 (by decide)).trans (W1_arg m ρ c main_arg17 (by decide))))
theorem W9_var (c : Dev nD) : (W9 m ρ c (Proc.devRef .tc main_v121) : SV.Idx → EReal) = vec3 (F := Ideal) (m ((c.tc : Thread nD τ).loc main_arg18)) :=
  (var4 (W8 m ρ c)).trans (congrArg (vec3 (F := Ideal))
    ((idle8 m ρ c main_arg18 (by decide)).trans (W1_arg m ρ c main_arg18 (by decide))))

theorem W10_out (c : Dev nD) : (W10 m ρ c (Proc.devRef .tc main_v122) : SN.Idx → EReal) = out5 m c :=
  (W10_arr m ρ c 10).trans ((Region4.array (V9 m ρ) c).trans (by
    show layerRes (W9 m ρ c (Proc.devRef .tc main_v95)) (W9 m ρ c (Proc.devRef .tc main_v105)) (W9 m ρ c (Proc.devRef .tc main_v107))
      (W9 m ρ c (Proc.devRef .tc main_v109)) (W9 m ρ c (Proc.devRef .tc main_v111)) (W9 m ρ c (Proc.devRef .tc main_v113)) (W9 m ρ c (Proc.devRef .tc main_v115))
      (W9 m ρ c (Proc.devRef .tc main_v117)) (W9 m ρ c (Proc.devRef .tc main_v119)) (W9 m ρ c (Proc.devRef .tc main_v121)) = out5 m c
    rw [W9_feat m ρ c, W9_nbrs m ρ c, W9_mat1 m ρ c, W9_bias1 m ρ c, W9_mat2 m ρ c, W9_bias2 m ρ c,
      W9_scale m ρ c, W9_shift m ρ c, W9_mean m ρ c, W9_var m ρ c]
    rfl))

/-! ## Boundary 11: the graph ids as a column; boundary 12: the pooled sums and counts; boundary 13: the mean -/

theorem W11_feat (c : Dev nD) : (W11 m ρ c (Proc.devRef .tc main_v122) : SN.Idx → EReal) = out5 m c :=
  (keeps5 (W10 m ρ c) main_v122 (by decide)).trans (W10_out m ρ c)
theorem W11_headW (c : Dev nD) : W11 m ρ c (Proc.devRef .tc main_arg19) = (m ((c.tc : Thread nD τ).loc main_arg19)) :=
  (idle11 m ρ c main_arg19 (by decide)).trans (W1_arg m ρ c main_arg19 (by decide))
theorem W11_headB (c : Dev nD) : W11 m ρ c (Proc.devRef .tc main_arg20) = (m ((c.tc : Thread nD τ).loc main_arg20)) :=
  (idle11 m ρ c main_arg20 (by decide)).trans (W1_arg m ρ c main_arg20 (by decide))
theorem W11_idCol (c : Dev nD) : (W11 m ρ c (Proc.devRef .tc main_v123) : IVec S100000x1 32) = idCol (m ((c.tc : Thread nD τ).loc main_arg2)) :=
  (ids5 (W10 m ρ c)).trans (congrArg idCol ((idle10 m ρ c main_arg2 (by decide)).trans (W1_arg m ρ c main_arg2 (by decide))))

/-- The ids' column read at `(n, 0)` is the id of node `n`. -/
theorem idCol_apply (batch : IVec S100000 32) (n : Fin 100000) : idCol batch (ix2 n (0 : Fin 1)) = batch (ix1 n) := by
  unfold idCol
  refine shapeCast_apply batch _ _ _ ?_
  rw [Shape.rowMajor_val_one, Shape.rowMajor_val_two]
  show n.val = n.val * 1 + 0
  omega

/-- The graph ids the pooling region finds are the program's. -/
theorem W11_ids (c : Dev nD) : Region5.ids (V11 m ρ) c = (m ((c.tc : Thread nD τ).loc main_arg2)) := by
  funext i
  show (W11 m ρ c (Proc.devRef .tc main_v123) : IVec S100000x1 32) (ix2 (i 0) (0 : Fin 1)) = ((m ((c.tc : Thread nD τ).loc main_arg2)) : IVec S100000 32) i
  refine (congrFun (W11_idCol m ρ c) (ix2 (i 0) (0 : Fin 1))).trans ?_
  refine (idCol_apply (m ((c.tc : Thread nD τ).loc main_arg2)) (i 0)).trans ?_
  exact congrArg ((m ((c.tc : Thread nD τ).loc main_arg2)) : IVec S100000 32) (eq_ix1 i).symm

theorem W12_sums (c : Dev nD) : (W12 m ρ c (Proc.devRef .tc main_v124_0) : SG.Idx → EReal)
    = poolSum (head (out5 m c) (m ((c.tc : Thread nD τ).loc main_arg19)) (m ((c.tc : Thread nD τ).loc main_arg20))) (m ((c.tc : Thread nD τ).loc main_arg2)) :=
  (W12_arr m ρ c 4).trans ((Region5.sums (V11 m ρ) c).trans (by
    show poolSum (head (W11 m ρ c (Proc.devRef .tc main_v122)) (W11 m ρ c (Proc.devRef .tc main_arg19)) (W11 m ρ c (Proc.devRef .tc main_arg20)))
      (Region5.ids (V11 m ρ) c) = _
    rw [W11_feat m ρ c, W11_headW m ρ c, W11_headB m ρ c, W11_ids m ρ c]))
theorem W12_counts (c : Dev nD) : (W12 m ρ c (Proc.devRef .tc main_v124_1) : SC.Idx → EReal) = poolCount (m ((c.tc : Thread nD τ).loc main_arg2)) :=
  (W12_arr m ρ c 5).trans ((Region5.counts (V11 m ρ) c).trans (by rw [W11_ids m ρ c]))

/-! ## Boundary 13, and the network -/

/-- The network over the named values: the mean of the pooled head of the fifth layer's output. -/
theorem chain_eq (c : Dev nD) :
    networkWith (meanT (F := Ideal)) (nbrs m c) (m ((c.tc : Thread nD τ).loc main_arg0)) (m ((c.tc : Thread nD τ).loc main_arg2))
        (par1 m c) (par2 m c) (par3 m c) (par4 m c) (par5 m c) (m ((c.tc : Thread nD τ).loc main_arg19)) (m ((c.tc : Thread nD τ).loc main_arg20))
      = meanT (F := Ideal) (poolSum (head (out5 m c) (m ((c.tc : Thread nD τ).loc main_arg19)) (m ((c.tc : Thread nD τ).loc main_arg20))) (m ((c.tc : Thread nD τ).loc main_arg2)))
          (poolCount (m ((c.tc : Thread nD τ).loc main_arg2))) := rfl

/-- The result buffer at the last boundary of @main. -/
theorem value (c : Dev nD) :
    (W13 m ρ c (Proc.devRef .tc main_v128) : S128x64.Idx → EReal)
      = networkWith (meanT (F := Ideal)) (fun h => aggT (F := Ideal) h (m ((c.tc : Thread nD τ).loc main_arg1)))
          (m ((c.tc : Thread nD τ).loc main_arg0)) (m ((c.tc : Thread nD τ).loc main_arg2))
          ⟨(m ((c.tc : Thread nD τ).loc main_arg3)), (m ((c.tc : Thread nD τ).loc main_arg4)), (m ((c.tc : Thread nD τ).loc main_arg5)), (m ((c.tc : Thread nD τ).loc main_arg6)),
          (m ((c.tc : Thread nD τ).loc main_arg7)), (m ((c.tc : Thread nD τ).loc main_arg8)), (m ((c.tc : Thread nD τ).loc main_arg9)), (m ((c.tc : Thread nD τ).loc main_arg10))⟩
          ⟨mat0 (F := Ideal) (m ((c.tc : Thread nD τ).loc main_arg11)), vec0 (F := Ideal) (m ((c.tc : Thread nD τ).loc main_arg12)), mat0 (F := Ideal) (m ((c.tc : Thread nD τ).loc main_arg13)), vec0 (F := Ideal) (m ((c.tc : Thread nD τ).loc main_arg14)),
          vec0 (F := Ideal) (m ((c.tc : Thread nD τ).loc main_arg15)), vec0 (F := Ideal) (m ((c.tc : Thread nD τ).loc main_arg16)), vec0 (F := Ideal) (m ((c.tc : Thread nD τ).loc main_arg17)), vec0 (F := Ideal) (m ((c.tc : Thread nD τ).loc main_arg18))⟩
          ⟨mat1 (F := Ideal) (m ((c.tc : Thread nD τ).loc main_arg11)), vec1 (F := Ideal) (m ((c.tc : Thread nD τ).loc main_arg12)), mat1 (F := Ideal) (m ((c.tc : Thread nD τ).loc main_arg13)), vec1 (F := Ideal) (m ((c.tc : Thread nD τ).loc main_arg14)),
          vec1 (F := Ideal) (m ((c.tc : Thread nD τ).loc main_arg15)), vec1 (F := Ideal) (m ((c.tc : Thread nD τ).loc main_arg16)), vec1 (F := Ideal) (m ((c.tc : Thread nD τ).loc main_arg17)), vec1 (F := Ideal) (m ((c.tc : Thread nD τ).loc main_arg18))⟩
          ⟨mat2 (F := Ideal) (m ((c.tc : Thread nD τ).loc main_arg11)), vec2 (F := Ideal) (m ((c.tc : Thread nD τ).loc main_arg12)), mat2 (F := Ideal) (m ((c.tc : Thread nD τ).loc main_arg13)), vec2 (F := Ideal) (m ((c.tc : Thread nD τ).loc main_arg14)),
          vec2 (F := Ideal) (m ((c.tc : Thread nD τ).loc main_arg15)), vec2 (F := Ideal) (m ((c.tc : Thread nD τ).loc main_arg16)), vec2 (F := Ideal) (m ((c.tc : Thread nD τ).loc main_arg17)), vec2 (F := Ideal) (m ((c.tc : Thread nD τ).loc main_arg18))⟩
          ⟨mat3 (F := Ideal) (m ((c.tc : Thread nD τ).loc main_arg11)), vec3 (F := Ideal) (m ((c.tc : Thread nD τ).loc main_arg12)), mat3 (F := Ideal) (m ((c.tc : Thread nD τ).loc main_arg13)), vec3 (F := Ideal) (m ((c.tc : Thread nD τ).loc main_arg14)),
          vec3 (F := Ideal) (m ((c.tc : Thread nD τ).loc main_arg15)), vec3 (F := Ideal) (m ((c.tc : Thread nD τ).loc main_arg16)), vec3 (F := Ideal) (m ((c.tc : Thread nD τ).loc main_arg17)), vec3 (F := Ideal) (m ((c.tc : Thread nD τ).loc main_arg18))⟩
          (m ((c.tc : Thread nD τ).loc main_arg19)) (m ((c.tc : Thread nD τ).loc main_arg20)) := by
  refine ((mean6 (W12 m ρ c)).trans ?_).trans (chain_eq m c).symm
  rw [W12_sums m ρ c, W12_counts m ρ c]

end Cert.KernelIdeal.KChain

end
-- ==== Proof.RTerms.lean ====
/-
  The reference program's host operations, grouped: the neighbour sums, a layer's two clamped affine maps and its
  normalisation, the head, and the pooling, each as one function of arrays, written with the operations the program prints.
-/
import proofs.«425461_j52037823758418_1_alg».proof.ReferenceIdeal
import proofs.«425461_j52037823758418_1_alg».proof.Proof.Gen.ReferenceIdeal

noncomputable section

namespace Cert.ReferenceIdeal.Terms

open Cert.ReferenceIdeal Cert.ReferenceIdeal.Gen Idealize.ShloMosaic

variable {F : FTy → Type} [FloatOps F]

/-- The edge list's first row, as a vector: each edge's source node. -/
def srcRow (ei : IVec S2x1280000 32) : IVec S1280000 32 :=
  shapeCast _ (extractStridedSlice S1x1280000 ![0, 0] ei slices_S2x1280000_S1x1280000_0_0) shapeCasts_S1x1280000_S1280000

/-- The edge list's second row, as a vector: each edge's destination node. -/
def dstRow (ei : IVec S2x1280000 32) : IVec S1280000 32 :=
  shapeCast _ (extractStridedSlice S1x1280000 ![1, 0] ei slices_S2x1280000_S1x1280000_1_0) shapeCasts_S1x1280000_S1280000

/-- The source indices with a negative index counted from the end. -/
def wrapped (src : IVec S1280000 32) : IVec S1280000 32 :=
  select (cmpi .slt src (broadcastInDim S1280000 ![] bcast_S_S1280000 (constantI S_ 32 0#32)))
    (addi src (broadcastInDim S1280000 ![] bcast_S_S1280000 (constantI S_ 32 100000#32))) src

/-- The neighbour sums over given source and destination vectors: every edge's source row gathered, and added into its
    destination row of a zero array. -/
def aggOf (h : FVec F S100000x64 .f32) (src dst : IVec S1280000 32) : FVec F S100000x64 .f32 :=
  Host.scatterAdd scatter_S100000x64_S1280000x1_S1280000x64_1_0_0_1
    (broadcastInDim S100000x64 ![] bcast_S_S100000x64 (constant S_ .f32 0x00000000#32))
    (broadcastInDim S1280000x1 ![0] bcast_S1280000_S1280000x1_0 dst)
    (Host.gather gather_S100000x64_S1280000x1_S1280000x64_1_0_n_n_0_1_164 h
      (broadcastInDim S1280000x1 ![0] bcast_S1280000_S1280000x1_0 (wrapped src)))

/-- The neighbour sums over the edge list. -/
def aggT (h : FVec F S100000x64 .f32) (ei : IVec S2x1280000 32) : FVec F S100000x64 .f32 :=
  aggOf h (srcRow ei) (dstRow ei)

/-- Layer k's matrix out of a stack of four. -/
def mat0 (a : FVec F S4x64x64 .f32) : FVec F S64x64 .f32 :=
  shapeCast _ (extractStridedSlice S1x64x64 ![0, 0, 0] a slices_S4x64x64_S1x64x64_0_0_0) shapeCasts_S1x64x64_S64x64
def mat1 (a : FVec F S4x64x64 .f32) : FVec F S64x64 .f32 :=
  shapeCast _ (extractStridedSlice S1x64x64 ![1, 0, 0] a slices_S4x64x64_S1x64x64_1_0_0) shapeCasts_S1x64x64_S64x64
def mat2 (a : FVec F S4x64x64 .f32) : FVec F S64x64 .f32 :=
  shapeCast _ (extractStridedSlice S1x64x64 ![2, 0, 0] a slices_S4x64x64_S1x64x64_2_0_0) shapeCasts_S1x64x64_S64x64
def mat3 (a : FVec F S4x64x64 .f32) : FVec F S64x64 .f32 :=
  shapeCast _ (extractStridedSlice S1x64x64 ![3, 0, 0] a slices_S4x64x64_S1x64x64_3_0_0) shapeCasts_S1x64x64_S64x64

/-- Layer k's vector out of a stack of four. -/
def vec0 (a : FVec F S4x64 .f32) : FVec F S64 .f32 :=
  shapeCast _ (extractStridedSlice S1x64 ![0, 0] a slices_S4x64_S1x64_0_0) shapeCasts_S1x64_S64
def vec1 (a : FVec F S4x64 .f32) : FVec F S64 .f32 :=
  shapeCast _ (extractStridedSlice S1x64 ![1, 0] a slices_S4x64_S1x64_1_0) shapeCasts_S1x64_S64
def vec2 (a : FVec F S4x64 .f32) : FVec F S64 .f32 :=
  shapeCast _ (extractStridedSlice S1x64 ![2, 0] a slices_S4x64_S1x64_2_0) shapeCasts_S1x64_S64
def vec3 (a : FVec F S4x64 .f32) : FVec F S64 .f32 :=
  shapeCast _ (extractStridedSlice S1x64 ![3, 0] a slices_S4x64_S1x64_3_0) shapeCasts_S1x64_S64

/-- The mean: the sums over the larger of the counts and one, feature by feature. -/
def meanT (s : FVec F S128x64 .f32) (cn : FVec F S128x1 .f32) : FVec F S128x64 .f32 :=
  Host.divf s (broadcastInDim S128x64 ![0, 1] bcast_S128x1_S128x64_0_1
    (maximumf cn (broadcastInDim S128x1 ![] bcast_S_S128x1 (constant S_ .f32 0x3F800000#32))))

/-- A per-feature vector laid over all rows. -/
def overRows (b : FVec F S64 .f32) : FVec F S100000x64 .f32 :=
  broadcastInDim S100000x64 ![0, 1] bcast_S1x64_S100000x64_0_1 (broadcastInDim S1x64 ![1] bcast_S64_S1x64_1 b)

/-- Zero, over all rows and features. -/
def zeroRows : FVec F S100000x64 .f32 :=
  broadcastInDim S100000x64 ![] bcast_S_S100000x64 (constant S_ .f32 0x00000000#32)

/-- One clamped affine map of every row. -/
def dense (z : FVec F S100000x64 .f32) (W : FVec F S64x64 .f32) (b : FVec F S64 .f32) : FVec F S100000x64 .f32 :=
  maximumf (addf (Host.dotGeneral dot_S100000x64_S64x64_S100000x64_1_0_0_1_n_n none z W) (overRows b)) zeroRows

/-- The normalisation of every row. -/
def normT (z : FVec F S100000x64 .f32) (g be mu v : FVec F S64 .f32) : FVec F S100000x64 .f32 :=
  addf (mulf (mulf (subf z (overRows mu))
      (overRows (Host.rsqrt (addf v (broadcastInDim S64 ![] bcast_S_S64 (constant S_ .f32 0x3727C5AC#32))))))
    (overRows g)) (overRows be)

/-- A layer without the residual. -/
def plainT (h a : FVec F S100000x64 .f32) (W1 : FVec F S64x64 .f32) (b1 : FVec F S64 .f32) (W2 : FVec F S64x64 .f32)
    (b2 g be mu v : FVec F S64 .f32) : FVec F S100000x64 .f32 :=
  normT (dense (dense (addf h a) W1 b1) W2 b2) g be mu v

/-- A layer with the residual. -/
def resT (h a : FVec F S100000x64 .f32) (W1 : FVec F S64x64 .f32) (b1 : FVec F S64 .f32) (W2 : FVec F S64x64 .f32)
    (b2 g be mu v : FVec F S64 .f32) : FVec F S100000x64 .f32 :=
  addf h (plainT h a W1 b1 W2 b2 g be mu v)

/-- The head. -/
def headT (h : FVec F S100000x64 .f32) (W : FVec F S64x64 .f32) (b : FVec F S64 .f32) : FVec F S100000x64 .f32 :=
  Host.tanh (addf (Host.dotGeneral dot_S100000x64_S64x64_S100000x64_1_0_0_1_n_n none h W) (overRows b))

/-- The per-graph sums: every row added into the row its graph id names, of a zero array. -/
def sumsT (o : FVec F S100000x64 .f32) (batch : IVec S100000 32) : FVec F S128x64 .f32 :=
  Host.scatterAdd scatter_S128x64_S100000x1_S100000x64_1_0_0_1
    (broadcastInDim S128x64 ![] bcast_S_S128x64 (constant S_ .f32 0x00000000#32))
    (broadcastInDim S100000x1 ![0] bcast_S100000_S100000x1_0 batch) o

/-- The per-graph counts: a one added for every node into the row its graph id names. -/
def countsT (batch : IVec S100000 32) : FVec F S128x1 .f32 :=
  Host.scatterAdd scatter_S128x1_S100000x1_S100000x1_1_0_0_1
    (broadcastInDim S128x1 ![] bcast_S_S128x1 (constant S_ .f32 0x00000000#32))
    (broadcastInDim S100000x1 ![0] bcast_S100000_S100000x1_0 batch)
    (broadcastInDim S100000x1 ![] bcast_S_S100000x1 (constant S_ .f32 0x3F800000#32))

/-- The whole reference network as one function of @main's twenty-one arguments. -/
def netT (x0 : FVec F S100000x64 .f32) (x1 : IVec S2x1280000 32) (x2 : IVec S100000 32)
    (x3 : FVec F S64x64 .f32) (x4 : FVec F S64 .f32) (x5 : FVec F S64x64 .f32) (x6 x7 x8 x9 x10 : FVec F S64 .f32)
    (x11 : FVec F S4x64x64 .f32) (x12 : FVec F S4x64 .f32) (x13 : FVec F S4x64x64 .f32)
    (x14 x15 x16 x17 x18 : FVec F S4x64 .f32) (x19 : FVec F S64x64 .f32) (x20 : FVec F S64 .f32) : FVec F S128x64 .f32 :=
  let h1 := plainT x0 (aggT x0 x1) x3 x4 x5 x6 x7 x8 x9 x10
  let h2 := resT h1 (aggT h1 x1) (mat0 x11) (vec0 x12) (mat0 x13) (vec0 x14) (vec0 x15) (vec0 x16) (vec0 x17) (vec0 x18)
  let h3 := resT h2 (aggT h2 x1) (mat1 x11) (vec1 x12) (mat1 x13) (vec1 x14) (vec1 x15) (vec1 x16) (vec1 x17) (vec1 x18)
  let h4 := resT h3 (aggT h3 x1) (mat2 x11) (vec2 x12) (mat2 x13) (vec2 x14) (vec2 x15) (vec2 x16) (vec2 x17) (vec2 x18)
  let h5 := resT h4 (aggT h4 x1) (mat3 x11) (vec3 x12) (mat3 x13) (vec3 x14) (vec3 x15) (vec3 x16) (vec3 x17) (vec3 x18)
  meanT (sumsT (headT h5 x19 x20) x2) (countsT x2)

end Cert.ReferenceIdeal.Terms

end
-- ==== Proof.RefVal.lean ====
/-
  What the reference's six stretches of host operations leave in the buffers, stretch by stretch, and the result buffer's
  final contents as one function of @main's arguments.

  Each stretch is read from an arbitrary entry valuation `V`: its output buffer holds one layer (or the head and the
  pool) of what its input buffers held at entry, as an equation between compositions of the same printed operations.
  A stretch writes exactly one buffer per operation; every other buffer, the arguments in particular, holds after it
  what it held before. Folding the six stretches in a row, each layer's input is the previous stretch's output carried
  unchanged over the stretches in between, and the result buffer ends at the whole network of the launch arguments.
-/
import proofs.«425461_j52037823758418_1_alg».proof.Proof.RefOps
import proofs.«425461_j52037823758418_1_alg».proof.Proof.RTerms
import Idealize.ShloMosaic.Lib.Pipeline.Frame

noncomputable section

namespace Cert.ReferenceIdeal.RefVal

open Cert.ReferenceIdeal Cert.ReferenceIdeal.Gen Cert.ReferenceIdeal.RefOps Cert.ReferenceIdeal.Terms
open Idealize.ShloMosaic Idealize.ShloMosaic.TcCoe Idealize.SL.Sem Idealize.ShloMosaic.StableHlo

variable {F : FTy → Type} [FloatOps F]

/-! ## What each stretch leaves, from any entry contents `V` -/

set_option maxRecDepth 8192 in
/-- Stretch 1 leaves the edge list's first row in `main_v1`. -/
theorem s1_v1 (V : Valuation τ sig (Elt F)) :
    after ops1 V (Proc.devRef .tc main_v1) = srcRow (V (Proc.devRef .tc main_arg1)) := by
  after_results_simp
  rfl

set_option maxRecDepth 8192 in
/-- Stretch 1 leaves the edge list's second row in `main_v3`. -/
theorem s1_v3 (V : Valuation τ sig (Elt F)) :
    after ops1 V (Proc.devRef .tc main_v3) = dstRow (V (Proc.devRef .tc main_arg1)) := by
  after_results_simp
  rfl

set_option maxRecDepth 8192 in
/-- Stretch 1 leaves the first layer (no residual) of the node features in `main_v39`. -/
theorem s1_v39 (V : Valuation τ sig (Elt F)) :
    after ops1 V (Proc.devRef .tc main_v39)
      = plainT (V (Proc.devRef .tc main_arg0)) (aggOf (V (Proc.devRef .tc main_arg0)) (srcRow (V (Proc.devRef .tc main_arg1))) (dstRow (V (Proc.devRef .tc main_arg1))))
          (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  after_results_simp
  rfl

set_option maxRecDepth 8192 in
/-- Stretch 2 leaves in `main_v92` the residual layer, with the stacks' slice 0, of what `main_v39` held, over the rows
    `main_v1` and `main_v3` held. -/
theorem s2_v92 (V : Valuation τ sig (Elt F)) :
    after ops2 V (Proc.devRef .tc main_v92)
      = resT (V (Proc.devRef .tc main_v39)) (aggOf (V (Proc.devRef .tc main_v39)) (V (Proc.devRef .tc main_v1)) (V (Proc.devRef .tc main_v3)))
          (mat0 (V (Proc.devRef .tc main_arg11))) (vec0 (V (Proc.devRef .tc main_arg12))) (mat0 (V (Proc.devRef .tc main_arg13))) (vec0 (V (Proc.devRef .tc main_arg14)))
          (vec0 (V (Proc.devRef .tc main_arg15))) (vec0 (V (Proc.devRef .tc main_arg16))) (vec0 (V (Proc.devRef .tc main_arg17))) (vec0 (V (Proc.devRef .tc main_arg18))) := by
  after_results_simp
  rfl

set_option maxRecDepth 8192 in
/-- Stretch 3 leaves in `main_v145` the residual layer, with the stacks' slice 1, of what `main_v92` held, over the rows
    `main_v1` and `main_v3` held. -/
theorem s3_v145 (V : Valuation τ sig (Elt F)) :
    after ops3 V (Proc.devRef .tc main_v145)
      = resT (V (Proc.devRef .tc main_v92)) (aggOf (V (Proc.devRef .tc main_v92)) (V (Proc.devRef .tc main_v1)) (V (Proc.devRef .tc main_v3)))
          (mat1 (V (Proc.devRef .tc main_arg11))) (vec1 (V (Proc.devRef .tc main_arg12))) (mat1 (V (Proc.devRef .tc main_arg13))) (vec1 (V (Proc.devRef .tc main_arg14)))
          (vec1 (V (Proc.devRef .tc main_arg15))) (vec1 (V (Proc.devRef .tc main_arg16))) (vec1 (V (Proc.devRef .tc main_arg17))) (vec1 (V (Proc.devRef .tc main_arg18))) := by
  after_results_simp
  rfl

set_option maxRecDepth 8192 in
/-- Stretch 4 leaves in `main_v198` the residual layer, with the stacks' slice 2, of what `main_v145` held, over the rows
    `main_v1` and `main_v3` held. -/
theorem s4_v198 (V : Valuation τ sig (Elt F)) :
    after ops4 V (Proc.devRef .tc main_v198)
      = resT (V (Proc.devRef .tc main_v145)) (aggOf (V (Proc.devRef .tc main_v145)) (V (Proc.devRef .tc main_v1)) (V (Proc.devRef .tc main_v3)))
          (mat2 (V (Proc.devRef .tc main_arg11))) (vec2 (V (Proc.devRef .tc main_arg12))) (mat2 (V (Proc.devRef .tc main_arg13))) (vec2 (V (Proc.devRef .tc main_arg14)))
          (vec2 (V (Proc.devRef .tc main_arg15))) (vec2 (V (Proc.devRef .tc main_arg16))) (vec2 (V (Proc.devRef .tc main_arg17))) (vec2 (V (Proc.devRef .tc main_arg18))) := by
  after_results_simp
  rfl

set_option maxRecDepth 8192 in
/-- Stretch 5 leaves in `main_v251` the residual layer, with the stacks' slice 3, of what `main_v198` held, over the rows
    `main_v1` and `main_v3` held. -/
theorem s5_v251 (V : Valuation τ sig (Elt F)) :
    after ops5 V (Proc.devRef .tc main_v251)
      = resT (V (Proc.devRef .tc main_v198)) (aggOf (V (Proc.devRef .tc main_v198)) (V (Proc.devRef .tc main_v1)) (V (Proc.devRef .tc main_v3)))
          (mat3 (V (Proc.devRef .tc main_arg11))) (vec3 (V (Proc.devRef .tc main_arg12))) (mat3 (V (Proc.devRef .tc main_arg13))) (vec3 (V (Proc.devRef .tc main_arg14)))
          (vec3 (V (Proc.devRef .tc main_arg15))) (vec3 (V (Proc.devRef .tc main_arg16))) (vec3 (V (Proc.devRef .tc main_arg17))) (vec3 (V (Proc.devRef .tc main_arg18))) := by
  after_results_simp
  rfl

set_option maxRecDepth 8192 in
/-- Stretch 6 leaves in `main_v267` the per-graph mean of the head of what `main_v251` held. -/
theorem s6_v267 (V : Valuation τ sig (Elt F)) :
    after ops6 V (Proc.devRef .tc main_v267)
      = meanT (sumsT (headT (V (Proc.devRef .tc main_v251)) (V (Proc.devRef .tc main_arg19)) (V (Proc.devRef .tc main_arg20))) (V (Proc.devRef .tc main_arg2))) (countsT (V (Proc.devRef .tc main_arg2))) := by
  after_results_simp
  rfl

/-! ## What a stretch does not write it keeps -/

/-- A reference in a list, as a device buffer in the list's set of device buffers. -/
theorem sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- @main's twenty-one arguments. -/
abbrev args : List (Ref sig .tc) :=
  [main_arg0, main_arg1, main_arg2, main_arg3, main_arg4, main_arg5, main_arg6, main_arg7, main_arg8, main_arg9, main_arg10,
      main_arg11, main_arg12, main_arg13, main_arg14, main_arg15, main_arg16, main_arg17, main_arg18, main_arg19, main_arg20]

/-- The buffers stretch 1 writes, one per operation, in order. -/
abbrev wr1 : List (Ref sig .tc) :=
  [
    main_v0, main_v1, main_v2, main_v3, main_c, main_v4, main_v5, main_c_0, main_v6, main_v7, main_v8, main_v9,
    main_v10, main_cst, main_v11, main_v12, main_v13, main_v14, main_v15, main_v16, main_v17, main_v18, main_call0_cst, main_call0_v0,
    main_v19, main_v20, main_v21, main_v22, main_v23, main_call1_cst, main_call1_v0, main_v24, main_v25, main_v26, main_v27, main_cst_1,
    main_v28, main_v29, main_v30, main_v31, main_v32, main_v33, main_v34, main_v35, main_v36, main_v37, main_v38, main_v39 ]

set_option maxRecDepth 8192 in
theorem ops1_writes :
    (ops1 : List (HloOp τ sig (Elt F))).Forall fun op => op.writes ⊆ (wr1.map (Proc.devRef (τ := τ) .tc)).toFinset := by
  simp only [List.Forall]
  repeat' apply And.intro
  all_goals exact sub_of_mem (by decide)

/-- A buffer stretch 1 does not write keeps its contents over it. -/
theorem kept1 (V : Valuation τ sig (Elt F)) {r : Ref sig .tc} (hr : r ∉ wr1) :
    after ops1 V (Proc.devRef .tc r) = V (Proc.devRef .tc r) :=
  after_of_writes_sub ops1 V ops1_writes hr

theorem args_not_wr1 : ∀ b ∈ args, b ∉ wr1 := by decide

/-- The buffers stretch 2 writes, one per operation, in order. -/
abbrev wr2 : List (Ref sig .tc) :=
  [
    main_v40, main_v41, main_v42, main_v43, main_v44, main_v45, main_v46, main_v47, main_v48, main_v49, main_v50, main_v51,
    main_v52, main_v53, main_v54, main_v55, main_c_2, main_v56, main_v57, main_c_3, main_v58, main_v59, main_v60, main_v61,
    main_v62, main_cst_4, main_v63, main_v64, main_v65, main_v66, main_v67, main_v68, main_v69, main_v70, main_call2_cst, main_call2_v0,
    main_v71, main_v72, main_v73, main_v74, main_v75, main_call3_cst, main_call3_v0, main_v76, main_v77, main_v78, main_v79, main_cst_5,
    main_v80, main_v81, main_v82, main_v83, main_v84, main_v85, main_v86, main_v87, main_v88, main_v89, main_v90, main_v91,
    main_v92 ]

set_option maxRecDepth 8192 in
theorem ops2_writes :
    (ops2 : List (HloOp τ sig (Elt F))).Forall fun op => op.writes ⊆ (wr2.map (Proc.devRef (τ := τ) .tc)).toFinset := by
  simp only [List.Forall]
  repeat' apply And.intro
  all_goals exact sub_of_mem (by decide)

/-- A buffer stretch 2 does not write keeps its contents over it. -/
theorem kept2 (V : Valuation τ sig (Elt F)) {r : Ref sig .tc} (hr : r ∉ wr2) :
    after ops2 V (Proc.devRef .tc r) = V (Proc.devRef .tc r) :=
  after_of_writes_sub ops2 V ops2_writes hr

theorem args_not_wr2 : ∀ b ∈ args, b ∉ wr2 := by decide

/-- The buffers stretch 3 writes, one per operation, in order. -/
abbrev wr3 : List (Ref sig .tc) :=
  [
    main_v93, main_v94, main_v95, main_v96, main_v97, main_v98, main_v99, main_v100, main_v101, main_v102, main_v103, main_v104,
    main_v105, main_v106, main_v107, main_v108, main_c_6, main_v109, main_v110, main_c_7, main_v111, main_v112, main_v113, main_v114,
    main_v115, main_cst_8, main_v116, main_v117, main_v118, main_v119, main_v120, main_v121, main_v122, main_v123, main_call4_cst, main_call4_v0,
    main_v124, main_v125, main_v126, main_v127, main_v128, main_call5_cst, main_call5_v0, main_v129, main_v130, main_v131, main_v132, main_cst_9,
    main_v133, main_v134, main_v135, main_v136, main_v137, main_v138, main_v139, main_v140, main_v141, main_v142, main_v143, main_v144,
    main_v145 ]

set_option maxRecDepth 8192 in
theorem ops3_writes :
    (ops3 : List (HloOp τ sig (Elt F))).Forall fun op => op.writes ⊆ (wr3.map (Proc.devRef (τ := τ) .tc)).toFinset := by
  simp only [List.Forall]
  repeat' apply And.intro
  all_goals exact sub_of_mem (by decide)

/-- A buffer stretch 3 does not write keeps its contents over it. -/
theorem kept3 (V : Valuation τ sig (Elt F)) {r : Ref sig .tc} (hr : r ∉ wr3) :
    after ops3 V (Proc.devRef .tc r) = V (Proc.devRef .tc r) :=
  after_of_writes_sub ops3 V ops3_writes hr

theorem args_not_wr3 : ∀ b ∈ args, b ∉ wr3 := by decide

/-- The buffers stretch 4 writes, one per operation, in order. -/
abbrev wr4 : List (Ref sig .tc) :=
  [
    main_v146, main_v147, main_v148, main_v149, main_v150, main_v151, main_v152, main_v153, main_v154, main_v155, main_v156, main_v157,
    main_v158, main_v159, main_v160, main_v161, main_c_10, main_v162, main_v163, main_c_11, main_v164, main_v165, main_v166, main_v167,
    main_v168, main_cst_12, main_v169, main_v170, main_v171, main_v172, main_v173, main_v174, main_v175, main_v176, main_call6_cst, main_call6_v0,
    main_v177, main_v178, main_v179, main_v180, main_v181, main_call7_cst, main_call7_v0, main_v182, main_v183, main_v184, main_v185, main_cst_13,
    main_v186, main_v187, main_v188, main_v189, main_v190, main_v191, main_v192, main_v193, main_v194, main_v195, main_v196, main_v197,
    main_v198 ]

set_option maxRecDepth 8192 in
theorem ops4_writes :
    (ops4 : List (HloOp τ sig (Elt F))).Forall fun op => op.writes ⊆ (wr4.map (Proc.devRef (τ := τ) .tc)).toFinset := by
  simp only [List.Forall]
  repeat' apply And.intro
  all_goals exact sub_of_mem (by decide)

/-- A buffer stretch 4 does not write keeps its contents over it. -/
theorem kept4 (V : Valuation τ sig (Elt F)) {r : Ref sig .tc} (hr : r ∉ wr4) :
    after ops4 V (Proc.devRef .tc r) = V (Proc.devRef .tc r) :=
  after_of_writes_sub ops4 V ops4_writes hr

theorem args_not_wr4 : ∀ b ∈ args, b ∉ wr4 := by decide

/-- The buffers stretch 5 writes, one per operation, in order. -/
abbrev wr5 : List (Ref sig .tc) :=
  [
    main_v199, main_v200, main_v201, main_v202, main_v203, main_v204, main_v205, main_v206, main_v207, main_v208, main_v209, main_v210,
    main_v211, main_v212, main_v213, main_v214, main_c_14, main_v215, main_v216, main_c_15, main_v217, main_v218, main_v219, main_v220,
    main_v221, main_cst_16, main_v222, main_v223, main_v224, main_v225, main_v226, main_v227, main_v228, main_v229, main_call8_cst, main_call8_v0,
    main_v230, main_v231, main_v232, main_v233, main_v234, main_call9_cst, main_call9_v0, main_v235, main_v236, main_v237, main_v238, main_cst_17,
    main_v239, main_v240, main_v241, main_v242, main_v243, main_v244, main_v245, main_v246, main_v247, main_v248, main_v249, main_v250,
    main_v251 ]

set_option maxRecDepth 8192 in
theorem ops5_writes :
    (ops5 : List (HloOp τ sig (Elt F))).Forall fun op => op.writes ⊆ (wr5.map (Proc.devRef (τ := τ) .tc)).toFinset := by
  simp only [List.Forall]
  repeat' apply And.intro
  all_goals exact sub_of_mem (by decide)

/-- A buffer stretch 5 does not write keeps its contents over it. -/
theorem kept5 (V : Valuation τ sig (Elt F)) {r : Ref sig .tc} (hr : r ∉ wr5) :
    after ops5 V (Proc.devRef .tc r) = V (Proc.devRef .tc r) :=
  after_of_writes_sub ops5 V ops5_writes hr

theorem args_not_wr5 : ∀ b ∈ args, b ∉ wr5 := by decide

/-- The buffers stretch 6 writes, one per operation, in order. -/
abbrev wr6 : List (Ref sig .tc) :=
  [
    main_v252, main_v253, main_v254, main_v255, main_v256, main_cst_18, main_v257, main_v258, main_v259, main_cst_19, main_v260, main_cst_20,
    main_v261, main_v262, main_v263, main_cst_21, main_v264, main_v265, main_v266, main_v267 ]

set_option maxRecDepth 8192 in
theorem ops6_writes :
    (ops6 : List (HloOp τ sig (Elt F))).Forall fun op => op.writes ⊆ (wr6.map (Proc.devRef (τ := τ) .tc)).toFinset := by
  simp only [List.Forall]
  repeat' apply And.intro
  all_goals exact sub_of_mem (by decide)

/-- A buffer stretch 6 does not write keeps its contents over it. -/
theorem kept6 (V : Valuation τ sig (Elt F)) {r : Ref sig .tc} (hr : r ∉ wr6) :
    after ops6 V (Proc.devRef .tc r) = V (Proc.devRef .tc r) :=
  after_of_writes_sub ops6 V ops6_writes hr

theorem args_not_wr6 : ∀ b ∈ args, b ∉ wr6 := by decide

/-- `kept1` once more: a buffer stretch 1 does not write keeps its contents over it. -/
theorem kept1' (V : Valuation τ sig (Elt F)) {r : Ref sig .tc} (hr : r ∉ wr1) :
    after ops1 V (no_index (Proc.devRef .tc r)) = V (Proc.devRef .tc r) := kept1 V hr

/-- `kept2` once more: a buffer stretch 2 does not write keeps its contents over it. -/
theorem kept2' (V : Valuation τ sig (Elt F)) {r : Ref sig .tc} (hr : r ∉ wr2) :
    after ops2 V (no_index (Proc.devRef .tc r)) = V (Proc.devRef .tc r) := kept2 V hr

/-- `kept3` once more: a buffer stretch 3 does not write keeps its contents over it. -/
theorem kept3' (V : Valuation τ sig (Elt F)) {r : Ref sig .tc} (hr : r ∉ wr3) :
    after ops3 V (no_index (Proc.devRef .tc r)) = V (Proc.devRef .tc r) := kept3 V hr

/-- `kept4` once more: a buffer stretch 4 does not write keeps its contents over it. -/
theorem kept4' (V : Valuation τ sig (Elt F)) {r : Ref sig .tc} (hr : r ∉ wr4) :
    after ops4 V (no_index (Proc.devRef .tc r)) = V (Proc.devRef .tc r) := kept4 V hr

/-- `kept5` once more: a buffer stretch 5 does not write keeps its contents over it. -/
theorem kept5' (V : Valuation τ sig (Elt F)) {r : Ref sig .tc} (hr : r ∉ wr5) :
    after ops5 V (no_index (Proc.devRef .tc r)) = V (Proc.devRef .tc r) := kept5 V hr

/-! ## The six stretches in a row -/

set_option maxRecDepth 8192 in
/-- From any entry contents, the result buffer after all six stretches holds the network of what the arguments' buffers
    held: stretch 6 reads stretch 5's output, which reads stretch 4's, and so on down to stretch 1; the rows of the edge
    list (`main_v1`, `main_v3`), written by stretch 1 only, and the arguments, written by none, are carried over every
    stretch in between. -/
theorem net_eq (V : Valuation τ sig (Elt F)) :
    after opsAll V (Proc.devRef .tc main_v267) = netT (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8))
      (V (Proc.devRef .tc main_arg9)) (V (Proc.devRef .tc main_arg10)) (V (Proc.devRef .tc main_arg11))
      (V (Proc.devRef .tc main_arg12)) (V (Proc.devRef .tc main_arg13)) (V (Proc.devRef .tc main_arg14))
      (V (Proc.devRef .tc main_arg15)) (V (Proc.devRef .tc main_arg16)) (V (Proc.devRef .tc main_arg17))
      (V (Proc.devRef .tc main_arg18)) (V (Proc.devRef .tc main_arg19)) (V (Proc.devRef .tc main_arg20)) := by
  rw [after_append, after_append, after_append, after_append, after_append]
  rw [s6_v267, s5_v251, s4_v198, s3_v145, s2_v92]
  simp (disch := decide) only [kept1', kept2', kept3', kept4', kept5']
  rw [s1_v39, s1_v1, s1_v3]
  rfl

/-- The result buffer after all of @main's operations, from the launch memory `m`: the network of the arguments. -/
theorem result_eq (m : (ℓ : Loc nD τ sig) → Buf (Elt F) ℓ) (c : Dev nD) :
    after opsAll (launchContents m c) (Proc.devRef .tc main_v267)
      = netT (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20)) :=
  net_eq (launchContents m c)

/-- No operation of @main writes an argument: each ends as launched. -/
theorem arg_kept (m : (ℓ : Loc nD τ sig) → Buf (Elt F) ℓ) (c : Dev nD) (b : Ref sig .tc)
    (hb : b ∈ [main_arg0, main_arg1, main_arg2, main_arg3, main_arg4, main_arg5, main_arg6, main_arg7, main_arg8, main_arg9, main_arg10,
      main_arg11, main_arg12, main_arg13, main_arg14, main_arg15, main_arg16, main_arg17, main_arg18, main_arg19, main_arg20]) :
    after opsAll (launchContents m c) (Proc.devRef .tc b) = m ((c.tc : Thread nD τ).loc b) := by
  rw [after_append, after_append, after_append, after_append, after_append,
    kept6 _ (args_not_wr6 b hb), kept5 _ (args_not_wr5 b hb), kept4 _ (args_not_wr4 b hb), kept3 _ (args_not_wr3 b hb),
    kept2 _ (args_not_wr2 b hb), kept1 _ (args_not_wr1 b hb)]

end Cert.ReferenceIdeal.RefVal

end
-- ==== Proof.RefLayer.lean ====
/-
  The reference's layer and head, read row by row on the extended reals.

  A layer adds the neighbour sums to the node features, maps every row through two affine maps, each followed by a clamp
  at zero, and normalises every feature; the head maps every row through one affine map and tanh. Read at row r, feature
  q, a product with a weight matrix is the sum over the contracted feature, a vector laid over the rows is its entry at
  q, and the host's reciprocal square root and tanh are the extended reals' own.
-/
import proofs.«425461_j52037823758418_1_alg».proof.Proof.RTerms
import proofs.«425461_j52037823758418_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefLayer

open Idealize.ShloMosaic Idealize.ShloMosaic.ValueIdx Cert.ReferenceIdeal Cert.ReferenceIdeal.Gen Cert.ReferenceIdeal.Terms Cert.GinSpec

/-! ## The product with a weight matrix, read at a row and a feature -/

/-- The product's left operand is read at the output's row … -/
theorem lhs_0 (i : S100000x64.Idx) (k : dot_S100000x64_S64x64_S100000x64_1_0_0_1_n_n.contr.Idx) :
    (dot_S100000x64_S64x64_S100000x64_1_0_0_1_n_n.lhsIdx i k 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
/-- … and the contracted feature; -/
theorem lhs_1 (i : S100000x64.Idx) (k : dot_S100000x64_S64x64_S100000x64_1_0_0_1_n_n.contr.Idx) :
    (dot_S100000x64_S64x64_S100000x64_1_0_0_1_n_n.lhsIdx i k 1).val = (k ⟨0, by decide⟩).val :=
  dot_S100000x64_S64x64_S100000x64_1_0_0_1_n_n.lhsIdx_val_of_single rfl i k
/-- the right operand at the contracted feature … -/
theorem rhs_0 (i : S100000x64.Idx) (k : dot_S100000x64_S64x64_S100000x64_1_0_0_1_n_n.contr.Idx) :
    (dot_S100000x64_S64x64_S100000x64_1_0_0_1_n_n.rhsIdx i k 0).val = (k ⟨0, by decide⟩).val :=
  dot_S100000x64_S64x64_S100000x64_1_0_0_1_n_n.rhsIdx_val_of_single rfl i k
/-- … and the output's feature. -/
theorem rhs_1 (i : S100000x64.Idx) (k : dot_S100000x64_S64x64_S100000x64_1_0_0_1_n_n.contr.Idx) :
    (dot_S100000x64_S64x64_S100000x64_1_0_0_1_n_n.rhsIdx i k 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The array times a weight matrix, at row `r`, feature `q`: the sum over the contracted feature `l` of the array's
    `(r, l)` times the matrix's `(l, q)`. -/
theorem dot_row (z : FVec Ideal S100000x64 .f32) (W : FVec Ideal S64x64 .f32) (r : Fin 100000) (q : Fin 64) :
    Host.dotGeneral dot_S100000x64_S64x64_S100000x64_1_0_0_1_n_n none z W (ix2 r q) = ∑ l : Fin 64, z (ix2 r l) * W (ix2 l q) := by
  refine (Ideal.dotGeneral_apply dot_S100000x64_S64x64_S100000x64_1_0_0_1_n_n none .single z W (ix2 r q)).trans ?_
  rw [← Equiv.sum_comp (contrEquiv1 dot_S100000x64_S64x64_S100000x64_1_0_0_1_n_n 64 rfl rfl).symm]
  refine Finset.sum_congr rfl fun l _ => ?_
  have hk := contrEquiv1_symm_val dot_S100000x64_S64x64_S100000x64_1_0_0_1_n_n 64 rfl rfl l
  have el : dot_S100000x64_S64x64_S100000x64_1_0_0_1_n_n.lhsIdx (ix2 r q)
      ((contrEquiv1 dot_S100000x64_S64x64_S100000x64_1_0_0_1_n_n 64 rfl rfl).symm l) = ix2 r l := funext fun a => Fin.ext (by
    match a with
    | ⟨0, _⟩ => exact lhs_0 _ _
    | ⟨1, _⟩ => exact (lhs_1 _ _).trans hk)
  have er : dot_S100000x64_S64x64_S100000x64_1_0_0_1_n_n.rhsIdx (ix2 r q)
      ((contrEquiv1 dot_S100000x64_S64x64_S100000x64_1_0_0_1_n_n 64 rfl rfl).symm l) = ix2 l q := funext fun a => Fin.ext (by
    match a with
    | ⟨0, _⟩ => exact (rhs_0 _ _).trans hk
    | ⟨1, _⟩ => exact rhs_1 _ _)
  rw [el, er]

/-! ## Vectors and constants laid over the rows -/

/-- A per-feature vector laid over all rows reads, at row `r`, feature `q`, its entry `q`. -/
theorem overRows_apply (b : FVec Ideal S64 .f32) (r : Fin 100000) (q : Fin 64) :
    overRows b (ix2 r q) = b (ix1 q) := by
  unfold overRows
  refine (broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The zero laid over all rows and features reads the zero word's value everywhere. -/
theorem zeroRows_apply (i : S100000x64.Idx) : zeroRows (F := Ideal) i = zeroW := by
  unfold zeroRows
  exact broadcastInDim_apply _ bcast_S_S100000x64 (constant (F := Ideal) S_ .f32 0x00000000#32) i (fun a => a.elim0)
    (fun a => a.elim0)

/-- Epsilon laid over the features reads epsilon's value everywhere. -/
theorem eps_apply (i : S64.Idx) :
    broadcastInDim S64 ![] bcast_S_S64 (constant (F := Ideal) S_ .f32 0x3727C5AC#32) i = epsW :=
  broadcastInDim_apply _ bcast_S_S64 (constant (F := Ideal) S_ .f32 0x3727C5AC#32) i (fun a => a.elim0) (fun a => a.elim0)

/-! ## The layer's pieces at a row and a feature -/

/-- One clamped affine map of every row, at row `r`, feature `q`: the affine map of row `r`, clamped at zero. -/
theorem dense_apply (z : FVec Ideal S100000x64 .f32) (W : FVec Ideal S64x64 .f32) (b : FVec Ideal S64 .f32)
    (r : Fin 100000) (q : Fin 64) :
    dense z W b (ix2 r q) = max (affine (fun l => z (ix2 r l)) W b q) zeroW := by
  unfold dense
  refine (maximumf_apply _ _ _).trans ?_
  refine congrArg₂ max ?_ (zeroRows_apply _)
  refine (addf_apply _ _ _).trans ?_
  unfold affine
  exact congrArg₂ (· + ·) (dot_row z W r q) (overRows_apply b r q)

/-- The normalisation of every row, at row `r`, feature `q`. -/
theorem normT_apply (z : FVec Ideal S100000x64 .f32) (g be mu v : FVec Ideal S64 .f32) (r : Fin 100000) (q : Fin 64) :
    normT z g be mu v (ix2 r q)
      = ((z (ix2 r q) - mu (ix1 q)) * Ideal.rsqrt (v (ix1 q) + epsW)) * g (ix1 q) + be (ix1 q) := by
  unfold normT
  refine (addf_apply _ _ _).trans ?_
  refine congrArg₂ (· + ·) ?_ (overRows_apply be r q)
  refine (mulf_apply _ _ _).trans ?_
  refine congrArg₂ (· * ·) ?_ (overRows_apply g r q)
  refine (mulf_apply _ _ _).trans ?_
  refine congrArg₂ (· * ·) ?_ ((overRows_apply _ r q).trans ?_)
  · refine (subf_apply _ _ _).trans ?_
    exact congrArg (fun t => z (ix2 r q) - t) (overRows_apply mu r q)
  · show Ideal.rsqrt (v (ix1 q) + _) = _
    exact congrArg (fun t => Ideal.rsqrt (v (ix1 q) + t)) (eps_apply (ix1 q))

/-- The layer without the residual, at row `r`, feature `q`: the specification's plain row of row `r`. -/
theorem plainT_apply (h a : FVec Ideal S100000x64 .f32) (W1 : FVec Ideal S64x64 .f32) (b1 : FVec Ideal S64 .f32)
    (W2 : FVec Ideal S64x64 .f32) (b2 g be mu v : FVec Ideal S64 .f32) (r : Fin 100000) (q : Fin 64) :
    plainT h a W1 b1 W2 b2 g be mu v (ix2 r q)
      = rowPlain (fun l => h (ix2 r l)) (fun l => a (ix2 r l)) W1 b1 W2 b2 g be mu v q := by
  unfold plainT
  refine (normT_apply _ g be mu v r q).trans ?_
  refine congrArg (fun t => ((t - mu (ix1 q)) * Ideal.rsqrt (v (ix1 q) + epsW)) * g (ix1 q) + be (ix1 q)) ?_
  refine (dense_apply _ W2 b2 r q).trans ?_
  refine congrArg (fun f => max (affine f W2 b2 q) zeroW) ?_
  funext k
  exact dense_apply (addf h a) W1 b1 r k

/-! ## The three equalities -/

/-- The layer without the residual is the plain layer of the specification. -/
theorem plain_eq (h a : FVec Ideal S100000x64 .f32) (W1 : FVec Ideal S64x64 .f32) (b1 : FVec Ideal S64 .f32)
    (W2 : FVec Ideal S64x64 .f32) (b2 g be mu v : FVec Ideal S64 .f32) :
    plainT h a W1 b1 W2 b2 g be mu v = layerPlain h a W1 b1 W2 b2 g be mu v := by
  funext i
  obtain ⟨r, q, rfl⟩ : ∃ (r : Fin 100000) (q : Fin 64), i = ix2 r q := ⟨i 0, i 1, eq_ix2 i⟩
  exact plainT_apply h a W1 b1 W2 b2 g be mu v r q

/-- The layer with the residual is the residual layer of the specification. -/
theorem res_eq (h a : FVec Ideal S100000x64 .f32) (W1 : FVec Ideal S64x64 .f32) (b1 : FVec Ideal S64 .f32)
    (W2 : FVec Ideal S64x64 .f32) (b2 g be mu v : FVec Ideal S64 .f32) :
    resT h a W1 b1 W2 b2 g be mu v = layerRes h a W1 b1 W2 b2 g be mu v := by
  funext i
  obtain ⟨r, q, rfl⟩ : ∃ (r : Fin 100000) (q : Fin 64), i = ix2 r q := ⟨i 0, i 1, eq_ix2 i⟩
  unfold resT
  refine (addf_apply _ _ _).trans ?_
  exact congrArg (fun t => h (ix2 r q) + t) (plainT_apply h a W1 b1 W2 b2 g be mu v r q)

/-- The head is the head of the specification. -/
theorem head_eq (h : FVec Ideal S100000x64 .f32) (W : FVec Ideal S64x64 .f32) (b : FVec Ideal S64 .f32) :
    headT h W b = head h W b := by
  funext i
  obtain ⟨r, q, rfl⟩ : ∃ (r : Fin 100000) (q : Fin 64), i = ix2 r q := ⟨i 0, i 1, eq_ix2 i⟩
  unfold headT
  show Ideal.tanh (_ + _) = _
  exact congrArg Ideal.tanh (congrArg₂ (· + ·) (dot_row h W r q) (overRows_apply b r q))

end Cert.ReferenceIdeal.RefLayer

end
-- ==== Proof.ScatterRead.lean ====
/-
  A row scatter with an additive body, read at one element.

  The scatter indices are a column of N words; update row `n` is added to the operand's row whose number is the
  word at `n` read as a signed integer, feature by feature; a row whose word names no row of the operand is
  dropped. At the extended reals the result at row `g`, feature `q` is therefore the operand's element plus the
  sum, over the update rows `n` whose word is `g`, of the update's element at `(n, q)`.
-/
import Idealize.ShloMosaic.PureOps.Ideal
import Idealize.ShloMosaic.PureOps.Ideal.Laws
import Idealize.ShloMosaic.Lib.ValueIdx

noncomputable section

namespace Cert.ScatterRead

open Idealize.ShloMosaic Idealize.ShloMosaic.ValueIdx

/-- The row scatter's dimension numbers: the updates' axis 1 is the window, the operand's axis 0 is inserted and is
    the one the index names, the index vector is the indices' axis 1. -/
abbrev rowDims (G H N : Nat) (wf : ScatterDims.WF ⟨2, ![G, H]⟩ ⟨2, ![N, 1]⟩ ⟨2, ![N, H]⟩ [1] [0] [0] 1) :
    ScatterDims ⟨2, ![G, H]⟩ ⟨2, ![N, 1]⟩ ⟨2, ![N, H]⟩ := ⟨[1], [0], [0], 1, wf⟩

variable {G H N : Nat} (wf : ScatterDims.WF ⟨2, ![G, H]⟩ ⟨2, ![N, 1]⟩ ⟨2, ![N, H]⟩ [1] [0] [0] 1)

theorem kept_u : (⟨2, ![N, H]⟩ : Shape).kept [(1 : Fin 2)] = [(0 : Fin 2)] := rfl
theorem kept_s : (⟨2, ![G, H]⟩ : Shape).kept [(0 : Fin 2)] = [(1 : Fin 2)] := rfl
theorem siKept_eq : (rowDims G H N wf).siKept = [(0 : Fin 2)] := rfl

theorem window0 (j : (⟨2, ![N, H]⟩ : Shape).Idx) : (rowDims G H N wf).window j (0 : Fin 2) = 0 := by
  unfold ScatterDims.window
  rw [dif_neg (by rw [show (rowDims G H N wf).sKept = [(1 : Fin 2)] from rfl]; simp)]

theorem window1 (j : (⟨2, ![N, H]⟩ : Shape).Idx) : (rowDims G H N wf).window j (1 : Fin 2) = (j 1).val := by
  unfold ScatterDims.window
  rw [dif_pos (by rw [show (rowDims G H N wf).sKept = [(1 : Fin 2)] from rfl]; simp)]
  rfl

theorem siIdx0 (j : (⟨2, ![N, H]⟩ : Shape).Idx) (c : Fin (rowDims G H N wf).scatterDimsToOperandDims.length) :
    (rowDims G H N wf).siIdx j c = ix2 (j 0) (0 : Fin 1) := by
  funext b
  match b with
  | ⟨0, _⟩ => rfl
  | ⟨1, _⟩ =>
    apply Fin.ext
    have := c.isLt
    simp [ScatterDims.siIdx] at this ⊢

theorem start0 (j : (⟨2, ![N, H]⟩ : Shape).Idx) (idx : IVec ⟨2, ![N, 1]⟩ 32) :
    (rowDims G H N wf).start j idx (0 : Fin 2) = (idx (ix2 (j 0) (0 : Fin 1))).toInt := by
  unfold ScatterDims.start
  rw [dif_pos (by simp), siIdx0]
  rfl

theorem start1 (j : (⟨2, ![N, H]⟩ : Shape).Idx) (idx : IVec ⟨2, ![N, 1]⟩ 32) :
    (rowDims G H N wf).start j idx (1 : Fin 2) = 0 := by
  unfold ScatterDims.start
  rw [dif_neg (by simp)]

theorem resultIdx_eq_some_iff (j : (⟨2, ![N, H]⟩ : Shape).Idx) (idx : IVec ⟨2, ![N, 1]⟩ 32) (g : Fin G) (q : Fin H) :
    (rowDims G H N wf).resultIdx? j idx = some (ix2 g q)
      ↔ (idx (ix2 (j 0) (0 : Fin 1))).toInt = (g.val : ℤ) ∧ j 1 = q := by
  have hs0 := start0 wf j idx
  have hs1 := start1 wf j idx
  have hw0 := window0 wf j
  have hw1 := window1 wf j
  unfold ScatterDims.resultIdx?
  constructor
  · intro hr
    split at hr
    · rename_i h
      have hf := Option.some.inj hr
      have h0 := congrArg Fin.val (congrFun hf (0 : Fin 2))
      have h1 := congrArg Fin.val (congrFun hf (1 : Fin 2))
      have hh0 := (h (0 : Fin 2)).1
      simp only [hs0, hs1, hw0, hw1] at h0 h1 hh0
      have h0' : ((idx (ix2 (j 0) (0 : Fin 1))).toInt + ((0 : ℕ) : ℤ)).toNat = g.val := h0
      have h1' : ((0 : ℤ) + (((j 1).val : ℕ) : ℤ)).toNat = q.val := h1
      refine ⟨by omega, Fin.ext (by omega)⟩
    · exact absurd hr (by simp)
  · rintro ⟨h0, h1⟩
    have hg : (g.val : ℤ) < (G : ℤ) := by exact_mod_cast g.isLt
    have hq : ((j 1).val : ℤ) < (H : ℤ) := by rw [h1]; exact_mod_cast q.isLt
    have h : ∀ a, 0 ≤ (rowDims G H N wf).start j idx a + (rowDims G H N wf).window j a
        ∧ (rowDims G H N wf).start j idx a + (rowDims G H N wf).window j a < (⟨2, ![G, H]⟩ : Shape).size a := by
      intro a
      match a with
      | ⟨0, _⟩ =>
        show 0 ≤ (rowDims G H N wf).start j idx (0 : Fin 2) + (rowDims G H N wf).window j (0 : Fin 2)
          ∧ (rowDims G H N wf).start j idx (0 : Fin 2) + (rowDims G H N wf).window j (0 : Fin 2) < (G : ℤ)
        rw [hs0, hw0, h0]; omega
      | ⟨1, _⟩ =>
        show 0 ≤ (rowDims G H N wf).start j idx (1 : Fin 2) + (rowDims G H N wf).window j (1 : Fin 2)
          ∧ (rowDims G H N wf).start j idx (1 : Fin 2) + (rowDims G H N wf).window j (1 : Fin 2) < (H : ℤ)
        rw [hs1, hw1]; omega
    rw [dif_pos h]
    congr 1
    funext a
    apply Fin.ext
    match a with
    | ⟨0, _⟩ =>
      show ((rowDims G H N wf).start j idx (0 : Fin 2) + (rowDims G H N wf).window j (0 : Fin 2)).toNat = g.val
      rw [hs0, hw0, h0]; omega
    | ⟨1, _⟩ =>
      show ((rowDims G H N wf).start j idx (1 : Fin 2) + (rowDims G H N wf).window j (1 : Fin 2)).toNat = q.val
      rw [hs1, hw1, h1]; omega

/-- The additive row scatter at element `(g, q)`. -/
theorem hostScatterAdd_rows_apply {G H N : Nat} (wf : ScatterDims.WF ⟨2, ![G, H]⟩ ⟨2, ![N, 1]⟩ ⟨2, ![N, H]⟩ [1] [0] [0] 1)
    (x : (⟨2, ![G, H]⟩ : Shape).Idx → EReal) (idx : IVec ⟨2, ![N, 1]⟩ 32) (upd : (⟨2, ![N, H]⟩ : Shape).Idx → EReal)
    (g : Fin G) (q : Fin H) :
    Ideal.hostScatterAdd (rowDims G H N wf) x idx upd (ix2 g q)
      = x (ix2 g q) + ∑ n : Fin N, if (idx (ix2 n (0 : Fin 1))).toInt = (g.val : ℤ) then upd (ix2 n q) else 0 := by
  unfold Ideal.hostScatterAdd
  congr 1
  rw [Finset.sum_filter, sum_idx2]
  refine Finset.sum_congr rfl fun n _ => ?_
  have hcond : ∀ b : Fin H, ((rowDims G H N wf).resultIdx? (ix2 n b) idx = some (ix2 g q))
      ↔ ((idx (ix2 n (0 : Fin 1))).toInt = (g.val : ℤ) ∧ b = q) := fun b =>
    resultIdx_eq_some_iff wf (ix2 n b) idx g q
  simp only [hcond]
  by_cases hP : (idx (ix2 n (0 : Fin 1))).toInt = (g.val : ℤ)
  · simp only [hP, true_and, if_true]
    rw [Finset.sum_ite_eq' Finset.univ q (fun b => upd (ix2 n b))]
    simp
  · simp only [hP, false_and, if_false]
    exact Finset.sum_const_zero

end Cert.ScatterRead

end
-- ==== Proof.RefPool.lean ====
/-
  The reference's pooling, read graph by graph on the extended reals.

  The per-graph sums add every node's row into the row of a zero array that the node's graph id names, a node whose id
  names no row being dropped: graph g's row is the sum of the rows of the nodes whose id is g. The counts do the same
  with a one for every node. The mean divides the sums by the larger of the count and one.
-/
import proofs.«425461_j52037823758418_1_alg».proof.Proof.RTerms
import proofs.«425461_j52037823758418_1_alg».proof.Proof.Spec
import proofs.«425461_j52037823758418_1_alg».proof.Proof.ScatterRead
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefPool

open Idealize.ShloMosaic Idealize.ShloMosaic.ValueIdx Cert.ReferenceIdeal Cert.ReferenceIdeal.Gen Cert.ReferenceIdeal.Terms Cert.GinSpec

/-- The graph-id column at row `n` is node `n`'s id. -/
theorem batchCol_apply (batch : IVec S100000 32) (n : Fin 100000) :
    broadcastInDim S100000x1 ![0] bcast_S100000_S100000x1_0 batch (ix2 n (0 : Fin 1)) = batch (ix1 n) := by
  apply broadcastInDim_apply
  intro a
  match a with
  | ⟨0, _⟩ =>
    show n.val = if (100000 : ℕ) = 1 then 0 else n.val
    rw [if_neg (by norm_num)]

/-- A word read signed is `g` below 128 exactly when it is the word of `g`. -/
theorem toInt_eq_iff (w : BitVec 32) (g : Fin 128) : w.toInt = (g.val : ℤ) ↔ w = BitVec.ofNat 32 g.val := by
  have hg := g.isLt
  have hw := w.isLt
  have hc := BitVec.toInt_eq_toNat_cond w
  constructor
  · intro h
    apply BitVec.eq_of_toNat_eq
    rw [BitVec.toNat_ofNat, Nat.mod_eq_of_lt (by omega)]
    split at hc <;> omega
  · intro h
    have hn : w.toNat = g.val := by rw [h, BitVec.toNat_ofNat, Nat.mod_eq_of_lt (by omega)]
    split at hc <;> omega

/-- The word of the float one is the extended real `1`. -/
theorem ofBits_one_f32 : Ideal.ofBits .f32 0x3F800000#32 = 1 := IdealRules.sign_bit.ideal_onePat .f32

/-- The per-graph sums are the specification's. -/
theorem sums_eq (o : FVec Ideal S100000x64 .f32) (batch : IVec S100000 32) : sumsT o batch = poolSum o batch := by
  funext i
  obtain ⟨g, q, rfl⟩ : ∃ g q, i = ix2 g q := ⟨i 0, i 1, eq_ix2 i⟩
  unfold sumsT poolSum
  show Ideal.hostScatterAdd (Cert.ScatterRead.rowDims 128 64 100000 _) _ _ _ (ix2 g q) = _
  rw [Cert.ScatterRead.hostScatterAdd_rows_apply]
  show Ideal.ofBits .f32 0x00000000#32 + _ = _
  rw [Ideal.ofBits_zero_f32, zero_add]
  refine Finset.sum_congr rfl fun n _ => ?_
  rw [batchCol_apply]
  exact if_congr (toInt_eq_iff _ g) rfl rfl

/-- The per-graph counts are the specification's. -/
theorem counts_eq (batch : IVec S100000 32) : countsT (F := Ideal) batch = poolCount batch := by
  funext i
  obtain ⟨g, c, rfl⟩ : ∃ g c, i = ix2 g c := ⟨i 0, i 1, eq_ix2 i⟩
  unfold countsT poolCount
  show Ideal.hostScatterAdd (Cert.ScatterRead.rowDims 128 1 100000 _) _ _ _ (ix2 g c) = _
  rw [Cert.ScatterRead.hostScatterAdd_rows_apply]
  show Ideal.ofBits .f32 0x00000000#32 + _ = _
  rw [Ideal.ofBits_zero_f32, zero_add]
  refine Finset.sum_congr rfl fun n _ => ?_
  rw [batchCol_apply]
  exact if_congr (toInt_eq_iff _ g) ofBits_one_f32 rfl

/-- The mean is the specification's. -/
theorem mean_eq (s : FVec Ideal S128x64 .f32) (cn : FVec Ideal S128x1 .f32) : meanT s cn = poolMean s cn := by
  funext i
  obtain ⟨g, q, rfl⟩ : ∃ g q, i = ix2 g q := ⟨i 0, i 1, eq_ix2 i⟩
  unfold meanT poolMean
  show Ideal.div (s (ix2 g q)) (broadcastInDim S128x64 ![0, 1] _ (maximumf cn _) (ix2 g q)) = _
  rw [broadcastInDim_apply _ _ _ (ix2 g q) (ix2 g (0 : Fin 1)) (by
    intro a
    match a with
    | ⟨0, _⟩ =>
      show g.val = if (128 : ℕ) = 1 then 0 else g.val
      rw [if_neg (by norm_num)]
    | ⟨1, _⟩ =>
      show (0 : ℕ) = if (1 : ℕ) = 1 then 0 else q.val
      rw [if_pos rfl])]
  rfl

end Cert.ReferenceIdeal.RefPool

end
-- ==== Proof.RefChain.lean ====
/-
  The reference program's run with its result named, and the result as the specification's network.

  Every weakly fair execution of @main terminates, the arguments end unchanged, and the result buffer ends holding the
  network of the arguments: the five layers and the head read row by row, the pooled sums and counts graph by graph, the
  neighbour sums and the final mean left as the host operations they are.
-/
import proofs.«425461_j52037823758418_1_alg».proof.Proof.RefOps
import proofs.«425461_j52037823758418_1_alg».proof.Proof.RefVal
import proofs.«425461_j52037823758418_1_alg».proof.Proof.RefLayer
import proofs.«425461_j52037823758418_1_alg».proof.Proof.RefPool
import proofs.«425461_j52037823758418_1_alg».proof.Proof.Net

noncomputable section

namespace Cert.ReferenceIdeal.RefChain

open Cert.ReferenceIdeal Cert.ReferenceIdeal.Gen Cert.ReferenceIdeal.Terms Cert.GinSpec
open Idealize.ShloMosaic Idealize.ShloMosaic.TcCoe Idealize.SL.Sem Idealize.ShloMosaic.StableHlo

/-- On the extended reals the reference's network is the specification's, over the reference's own neighbour sums and mean. -/
theorem netT_eq (x0 : FVec Ideal S100000x64 .f32) (x1 : IVec S2x1280000 32) (x2 : IVec S100000 32)
    (x3 : FVec Ideal S64x64 .f32) (x4 : FVec Ideal S64 .f32) (x5 : FVec Ideal S64x64 .f32) (x6 x7 x8 x9 x10 : FVec Ideal S64 .f32)
    (x11 : FVec Ideal S4x64x64 .f32) (x12 : FVec Ideal S4x64 .f32) (x13 : FVec Ideal S4x64x64 .f32)
    (x14 x15 x16 x17 x18 : FVec Ideal S4x64 .f32) (x19 : FVec Ideal S64x64 .f32) (x20 : FVec Ideal S64 .f32) :
    netT (F := Ideal) x0 x1 x2 x3 x4 x5 x6 x7 x8 x9 x10 x11 x12 x13 x14 x15 x16 x17 x18 x19 x20
      = networkWith (meanT (F := Ideal)) (fun h => aggT (F := Ideal) h x1) x0 x2
          ⟨x3, x4, x5, x6, x7, x8, x9, x10⟩
          ⟨mat0 (F := Ideal) x11, vec0 (F := Ideal) x12, mat0 (F := Ideal) x13, vec0 (F := Ideal) x14, vec0 (F := Ideal) x15, vec0 (F := Ideal) x16, vec0 (F := Ideal) x17, vec0 (F := Ideal) x18⟩
          ⟨mat1 (F := Ideal) x11, vec1 (F := Ideal) x12, mat1 (F := Ideal) x13, vec1 (F := Ideal) x14, vec1 (F := Ideal) x15, vec1 (F := Ideal) x16, vec1 (F := Ideal) x17, vec1 (F := Ideal) x18⟩
          ⟨mat2 (F := Ideal) x11, vec2 (F := Ideal) x12, mat2 (F := Ideal) x13, vec2 (F := Ideal) x14, vec2 (F := Ideal) x15, vec2 (F := Ideal) x16, vec2 (F := Ideal) x17, vec2 (F := Ideal) x18⟩
          ⟨mat3 (F := Ideal) x11, vec3 (F := Ideal) x12, mat3 (F := Ideal) x13, vec3 (F := Ideal) x14, vec3 (F := Ideal) x15, vec3 (F := Ideal) x16, vec3 (F := Ideal) x17, vec3 (F := Ideal) x18⟩
          x19 x20 := by
  unfold netT networkWith plainOf resOf
  simp only [RefLayer.plain_eq, RefLayer.res_eq, RefLayer.head_eq, RefPool.sums_eq, RefPool.counts_eq]

variable {F : FTy → Type} [FloatOps F]

/-- The run, with the result buffer's final contents named. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v267)
        = netT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v267).trans (RefVal.result_eq m c),
      (h c main_arg0).trans (RefVal.arg_kept m c main_arg0 (by decide)),
      (h c main_arg1).trans (RefVal.arg_kept m c main_arg1 (by decide)),
      (h c main_arg2).trans (RefVal.arg_kept m c main_arg2 (by decide)),
      (h c main_arg3).trans (RefVal.arg_kept m c main_arg3 (by decide)),
      (h c main_arg4).trans (RefVal.arg_kept m c main_arg4 (by decide)),
      (h c main_arg5).trans (RefVal.arg_kept m c main_arg5 (by decide)),
      (h c main_arg6).trans (RefVal.arg_kept m c main_arg6 (by decide)),
      (h c main_arg7).trans (RefVal.arg_kept m c main_arg7 (by decide)),
      (h c main_arg8).trans (RefVal.arg_kept m c main_arg8 (by decide)),
      (h c main_arg9).trans (RefVal.arg_kept m c main_arg9 (by decide)),
      (h c main_arg10).trans (RefVal.arg_kept m c main_arg10 (by decide)),
      (h c main_arg11).trans (RefVal.arg_kept m c main_arg11 (by decide)),
      (h c main_arg12).trans (RefVal.arg_kept m c main_arg12 (by decide)),
      (h c main_arg13).trans (RefVal.arg_kept m c main_arg13 (by decide)),
      (h c main_arg14).trans (RefVal.arg_kept m c main_arg14 (by decide)),
      (h c main_arg15).trans (RefVal.arg_kept m c main_arg15 (by decide)),
      (h c main_arg16).trans (RefVal.arg_kept m c main_arg16 (by decide)),
      (h c main_arg17).trans (RefVal.arg_kept m c main_arg17 (by decide)),
      (h c main_arg18).trans (RefVal.arg_kept m c main_arg18 (by decide)),
      (h c main_arg19).trans (RefVal.arg_kept m c main_arg19 (by decide)),
      (h c main_arg20).trans (RefVal.arg_kept m c main_arg20 (by decide))⟩)
    (RefOps.run m ρ)

end Cert.ReferenceIdeal.RefChain

end
-- ==== Proof.Bridge.lean ====
/-
  The two programs print the same host operations for the neighbour sums, for picking a layer's parameters out of their
  stacks, and for the final mean: as functions of arrays they are the same functions.
-/
import proofs.«425461_j52037823758418_1_alg».proof.Proof.KTerms
import proofs.«425461_j52037823758418_1_alg».proof.Proof.RTerms

noncomputable section

namespace Cert.Bridge

open Idealize.ShloMosaic

variable {F : FTy → Type} [FloatOps F]

theorem meanT_eq : Cert.KernelIdeal.Terms.meanT (F := F) = Cert.ReferenceIdeal.Terms.meanT (F := F) := rfl
theorem aggT_eq : Cert.KernelIdeal.Terms.aggT (F := F) = Cert.ReferenceIdeal.Terms.aggT (F := F) := rfl
theorem mat0_eq : Cert.KernelIdeal.Terms.mat0 (F := F) = Cert.ReferenceIdeal.Terms.mat0 (F := F) := rfl
theorem mat1_eq : Cert.KernelIdeal.Terms.mat1 (F := F) = Cert.ReferenceIdeal.Terms.mat1 (F := F) := rfl
theorem mat2_eq : Cert.KernelIdeal.Terms.mat2 (F := F) = Cert.ReferenceIdeal.Terms.mat2 (F := F) := rfl
theorem mat3_eq : Cert.KernelIdeal.Terms.mat3 (F := F) = Cert.ReferenceIdeal.Terms.mat3 (F := F) := rfl
theorem vec0_eq : Cert.KernelIdeal.Terms.vec0 (F := F) = Cert.ReferenceIdeal.Terms.vec0 (F := F) := rfl
theorem vec1_eq : Cert.KernelIdeal.Terms.vec1 (F := F) = Cert.ReferenceIdeal.Terms.vec1 (F := F) := rfl
theorem vec2_eq : Cert.KernelIdeal.Terms.vec2 (F := F) = Cert.ReferenceIdeal.Terms.vec2 (F := F) := rfl
theorem vec3_eq : Cert.KernelIdeal.Terms.vec3 (F := F) = Cert.ReferenceIdeal.Terms.vec3 (F := F) := rfl

end Cert.Bridge

end
-- ==== Proof.NetBridge.lean ====
/-
  The specification's network over the kernel program's host functions is the network over the reference program's:
  they are the same functions.
-/
import proofs.«425461_j52037823758418_1_alg».proof.Proof.Bridge
import proofs.«425461_j52037823758418_1_alg».proof.Proof.Net

noncomputable section

namespace Cert.Bridge

open Idealize.ShloMosaic Cert.GinSpec

theorem network_eq (x0 : FVec Ideal Cert.KernelIdeal.S100000x64 .f32) (x1 : IVec Cert.KernelIdeal.S2x1280000 32)
    (x2 : IVec Cert.KernelIdeal.S100000 32) (x3 : FVec Ideal Cert.KernelIdeal.S64x64 .f32) (x4 : FVec Ideal Cert.KernelIdeal.S64 .f32)
    (x5 : FVec Ideal Cert.KernelIdeal.S64x64 .f32) (x6 x7 x8 x9 x10 : FVec Ideal Cert.KernelIdeal.S64 .f32)
    (x11 : FVec Ideal Cert.KernelIdeal.S4x64x64 .f32) (x12 : FVec Ideal Cert.KernelIdeal.S4x64 .f32)
    (x13 : FVec Ideal Cert.KernelIdeal.S4x64x64 .f32) (x14 x15 x16 x17 x18 : FVec Ideal Cert.KernelIdeal.S4x64 .f32)
    (x19 : FVec Ideal Cert.KernelIdeal.S64x64 .f32) (x20 : FVec Ideal Cert.KernelIdeal.S64 .f32) :
    networkWith (Cert.ReferenceIdeal.Terms.meanT (F := Ideal)) (fun h => Cert.ReferenceIdeal.Terms.aggT (F := Ideal) h x1) x0 x2
        ⟨x3, x4, x5, x6, x7, x8, x9, x10⟩
        ⟨Cert.ReferenceIdeal.Terms.mat0 (F := Ideal) x11, Cert.ReferenceIdeal.Terms.vec0 (F := Ideal) x12, Cert.ReferenceIdeal.Terms.mat0 (F := Ideal) x13, Cert.ReferenceIdeal.Terms.vec0 (F := Ideal) x14, Cert.ReferenceIdeal.Terms.vec0 (F := Ideal) x15, Cert.ReferenceIdeal.Terms.vec0 (F := Ideal) x16, Cert.ReferenceIdeal.Terms.vec0 (F := Ideal) x17, Cert.ReferenceIdeal.Terms.vec0 (F := Ideal) x18⟩
        ⟨Cert.ReferenceIdeal.Terms.mat1 (F := Ideal) x11, Cert.ReferenceIdeal.Terms.vec1 (F := Ideal) x12, Cert.ReferenceIdeal.Terms.mat1 (F := Ideal) x13, Cert.ReferenceIdeal.Terms.vec1 (F := Ideal) x14, Cert.ReferenceIdeal.Terms.vec1 (F := Ideal) x15, Cert.ReferenceIdeal.Terms.vec1 (F := Ideal) x16, Cert.ReferenceIdeal.Terms.vec1 (F := Ideal) x17, Cert.ReferenceIdeal.Terms.vec1 (F := Ideal) x18⟩
        ⟨Cert.ReferenceIdeal.Terms.mat2 (F := Ideal) x11, Cert.ReferenceIdeal.Terms.vec2 (F := Ideal) x12, Cert.ReferenceIdeal.Terms.mat2 (F := Ideal) x13, Cert.ReferenceIdeal.Terms.vec2 (F := Ideal) x14, Cert.ReferenceIdeal.Terms.vec2 (F := Ideal) x15, Cert.ReferenceIdeal.Terms.vec2 (F := Ideal) x16, Cert.ReferenceIdeal.Terms.vec2 (F := Ideal) x17, Cert.ReferenceIdeal.Terms.vec2 (F := Ideal) x18⟩
        ⟨Cert.ReferenceIdeal.Terms.mat3 (F := Ideal) x11, Cert.ReferenceIdeal.Terms.vec3 (F := Ideal) x12, Cert.ReferenceIdeal.Terms.mat3 (F := Ideal) x13, Cert.ReferenceIdeal.Terms.vec3 (F := Ideal) x14, Cert.ReferenceIdeal.Terms.vec3 (F := Ideal) x15, Cert.ReferenceIdeal.Terms.vec3 (F := Ideal) x16, Cert.ReferenceIdeal.Terms.vec3 (F := Ideal) x17, Cert.ReferenceIdeal.Terms.vec3 (F := Ideal) x18⟩
        x19 x20
      = networkWith (Cert.KernelIdeal.Terms.meanT (F := Ideal)) (fun h => Cert.KernelIdeal.Terms.aggT (F := Ideal) h x1) x0 x2
        ⟨x3, x4, x5, x6, x7, x8, x9, x10⟩
        ⟨Cert.KernelIdeal.Terms.mat0 (F := Ideal) x11, Cert.KernelIdeal.Terms.vec0 (F := Ideal) x12, Cert.KernelIdeal.Terms.mat0 (F := Ideal) x13, Cert.KernelIdeal.Terms.vec0 (F := Ideal) x14, Cert.KernelIdeal.Terms.vec0 (F := Ideal) x15, Cert.KernelIdeal.Terms.vec0 (F := Ideal) x16, Cert.KernelIdeal.Terms.vec0 (F := Ideal) x17, Cert.KernelIdeal.Terms.vec0 (F := Ideal) x18⟩
        ⟨Cert.KernelIdeal.Terms.mat1 (F := Ideal) x11, Cert.KernelIdeal.Terms.vec1 (F := Ideal) x12, Cert.KernelIdeal.Terms.mat1 (F := Ideal) x13, Cert.KernelIdeal.Terms.vec1 (F := Ideal) x14, Cert.KernelIdeal.Terms.vec1 (F := Ideal) x15, Cert.KernelIdeal.Terms.vec1 (F := Ideal) x16, Cert.KernelIdeal.Terms.vec1 (F := Ideal) x17, Cert.KernelIdeal.Terms.vec1 (F := Ideal) x18⟩
        ⟨Cert.KernelIdeal.Terms.mat2 (F := Ideal) x11, Cert.KernelIdeal.Terms.vec2 (F := Ideal) x12, Cert.KernelIdeal.Terms.mat2 (F := Ideal) x13, Cert.KernelIdeal.Terms.vec2 (F := Ideal) x14, Cert.KernelIdeal.Terms.vec2 (F := Ideal) x15, Cert.KernelIdeal.Terms.vec2 (F := Ideal) x16, Cert.KernelIdeal.Terms.vec2 (F := Ideal) x17, Cert.KernelIdeal.Terms.vec2 (F := Ideal) x18⟩
        ⟨Cert.KernelIdeal.Terms.mat3 (F := Ideal) x11, Cert.KernelIdeal.Terms.vec3 (F := Ideal) x12, Cert.KernelIdeal.Terms.mat3 (F := Ideal) x13, Cert.KernelIdeal.Terms.vec3 (F := Ideal) x14, Cert.KernelIdeal.Terms.vec3 (F := Ideal) x15, Cert.KernelIdeal.Terms.vec3 (F := Ideal) x16, Cert.KernelIdeal.Terms.vec3 (F := Ideal) x17, Cert.KernelIdeal.Terms.vec3 (F := Ideal) x18⟩
        x19 x20 := by
  rw [meanT_eq, aggT_eq, mat0_eq, mat1_eq, mat2_eq, mat3_eq, vec0_eq, vec1_eq, vec2_eq, vec3_eq]

end Cert.Bridge

end
-- ==== Proof.lean ====
/-
  The certificate of a five-layer message-passing network with a mean pool, against its plain reference, over the reals.

  Both programs compute, for 100000 nodes with 64 features, 1280000 edges and 128 graphs: five times, the sum of every
  node's in-neighbours' features (the same host gather and scatter-add in both programs), then per node two affine maps
  clamped at zero and a normalisation with fixed statistics, the later four layers adding the node's own features back;
  then a tanh head, and per graph the mean of its nodes' rows. The kernel does each layer in a region tiled over 5000-row
  blocks, with products taken after a change of float format that is the identity on the reals, and pools by multiplying
  a 0/1 membership table with the head's output, accumulating over the blocks; the reference multiplies whole arrays and
  pools by a scatter-add. Row by row and graph by graph these are the same sums: reordering and regrouping finite sums,
  and multiplying by an exact 0 or 1, are valid on the extended reals without any finiteness, so the precondition is
  never opened. The neighbour sums and the final division are carried as the host functions they are in both programs.
  The ideal pass recorded no rewrite, so the idealization claim is trivial; the word-level and idealized kernel's frames
  are the generated ones; the reference's frame is its run with the result dropped.
-/
import proofs.«425461_j52037823758418_1_alg».proof.Defs
import proofs.«425461_j52037823758418_1_alg».proof.Proof.Gen.Kernel
import proofs.«425461_j52037823758418_1_alg».proof.Proof.Gen.Kernel.Skeleton
import proofs.«425461_j52037823758418_1_alg».proof.Proof.Gen.Kernel.Launch
import proofs.«425461_j52037823758418_1_alg».proof.Proof.Gen.Kernel.Points
import proofs.«425461_j52037823758418_1_alg».proof.Proof.Gen.Kernel.Frame
import proofs.«425461_j52037823758418_1_alg».proof.Proof.Gen.KernelIdeal
import proofs.«425461_j52037823758418_1_alg».proof.Proof.Gen.KernelIdeal.Skeleton
import proofs.«425461_j52037823758418_1_alg».proof.Proof.Gen.KernelIdeal.Launch
import proofs.«425461_j52037823758418_1_alg».proof.Proof.Gen.KernelIdeal.Points
import proofs.«425461_j52037823758418_1_alg».proof.Proof.Gen.KernelIdeal.Frame
import proofs.«425461_j52037823758418_1_alg».proof.Proof.Gen.ReferenceIdeal
import proofs.«425461_j52037823758418_1_alg».proof.Proof.Gen.Pre_finite_inputs
import proofs.«425461_j52037823758418_1_alg».proof.Proof.KRun
import proofs.«425461_j52037823758418_1_alg».proof.Proof.KChain
import proofs.«425461_j52037823758418_1_alg».proof.Proof.RefChain
import proofs.«425461_j52037823758418_1_alg».proof.Proof.Bridge
import proofs.«425461_j52037823758418_1_alg».proof.Proof.NetBridge
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefChain.run_value (F := Ideal) m ρ)

/-- The ideal pass recorded no rewrite. -/
theorem preserves : Cert.preserves_Kernel_KernelIdeal := trivial

/-- From memories agreeing on the arguments both idealized programs end with the specification's network of the
    arguments in their result buffers: the kernel through its regions, the reference through its six stretches; the
    host-side neighbour sums and mean are the same functions in both. -/
theorem algebraic : Cert.algebraic_KernelIdeal_ReferenceIdeal := by
  intro m ρ m' ρ' _ hagree
  refine ⟨fun c => Cert.KernelIdeal.Gen.W13 m ρ c (Proc.devRef .tc Cert.KernelIdeal.main_v128),
    Cert.KernelIdeal.RunValue.run_value (F := Ideal) m ρ, ?_⟩
  refine (θ_run Cert.ReferenceIdeal.defs _ _).mono (fun _ h c => ⟨(h c).1.trans ?_, (h c).2⟩)
    (Cert.ReferenceIdeal.RefChain.run_value (F := Ideal) m' ρ')
  refine Eq.trans ?_ (Cert.KernelIdeal.KChain.value m ρ c).symm
  rw [Cert.ReferenceIdeal.RefChain.netT_eq]
  obtain ⟨e0, e1, e2, e3, e4, e5, e6, e7, e8, e9, e10, e11, e12, e13, e14, e15, e16, e17, e18, e19, e20⟩ := hagree c
  rw [e0, e1, e2, e3, e4, e5, e6, e7, e8, e9, e10, e11, e12, e13, e14, e15, e16, e17, e18, e19, e20]
  exact Cert.Bridge.network_eq _ _ _ _ _ _ _ _ _ _ _ _ _ _ _ _ _ _ _ _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
